-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S3200000 : Shape := ⟨1, ![3200000]⟩
abbrev S4 : Shape := ⟨1, ![4]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4 : S_.BroadcastsInDim S4 (![] : Fin 0 → Fin S4.rank)
  reducesTo_S4_S_d0 : S4.ReducesTo [0] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  bcast_S_S4x32 : S_.BroadcastsInDim S4x32 (![] : Fin 0 → Fin S4x32.rank)
  reducesTo_S4x32_S_d0_1 : S4x32.ReducesTo [0, 1] S_
  bcast_S_S32x4 : S_.BroadcastsInDim S32x4 (![] : Fin 0 → Fin S32x4.rank)
  reducesTo_S32x4_S_d0_1 : S32x4.ReducesTo [0, 1] S_
  bcast_S_S3200000 : S_.BroadcastsInDim S3200000 (![] : Fin 0 → Fin S3200000.rank)
  reducesTo_S3200000_S_d0 : S3200000.ReducesTo [0] S_

variable [Facts]

def fn_part4 {F : FTy → Type} [FloatOps F] (main_arg1 : IVec S3200000 32) (main_arg16 : FVec F S4 .f32) (main_v63 : IVec S_ 1) (main_v67 : IVec S_ 1) : IVec S_ 1 :=
  let main_v68 : IVec S_ 1 := andi main_v63 main_v67
  let main_v69 : FVec F S4 .f32 := Host.absf main_arg16
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_c_28 : IVec S_ 32 := constantI S_ 32 4294867296#32
  let main_v74 : IVec S3200000 32 := broadcastInDim S3200000 ![] bcast_S_S3200000 main_c_28
  let main_v75 : IVec S3200000 1 := cmpi .sge main_arg1 main_v74
  let main_c_29 : IVec S_ 32 := constantI S_ 32 100000#32
  let main_v76 : IVec S3200000 32 := broadcastInDim S3200000 ![] bcast_S_S3200000 main_c_29
  let main_v77 : IVec S3200000 1 := cmpi .slt main_arg1 main_v76
  let main_v78 : IVec S3200000 1 := andi main_v75 main_v77
  let main_c_30 : IVec S_ 1 := constantI S_ 1 1#1
  let main_v79 : IVec S_ 1 := (fun x v => Host.reduce IntOp.andi x v reducesTo_S3200000_S_d0 h_S_) main_v78 main_c_30
  let main_v80 : IVec S_ 1 := andi main_v73 main_v79
  main_v80

def fn_part3 {F : FTy → Type} [FloatOps F] (main_arg1 : IVec S3200000 32) (main_arg13 : FVec F S32x32 .f32) (main_arg14 : FVec F S32 .f32) (main_arg15 : FVec F S32x4 .f32) (main_arg16 : FVec F S4 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x4 .f32 := Host.absf main_arg15
  let main_cst_24 : FVec F S_ .f32 := constant S_ .f32 0x7F800000#32
  let main_v65 : FVec F S32x4 .f32 := broadcastInDim S32x4 ![] bcast_S_S32x4 main_cst_24
  let main_v66 : IVec S32x4 1 := cmpf .olt main_v64 main_v65
  let main_c_25 : IVec S_ 1 := constantI S_ 1 1#1
  let main_v67 : IVec S_ 1 := (fun x v => Host.reduce IntOp.andi x v reducesTo_S32x4_S_d0_1 h_S_) main_v66 main_c_25
  fn_part4 (F := F) main_arg1 main_arg16 main_v63 main_v67

def fn_part2 {F : FTy → Type} [FloatOps F] (main_arg1 : IVec S3200000 32) (main_arg9 : FVec F S32x2 .f32) (main_arg10 : FVec F S2 .f32) (main_arg11 : FVec F S4x32 .f32) (main_arg12 : FVec F S32 .f32) (main_arg13 : FVec F S32x32 .f32) (main_arg14 : FVec F S32 .f32) (main_arg15 : FVec F S32x4 .f32) (main_arg16 : FVec F S4 .f32) (main_v33 : IVec S_ 1) : IVec S_ 1 :=
  let main_v34 : FVec F S32x2 .f32 := Host.absf main_arg9
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S4x32 .f32 := Host.absf main_arg11
  let main_cst_16 : FVec F S_ .f32 := constant S_ .f32 0x7F800000#32
  let main_v45 : FVec F S4x32 .f32 := broadcastInDim S4x32 ![] bcast_S_S4x32 main_cst_16
  let main_v46 : IVec S4x32 1 := cmpf .olt main_v44 main_v45
  let main_c_17 : IVec S_ 1 := constantI S_ 1 1#1
  let main_v47 : IVec S_ 1 := (fun x v => Host.reduce IntOp.andi x v reducesTo_S4x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg1 main_arg13 main_arg14 main_arg15 main_arg16 main_v48 main_v49 main_v50

def fn_part1 {F : FTy → Type} [FloatOps F] (main_arg1 : IVec S3200000 32) (main_arg6 : FVec F S32 .f32) (main_arg7 : FVec F S32x32 .f32) (main_arg8 : FVec F S32 .f32) (main_arg9 : FVec F S32x2 .f32) (main_arg10 : FVec F S2 .f32) (main_arg11 : FVec F S4x32 .f32) (main_arg12 : FVec F S32 .f32) (main_arg13 : FVec F S32x32 .f32) (main_arg14 : FVec F S32 .f32) (main_arg15 : FVec F S32x4 .f32) (main_arg16 : FVec F S4 .f32) (main_v13 : IVec S_ 1) (main_v16 : IVec S8x32 1) : IVec S_ 1 :=
  let main_c_5 : IVec S_ 1 := constantI S_ 1 1#1
  let main_v17 : IVec S_ 1 := (fun x v => Host.reduce IntOp.andi x v reducesTo_S8x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : FVec F S100000x4 .f32) (main_arg1 : IVec S3200000 32) (main_arg2 : IVec S3200000 32) (main_arg3 : FVec F S4 .f32) (main_arg4 : FVec F S4 .f32) (main_arg5 : FVec F S8x32 .f32) (main_arg6 : FVec F S32 .f32) (main_arg7 : FVec F S32x32 .f32) (main_arg8 : FVec F S32 .f32) (main_arg9 : FVec F S32x2 .f32) (main_arg10 : FVec F S2 .f32) (main_arg11 : FVec F S4x32 .f32) (main_arg12 : FVec F S32 .f32) (main_arg13 : FVec F S32x32 .f32) (main_arg14 : FVec F S32 .f32) (main_arg15 : FVec F S32x4 .f32) (main_arg16 : FVec F S4 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4 .f32 := Host.absf main_arg3
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4 .f32 := Host.absf main_arg4
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S8x32 .f32 := Host.absf main_arg5
  let main_cst_4 : FVec F S_ .f32 := constant S_ .f32 0x7F800000#32
  let main_v15 : FVec F S8x32 .f32 := broadcastInDim S8x32 ![] bcast_S_S8x32 main_cst_4
  let main_v16 : IVec S8x32 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S100000x4 : Shape := ⟨2, ![100000, 4]⟩
abbrev S3200000 : Shape := ⟨1, ![3200000]⟩
abbrev S4 : Shape := ⟨1, ![4]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S_ : Shape := ⟨0, ![]⟩
abbrev S1x4 : Shape := ⟨2, ![1, 4]⟩
abbrev S3200000x1 : Shape := ⟨2, ![3200000, 1]⟩
abbrev S1 : Shape := ⟨1, ![1]⟩
abbrev S1x1 : Shape := ⟨2, ![1, 1]⟩
abbrev S3200000x4 : Shape := ⟨2, ![3200000, 4]⟩
abbrev S1x32 : Shape := ⟨2, ![1, 32]⟩
abbrev S1x2 : Shape := ⟨2, ![1, 2]⟩
abbrev S3200000x2 : Shape := ⟨2, ![3200000, 2]⟩
abbrev S8000x4 : Shape := ⟨2, ![8000, 4]⟩
abbrev S8000x2 : Shape := ⟨2, ![8000, 2]⟩
abbrev S8000x32 : Shape := ⟨2, ![8000, 32]⟩
abbrev S100000x2 : Shape := ⟨2, ![100000, 2]⟩
abbrev S100000 : Shape := ⟨1, ![100000]⟩
abbrev S100000x1 : Shape := ⟨2, ![100000, 1]⟩
abbrev S2x32 : Shape := ⟨2, ![2, 32]⟩

abbrev nBuf : Space → Nat
  | .hbm => 183
  | .vmem => 26
  | .smem => 0
  | _ => 0

abbrev hbmTy0_0 (i : Nat) : BufTy := match i % 128 with
  | 0 => ⟨S100000x4, .f32⟩
  | 1 => ⟨S3200000, .i32⟩
  | 2 => ⟨S3200000, .i32⟩
  | 3 => ⟨S4, .f32⟩
  | 4 => ⟨S4, .f32⟩
  | 5 => ⟨S8x32, .f32⟩
  | 6 => ⟨S32, .f32⟩
  | 7 => ⟨S32x32, .f32⟩
  | 8 => ⟨S32, .f32⟩
  | 9 => ⟨S32x2, .f32⟩
  | 10 => ⟨S2, .f32⟩
  | 11 => ⟨S4x32, .f32⟩
  | 12 => ⟨S32, .f32⟩
  | 13 => ⟨S32x32, .f32⟩
  | 14 => ⟨S32, .f32⟩
  | 15 => ⟨S32x4, .f32⟩
  | 16 => ⟨S4, .f32⟩
  | 17 => ⟨S_, .f32⟩
  | 18 => ⟨S4, .f32⟩
  | 19 => ⟨S_, .f32⟩
  | 20 => ⟨S4, .f32⟩
  | 21 => ⟨S4, .f32⟩
  | 22 => ⟨S1x4, .f32⟩
  | 23 => ⟨S100000x4, .f32⟩
  | 24 => ⟨S100000x4, .f32⟩
  | 25 => ⟨S100000x4, .f32⟩
  | 26 => ⟨S_, .f32⟩
  | 27 => ⟨S4, .f32⟩
  | 28 => ⟨S_, .f32⟩
  | 29 => ⟨S4, .f32⟩
  | 30 => ⟨S4, .f32⟩
  | 31 => ⟨S1x4, .f32⟩
  | 32 => ⟨S100000x4, .f32⟩
  | 33 => ⟨S100000x4, .f32⟩
  | 34 => ⟨S_, .f32⟩
  | 35 => ⟨S4, .f32⟩
  | 36 => ⟨S4, .f32⟩
  | 37 => ⟨S4, .f32⟩
  | 38 => ⟨S1x4, .f32⟩
  | 39 => ⟨S100000x4, .f32⟩
  | 40 => ⟨S100000x4, .f32⟩
  | 41 => ⟨S1x4, .f32⟩
  | 42 => ⟨S100000x4, .f32⟩
  | 43 => ⟨S100000x4, .f32⟩
  | 44 => ⟨S1x4, .f32⟩
  | 45 => ⟨S100000x4, .f32⟩
  | 46 => ⟨S100000x4, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S1, .i32⟩
  | 56 => ⟨S_, .i32⟩
  | 57 => ⟨S3200000x1, .i32⟩
  | 58 => ⟨S3200000x1, .i1⟩
  | 59 => ⟨S1x1, .i32⟩
  | 60 => ⟨S3200000x1, .i32⟩
  | 61 => ⟨S3200000x1, .i1⟩
  | 62 => ⟨S3200000x1, .i1⟩
  | 63 => ⟨S_, .i1⟩
  | 64 => ⟨S3200000, .i1⟩
  | 65 => ⟨S3200000x4, .f32⟩
  | 66 => ⟨S3200000x4, .i1⟩
  | 67 => ⟨S_, .f32⟩
  | 68 => ⟨S3200000x4, .f32⟩
  | 69 => ⟨S3200000x4, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S1, .i32⟩
  | 79 => ⟨S_, .i32⟩
  | 80 => ⟨S3200000x1, .i32⟩
  | 81 => ⟨S3200000x1, .i1⟩
  | 82 => ⟨S1x1, .i32⟩
  | 83 => ⟨S3200000x1, .i32⟩
  | 84 => ⟨S3200000x1, .i1⟩
  | 85 => ⟨S3200000x1, .i1⟩
  | 86 => ⟨S_, .i1⟩
  | 87 => ⟨S3200000, .i1⟩
  | 88 => ⟨S3200000x4, .f32⟩
  | 89 => ⟨S3200000x4, .i1⟩
  | 90 => ⟨S_, .f32⟩
  | 91 => ⟨S3200000x4, .f32⟩
  | 92 => ⟨S3200000x4, .f32⟩
  | 93 => ⟨S4x32, .f32⟩
  | 94 => ⟨S4x32, .f32⟩
  | 95 => ⟨S1x32, .f32⟩
  | 96 => ⟨S1x32, .f32⟩
  | 97 => ⟨S1x2, .f32⟩
  | 98 => ⟨S3200000x2, .f32⟩
  | 99 => ⟨S_, .f32⟩
  | 100 => ⟨S100000x2, .f32⟩
  | 101 => ⟨S3200000x1, .i32⟩
  | 102 => ⟨S100000x2, .f32⟩
  | 103 => ⟨S_, .f32⟩
  | 104 => ⟨S3200000, .f32⟩
  | 105 => ⟨S_, .f32⟩
  | 106 => ⟨S100000, .f32⟩
  | 107 => ⟨S3200000x1, .i32⟩
  | 108 => ⟨S100000, .f32⟩
  | 109 => ⟨S_, .f32⟩
  | 110 => ⟨S100000, .f32⟩
  | 111 => ⟨S100000, .f32⟩
  | 112 => ⟨S100000x1, .f32⟩
  | 113 => ⟨S100000x2, .f32⟩
  | 114 => ⟨S100000x2, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S1, .i32⟩
  | 124 => ⟨S_, .i32⟩
  | 125 => ⟨S3200000x1, .i32⟩
  | 126 => ⟨S3200000x1, .i1⟩
  | 127 => ⟨S1x1, .i32⟩
  | _ => ⟨S100000x4, .f32⟩

abbrev hbmTy0_1 (i : Nat) : BufTy := match i % 128 with
  | 0 => ⟨S3200000x1, .i32⟩
  | 1 => ⟨S3200000x1, .i1⟩
  | 2 => ⟨S3200000x1, .i1⟩
  | 3 => ⟨S_, .i1⟩
  | 4 => ⟨S3200000, .i1⟩
  | 5 => ⟨S3200000x2, .f32⟩
  | 6 => ⟨S3200000x2, .i1⟩
  | 7 => ⟨S_, .f32⟩
  | 8 => ⟨S3200000x2, .f32⟩
  | 9 => ⟨S3200000x2, .f32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S1, .i32⟩
  | 19 => ⟨S_, .i32⟩
  | 20 => ⟨S3200000x1, .i32⟩
  | 21 => ⟨S3200000x1, .i1⟩
  | 22 => ⟨S1x1, .i32⟩
  | 23 => ⟨S3200000x1, .i32⟩
  | 24 => ⟨S3200000x1, .i1⟩
  | 25 => ⟨S3200000x1, .i1⟩
  | 26 => ⟨S_, .i1⟩
  | 27 => ⟨S3200000, .i1⟩
  | 28 => ⟨S3200000x2, .f32⟩
  | 29 => ⟨S3200000x2, .i1⟩
  | 30 => ⟨S_, .f32⟩
  | 31 => ⟨S3200000x2, .f32⟩
  | 32 => ⟨S3200000x2, .f32⟩
  | 33 => ⟨S2x32, .f32⟩
  | 34 => ⟨S2x32, .f32⟩
  | 35 => ⟨S1x32, .f32⟩
  | 36 => ⟨S1x32, .f32⟩
  | 37 => ⟨S1x4, .f32⟩
  | 38 => ⟨S3200000x4, .f32⟩
  | 39 => ⟨S_, .f32⟩
  | 40 => ⟨S100000x4, .f32⟩
  | 41 => ⟨S3200000x1, .i32⟩
  | 42 => ⟨S100000x4, .f32⟩
  | 43 => ⟨S_, .f32⟩
  | 44 => ⟨S3200000, .f32⟩
  | 45 => ⟨S_, .f32⟩
  | 46 => ⟨S100000, .f32⟩
  | 47 => ⟨S3200000x1, .i32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x4, .f32⟩
  | 54 => ⟨S100000x4, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S8000x4, .f32⟩
  | .local _ .vmem, ⟨1, _⟩ => ⟨S8000x4, .f32⟩
  | .local _ .vmem, ⟨2, _⟩ => ⟨S8000x4, .f32⟩
  | .local _ .vmem, ⟨3, _⟩ => ⟨S8000x4, .f32⟩
  | .local _ .vmem, ⟨4, _⟩ => ⟨S4x32, .f32⟩
  | .local _ .vmem, ⟨5, _⟩ => ⟨S4x32, .f32⟩
  | .local _ .vmem, ⟨6, _⟩ => ⟨S1x32, .f32⟩
  | .local _ .vmem, ⟨7, _⟩ => ⟨S32x32, .f32⟩
  | .local _ .vmem, ⟨8, _⟩ => ⟨S1x32, .f32⟩
  | .local _ .vmem, ⟨9, _⟩ => ⟨S32x2, .f32⟩
  | .local _ .vmem, ⟨10, _⟩ => ⟨S1x2, .f32⟩
  | .local _ .vmem, ⟨11, _⟩ => ⟨S8000x2, .f32⟩
  | .local _ .vmem, ⟨12, _⟩ => ⟨S8000x2, .f32⟩
  | .local _ .vmem, ⟨13, _⟩ => ⟨S8000x2, .f32⟩
  | .local _ .vmem, ⟨14, _⟩ => ⟨S8000x2, .f32⟩
  | .local _ .vmem, ⟨15, _⟩ => ⟨S8000x2, .f32⟩
  | .local _ .vmem, ⟨16, _⟩ => ⟨S8000x2, .f32⟩
  | .local _ .vmem, ⟨17, _⟩ => ⟨S2x32, .f32⟩
  | .local _ .vmem, ⟨18, _⟩ => ⟨S2x32, .f32⟩
  | .local _ .vmem, ⟨19, _⟩ => ⟨S1x32, .f32⟩
  | .local _ .vmem, ⟨20, _⟩ => ⟨S32x32, .f32⟩
  | .local _ .vmem, ⟨21, _⟩ => ⟨S1x32, .f32⟩
  | .local _ .vmem, ⟨22, _⟩ => ⟨S32x4, .f32⟩
  | .local _ .vmem, ⟨23, _⟩ => ⟨S1x4, .f32⟩
  | .local _ .vmem, ⟨24, _⟩ => ⟨S8000x4, .f32⟩
  | .local _ .vmem, ⟨25, _⟩ => ⟨S8000x4, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_cst : Ref sig .tc := ⟨.hbm, 67, rfl⟩
abbrev main_call0_v15 : Ref sig .tc := ⟨.hbm, 68, rfl⟩
abbrev main_v25 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_cst_4 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_cst_5 : Ref sig .tc := ⟨.hbm, 103, rfl⟩
abbrev main_v36 : Ref sig .tc := ⟨.hbm, 104, rfl⟩
abbrev main_cst_6 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_cst_7 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_call2_c : Ref sig .tc := ⟨.hbm, 115, rfl⟩
abbrev main_call2_v0 : Ref sig .tc := ⟨.hbm, 116, rfl⟩
abbrev main_call2_v1 : Ref sig .tc := ⟨.hbm, 117, rfl⟩
abbrev main_call2_c_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_c_1 : Ref sig .tc := ⟨.hbm, 123, rfl⟩
abbrev main_call2_c_2 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_c_3 : Ref sig .tc := ⟨.hbm, 131, rfl⟩
abbrev main_call2_v12 : Ref sig .tc := ⟨.hbm, 132, rfl⟩
abbrev main_call2_v13 : Ref sig .tc := ⟨.hbm, 133, rfl⟩
abbrev main_call2_v14 : Ref sig .tc := ⟨.hbm, 134, rfl⟩
abbrev main_call2_cst : Ref sig .tc := ⟨.hbm, 135, rfl⟩
abbrev main_call2_v15 : Ref sig .tc := ⟨.hbm, 136, rfl⟩
abbrev main_v45 : Ref sig .tc := ⟨.hbm, 137, rfl⟩
abbrev main_call3_c : Ref sig .tc := ⟨.hbm, 138, rfl⟩
abbrev main_call3_v0 : Ref sig .tc := ⟨.hbm, 139, rfl⟩
abbrev main_call3_v1 : Ref sig .tc := ⟨.hbm, 140, rfl⟩
abbrev main_call3_c_0 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_c_1 : Ref sig .tc := ⟨.hbm, 146, rfl⟩
abbrev main_call3_c_2 : Ref sig .tc := ⟨.hbm, 147, rfl⟩
abbrev main_call3_v6 : Ref sig .tc := ⟨.hbm, 148, rfl⟩
abbrev main_call3_v7 : Ref sig .tc := ⟨.hbm, 149, rfl⟩
abbrev main_call3_v8 : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_c_3 : Ref sig .tc := ⟨.hbm, 154, rfl⟩
abbrev main_call3_v12 : Ref sig .tc := ⟨.hbm, 155, rfl⟩
abbrev main_call3_v13 : Ref sig .tc := ⟨.hbm, 156, rfl⟩
abbrev main_call3_v14 : Ref sig .tc := ⟨.hbm, 157, rfl⟩
abbrev main_call3_cst : Ref sig .tc := ⟨.hbm, 158, rfl⟩
abbrev main_call3_v15 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_cst_8 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_cst_9 : Ref sig .tc := ⟨.hbm, 171, rfl⟩
abbrev main_v56 : Ref sig .tc := ⟨.hbm, 172, rfl⟩
abbrev main_cst_10 : Ref sig .tc := ⟨.hbm, 173, rfl⟩
abbrev main_v57 : Ref sig .tc := ⟨.hbm, 174, rfl⟩
abbrev main_v58 : Ref sig .tc := ⟨.hbm, 175, rfl⟩
abbrev main_v59 : Ref sig .tc := ⟨.hbm, 176, rfl⟩
abbrev main_cst_11 : Ref sig .tc := ⟨.hbm, 177, rfl⟩
abbrev main_v60 : Ref sig .tc := ⟨.hbm, 178, rfl⟩
abbrev main_v61 : Ref sig .tc := ⟨.hbm, 179, rfl⟩
abbrev main_v62 : Ref sig .tc := ⟨.hbm, 180, rfl⟩
abbrev main_v63 : Ref sig .tc := ⟨.hbm, 181, rfl⟩
abbrev main_v64 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8000x4 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  reducesTo_S100000x4_S4_d0 : S100000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  bcast_S3200000_S3200000x4_0 : S3200000.BroadcastsInDim S3200000x4 (![0] : Fin 1 → Fin S3200000x4.rank)
  bcast_S_S3200000x4 : S_.BroadcastsInDim S3200000x4 (![] : Fin 0 → Fin S3200000x4.rank)
  slices_S8x32_S4x32_0_0 : S8x32.Slices ![0, 0] S4x32
  slices_S8x32_S4x32_4_0 : S8x32.Slices ![4, 0] S4x32
  shapeCasts_S32_S1x32 : S32.ShapeCasts S1x32
  shapeCasts_S2_S1x2 : S2.ShapeCasts S1x2
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  bitsLt_bf16_f32 : FTy.bits .bf16 < FTy.bits .f32
  inb_S4x32_S4x32_0_0 : ∀ a, (![0, 0] : Fin 2 → Nat) a + S4x32.size a ≤ S4x32.size a
  h_S4x32 : 0 < S4x32.numel
  shapeCasts_S4x32_S4x32 : S4x32.ShapeCasts S4x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x32_S32x32_0_0 : ∀ a, (![0, 0] : Fin 2 → Nat) a + S32x32.size a ≤ S32x32.size a
  h_S32x32 : 0 < S32x32.numel
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  bcast_S3200000_S3200000x2_0 : S3200000.BroadcastsInDim S3200000x2 (![0] : Fin 1 → Fin S3200000x2.rank)
  bcast_S_S3200000x2 : S_.BroadcastsInDim S3200000x2 (![] : Fin 0 → Fin S3200000x2.rank)
  slices_S4x32_S2x32_0_0 : S4x32.Slices ![0, 0] S2x32
  slices_S4x32_S2x32_2_0 : S4x32.Slices ![2, 0] S2x32
  shapeCasts_S4_S1x4 : S4.ShapeCasts S1x4
  shapeCasts_S8000x2_S8000x2 : S8000x2.ShapeCasts S8000x2
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S32x4_S32x4_0_0 : ∀ a, (![0, 0] : Fin 2 → Nat) a + S32x4.size a ≤ S32x4.size a
  h_S32x4 : 0 < S32x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S8000x4 : S1x4.Broadcasts S8000x4
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  gather_S100000x4_S3200000x1_S3200000x4_1_0_n_n_0_1_14_wf : GatherDims.WF S100000x4 S3200000x1 S3200000x4 [1] [0] [] [0] [] 1 ![1, 4]
  dot_S8000x4_S4x32_S8000x32_1_0_0_1_n_n_wf : DotDims.WF S8000x4 S4x32 S8000x32 [1] [0] [0] [1] [] []
  dot_S8000x32_S32x32_S8000x32_1_0_0_1_n_n_wf : DotDims.WF S8000x32 S32x32 S8000x32 [1] [0] [0] [1] [] []
  dot_S8000x32_S32x2_S8000x2_1_0_0_1_n_n_wf : DotDims.WF S8000x32 S32x2 S8000x2 [1] [0] [0] [1] [] []
  scatter_S100000x2_S3200000x1_S3200000x2_1_0_0_1_wf : ScatterDims.WF S100000x2 S3200000x1 S3200000x2 [1] [0] [0] 1
  scatter_S100000_S3200000x1_S3200000_n_0_0_1_wf : ScatterDims.WF S100000 S3200000x1 S3200000 [] [0] [0] 1
  gather_S100000x2_S3200000x1_S3200000x2_1_0_n_n_0_1_12_wf : GatherDims.WF S100000x2 S3200000x1 S3200000x2 [1] [0] [] [0] [] 1 ![1, 2]
  dot_S8000x2_S2x32_S8000x32_1_0_0_1_n_n_wf : DotDims.WF S8000x2 S2x32 S8000x32 [1] [0] [0] [1] [] []
  dot_S8000x32_S32x4_S8000x4_1_0_0_1_n_n_wf : DotDims.WF S8000x32 S32x4 S8000x4 [1] [0] [0] [1] [] []
  scatter_S100000x4_S3200000x1_S3200000x4_1_0_0_1_wf : ScatterDims.WF S100000x4 S3200000x1 S3200000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S3200000x4.size a
  hwx0_0 : ∀ i : grid0.Coords, EltTy.bits .f32 = 32 ∨ (Rect.block (s := S3200000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S3200000x4.size a
  hwx0_1 : ∀ i : grid0.Coords, EltTy.bits .f32 = 32 ∨ (Rect.block (s := S3200000x4) S8000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x32.size a ≤ S4x32.size a
  hwx0_2 : ∀ i : grid0.Coords, EltTy.bits .f32 = 32 ∨ (Rect.block (s := S4x32) S4x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x32.size a ≤ S4x32.size a
  hwx0_3 : ∀ i : grid0.Coords, EltTy.bits .f32 = 32 ∨ (Rect.block (s := S4x32) S4x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x2.size a ≤ S32x2.size a
  hwx0_7 : ∀ i : grid0.Coords, EltTy.bits .f32 = 32 ∨ (Rect.block (s := S32x2) S32x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x2.size a ≤ S3200000x2.size a
  hwx0_9 : ∀ i : grid0.Coords, EltTy.bits .f32 = 32 ∨ (Rect.block (s := S3200000x2) S8000x2.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x2.size a ≤ S3200000x2.size a
  hwx1_0 : ∀ i : grid1.Coords, EltTy.bits .f32 = 32 ∨ (Rect.block (s := S3200000x2) S8000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x2.size a ≤ S3200000x2.size a
  hwx1_1 : ∀ i : grid1.Coords, EltTy.bits .f32 = 32 ∨ (Rect.block (s := S3200000x2) S8000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x32.size a ≤ S2x32.size a
  hwx1_2 : ∀ i : grid1.Coords, EltTy.bits .f32 = 32 ∨ (Rect.block (s := S2x32) S2x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x32.size a ≤ S2x32.size a
  hwx1_3 : ∀ i : grid1.Coords, EltTy.bits .f32 = 32 ∨ (Rect.block (s := S2x32) S2x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x4.size a ≤ S32x4.size a
  hwx1_7 : ∀ i : grid1.Coords, EltTy.bits .f32 = 32 ∨ (Rect.block (s := S32x4) S32x4.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x4.size a ≤ S1x4.size a
  hwx1_8 : ∀ i : grid1.Coords, EltTy.bits .f32 = 32 ∨ (Rect.block (s := S1x4) S1x4.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x4.size a ≤ S3200000x4.size a
  hwx1_9 : ∀ i : grid1.Coords, EltTy.bits .f32 = 32 ∨ (Rect.block (s := S3200000x4) S8000x4.size (cc1_transform_9 i) (hinb1_9 i)).WholeWords (EltTy.packing .f32)

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S8000x4_S4x32_S8000x32_1_0_0_1_n_n : DotDims S8000x4 S4x32 S8000x32 where
  lhsContracting := [1]
  rhsContracting := [0]
  lhsNonContracting := [0]
  rhsNonContracting := [1]
  lhsBatch := []
  rhsBatch := []
  wf := dot_S8000x4_S4x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def dot_S8000x32_S32x2_S8000x2_1_0_0_1_n_n : DotDims S8000x32 S32x2 S8000x2 where
  lhsContracting := [1]
  rhsContracting := [0]
  lhsNonContracting := [0]
  rhsNonContracting := [1]
  lhsBatch := []
  rhsBatch := []
  wf := dot_S8000x32_S32x2_S8000x2_1_0_0_1_n_n_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S8000x2_S2x32_S8000x32_1_0_0_1_n_n : DotDims S8000x2 S2x32 S8000x32 where
  lhsContracting := [1]
  rhsContracting := [0]
  lhsNonContracting := [0]
  rhsNonContracting := [1]
  lhsBatch := []
  rhsBatch := []
  wf := dot_S8000x2_S2x32_S8000x32_1_0_0_1_n_n_wf
def dot_S8000x32_S32x4_S8000x4_1_0_0_1_n_n : DotDims S8000x32 S32x4 S8000x4 where
  lhsContracting := [1]
  rhsContracting := [0]
  lhsNonContracting := [0]
  rhsNonContracting := [1]
  lhsBatch := []
  rhsBatch := []
  wf := dot_S8000x32_S32x4_S8000x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

abbrev win0_0 : Pipeline.Window sig grid0 :=
  Pipeline.Window.ofSpec (Memref.whole main_v25) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S4x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S8000x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v45) S8000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S8000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S32x4.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S1x4.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v52) S8000x4.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x4 : Shape := ⟨2, ![100000, 4]⟩
abbrev S3200000 : Shape := ⟨1, ![3200000]⟩
abbrev S4 : Shape := ⟨1, ![4]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S_ : Shape := ⟨0, ![]⟩
abbrev S1x4 : Shape := ⟨2, ![1, 4]⟩
abbrev S3200000x1 : Shape := ⟨2, ![3200000, 1]⟩
abbrev S3200000x4 : Shape := ⟨2, ![3200000, 4]⟩
abbrev S3200000x8 : Shape := ⟨2, ![3200000, 8]⟩
abbrev S3200000x32 : Shape := ⟨2, ![3200000, 32]⟩
abbrev S1x32 : Shape := ⟨2, ![1, 32]⟩
abbrev S3200000x2 : Shape := ⟨2, ![3200000, 2]⟩
abbrev S1x2 : Shape := ⟨2, ![1, 2]⟩
abbrev S100000x2 : Shape := ⟨2, ![100000, 2]⟩
abbrev S100000 : Shape := ⟨1, ![100000]⟩
abbrev S100000x1 : Shape := ⟨2, ![100000, 1]⟩

abbrev nBuf : Space → Nat
  | .hbm => 158
  | .vmem => 0
  | .smem => 0
  | _ => 0

abbrev hbmTy0_0 (i : Nat) : BufTy := match i % 128 with
  | 0 => ⟨S100000x4, .f32⟩
  | 1 => ⟨S3200000, .i32⟩
  | 2 => ⟨S3200000, .i32⟩
  | 3 => ⟨S4, .f32⟩
  | 4 => ⟨S4, .f32⟩
  | 5 => ⟨S8x32, .f32⟩
  | 6 => ⟨S32, .f32⟩
  | 7 => ⟨S32x32, .f32⟩
  | 8 => ⟨S32, .f32⟩
  | 9 => ⟨S32x2, .f32⟩
  | 10 => ⟨S2, .f32⟩
  | 11 => ⟨S4x32, .f32⟩
  | 12 => ⟨S32, .f32⟩
  | 13 => ⟨S32x32, .f32⟩
  | 14 => ⟨S32, .f32⟩
  | 15 => ⟨S32x4, .f32⟩
  | 16 => ⟨S4, .f32⟩
  | 17 => ⟨S_, .f32⟩
  | 18 => ⟨S4, .f32⟩
  | 19 => ⟨S_, .f32⟩
  | 20 => ⟨S4, .f32⟩
  | 21 => ⟨S4, .f32⟩
  | 22 => ⟨S1x4, .f32⟩
  | 23 => ⟨S100000x4, .f32⟩
  | 24 => ⟨S100000x4, .f32⟩
  | 25 => ⟨S100000x4, .f32⟩
  | 26 => ⟨S_, .f32⟩
  | 27 => ⟨S4, .f32⟩
  | 28 => ⟨S_, .f32⟩
  | 29 => ⟨S4, .f32⟩
  | 30 => ⟨S4, .f32⟩
  | 31 => ⟨S1x4, .f32⟩
  | 32 => ⟨S100000x4, .f32⟩
  | 33 => ⟨S100000x4, .f32⟩
  | 34 => ⟨S_, .f32⟩
  | 35 => ⟨S4, .f32⟩
  | 36 => ⟨S4, .f32⟩
  | 37 => ⟨S4, .f32⟩
  | 38 => ⟨S1x4, .f32⟩
  | 39 => ⟨S100000x4, .f32⟩
  | 40 => ⟨S100000x4, .f32⟩
  | 41 => ⟨S1x4, .f32⟩
  | 42 => ⟨S100000x4, .f32⟩
  | 43 => ⟨S100000x4, .f32⟩
  | 44 => ⟨S1x4, .f32⟩
  | 45 => ⟨S100000x4, .f32⟩
  | 46 => ⟨S100000x4, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x4, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000x4, .f32⟩
  | 65 => ⟨S3200000x4, .f32⟩
  | 66 => ⟨S3200000x8, .f32⟩
  | 67 => ⟨S3200000x32, .f32⟩
  | 68 => ⟨S1x32, .f32⟩
  | 69 => ⟨S3200000x32, .f32⟩
  | 70 => ⟨S3200000x32, .f32⟩
  | 71 => ⟨S_, .f32⟩
  | 72 => ⟨S3200000x32, .f32⟩
  | 73 => ⟨S3200000x32, .f32⟩
  | 74 => ⟨S3200000x32, .f32⟩
  | 75 => ⟨S1x32, .f32⟩
  | 76 => ⟨S3200000x32, .f32⟩
  | 77 => ⟨S3200000x32, .f32⟩
  | 78 => ⟨S_, .f32⟩
  | 79 => ⟨S3200000x32, .f32⟩
  | 80 => ⟨S3200000x32, .f32⟩
  | 81 => ⟨S3200000x2, .f32⟩
  | 82 => ⟨S1x2, .f32⟩
  | 83 => ⟨S3200000x2, .f32⟩
  | 84 => ⟨S3200000x2, .f32⟩
  | 85 => ⟨S_, .f32⟩
  | 86 => ⟨S3200000x2, .f32⟩
  | 87 => ⟨S3200000x2, .f32⟩
  | 88 => ⟨S_, .f32⟩
  | 89 => ⟨S100000x2, .f32⟩
  | 90 => ⟨S3200000x1, .i32⟩
  | 91 => ⟨S100000x2, .f32⟩
  | 92 => ⟨S_, .f32⟩
  | 93 => ⟨S3200000, .f32⟩
  | 94 => ⟨S_, .f32⟩
  | 95 => ⟨S100000, .f32⟩
  | 96 => ⟨S3200000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x2, .f32⟩
  | 103 => ⟨S100000x2, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000x2, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x2, .f32⟩
  | 122 => ⟨S3200000x2, .f32⟩
  | 123 => ⟨S3200000x4, .f32⟩
  | 124 => ⟨S3200000x32, .f32⟩
  | 125 => ⟨S1x32, .f32⟩
  | 126 => ⟨S3200000x32, .f32⟩
  | 127 => ⟨S3200000x32, .f32⟩
  | _ => ⟨S100000x4, .f32⟩

abbrev hbmTy0_1 (i : Nat) : BufTy := match i % 128 with
  | 0 => ⟨S_, .f32⟩
  | 1 => ⟨S3200000x32, .f32⟩
  | 2 => ⟨S3200000x32, .f32⟩
  | 3 => ⟨S3200000x32, .f32⟩
  | 4 => ⟨S1x32, .f32⟩
  | 5 => ⟨S3200000x32, .f32⟩
  | 6 => ⟨S3200000x32, .f32⟩
  | 7 => ⟨S_, .f32⟩
  | 8 => ⟨S3200000x32, .f32⟩
  | 9 => ⟨S3200000x32, .f32⟩
  | 10 => ⟨S3200000x4, .f32⟩
  | 11 => ⟨S1x4, .f32⟩
  | 12 => ⟨S3200000x4, .f32⟩
  | 13 => ⟨S3200000x4, .f32⟩
  | 14 => ⟨S_, .f32⟩
  | 15 => ⟨S100000x4, .f32⟩
  | 16 => ⟨S3200000x1, .i32⟩
  | 17 => ⟨S100000x4, .f32⟩
  | 18 => ⟨S_, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x4, .f32⟩
  | 29 => ⟨S100000x4, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call0_cst : Ref sig .tc := ⟨.hbm, 71, rfl⟩
abbrev main_call0_v0 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call1_cst : Ref sig .tc := ⟨.hbm, 78, rfl⟩
abbrev main_call1_v0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call2_cst : Ref sig .tc := ⟨.hbm, 85, rfl⟩
abbrev main_call2_v0 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_8 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_10 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_11 : Ref sig .tc := ⟨.hbm, 104, rfl⟩
abbrev main_v68 : Ref sig .tc := ⟨.hbm, 105, rfl⟩
abbrev main_v69 : Ref sig .tc := ⟨.hbm, 106, rfl⟩
abbrev main_c_12 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_13 : Ref sig .tc := ⟨.hbm, 113, rfl⟩
abbrev main_v75 : Ref sig .tc := ⟨.hbm, 114, rfl⟩
abbrev main_v76 : Ref sig .tc := ⟨.hbm, 115, rfl⟩
abbrev main_c_14 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call3_cst : Ref sig .tc := ⟨.hbm, 128, rfl⟩
abbrev main_call3_v0 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_call4_cst : Ref sig .tc := ⟨.hbm, 135, rfl⟩
abbrev main_call4_v0 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_15 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_16 : Ref sig .tc := ⟨.hbm, 146, rfl⟩
abbrev main_v101 : Ref sig .tc := ⟨.hbm, 147, rfl⟩
abbrev main_cst_17 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_18 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩

abbrev nD : Nat := 1
abbrev τ : Topo := Topo.v7x

variable {F : FTy → Type} [FloatOps F]

class Facts₀ : Prop where
  reducesTo_S100000x4_S4_d0 : S100000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x4_S3200000x4_S3200000x8_d1 : Shape.Concatenates [S3200000x4, S3200000x4] S3200000x8 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S2_S1x2_1 : S2.BroadcastsInDim S1x2 (![1] : Fin 1 → Fin S1x2.rank)
  bcast_S1x2_S3200000x2_0_1 : S1x2.BroadcastsInDim S3200000x2 (![0, 1] : Fin 2 → Fin S3200000x2.rank)
  bcast_S_S3200000x2 : S_.BroadcastsInDim S3200000x2 (![] : Fin 0 → Fin S3200000x2.rank)
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  concatenates_S3200000x2_S3200000x2_S3200000x4_d1 : Shape.Concatenates [S3200000x2, S3200000x2] S3200000x4 1
  bcast_S1x4_S3200000x4_0_1 : S1x4.BroadcastsInDim S3200000x4 (![0, 1] : Fin 2 → Fin S3200000x4.rank)
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  gather_S100000x4_S3200000x1_S3200000x4_1_0_n_n_0_1_14_wf : GatherDims.WF S100000x4 S3200000x1 S3200000x4 [1] [0] [] [0] [] 1 ![1, 4]
  dot_S3200000x8_S8x32_S3200000x32_1_0_0_1_n_n_wf : DotDims.WF S3200000x8 S8x32 S3200000x32 [1] [0] [0] [1] [] []
  dot_S3200000x32_S32x32_S3200000x32_1_0_0_1_n_n_wf : DotDims.WF S3200000x32 S32x32 S3200000x32 [1] [0] [0] [1] [] []
  dot_S3200000x32_S32x2_S3200000x2_1_0_0_1_n_n_wf : DotDims.WF S3200000x32 S32x2 S3200000x2 [1] [0] [0] [1] [] []
  scatter_S100000x2_S3200000x1_S3200000x2_1_0_0_1_wf : ScatterDims.WF S100000x2 S3200000x1 S3200000x2 [1] [0] [0] 1
  scatter_S100000_S3200000x1_S3200000_n_0_0_1_wf : ScatterDims.WF S100000 S3200000x1 S3200000 [] [0] [0] 1
  gather_S100000x2_S3200000x1_S3200000x2_1_0_n_n_0_1_12_wf : GatherDims.WF S100000x2 S3200000x1 S3200000x2 [1] [0] [] [0] [] 1 ![1, 2]
  dot_S3200000x4_S4x32_S3200000x32_1_0_0_1_n_n_wf : DotDims.WF S3200000x4 S4x32 S3200000x32 [1] [0] [0] [1] [] []
  dot_S3200000x32_S32x4_S3200000x4_1_0_0_1_n_n_wf : DotDims.WF S3200000x32 S32x4 S3200000x4 [1] [0] [0] [1] [] []
  scatter_S100000x4_S3200000x1_S3200000x4_1_0_0_1_wf : ScatterDims.WF S100000x4 S3200000x1 S3200000x4 [1] [0] [0] 1

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S3200000x8_S8x32_S3200000x32_1_0_0_1_n_n : DotDims S3200000x8 S8x32 S3200000x32 where
  lhsContracting := [1]
  rhsContracting := [0]
  lhsNonContracting := [0]
  rhsNonContracting := [1]
  lhsBatch := []
  rhsBatch := []
  wf := dot_S3200000x8_S8x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def dot_S3200000x32_S32x2_S3200000x2_1_0_0_1_n_n : DotDims S3200000x32 S32x2 S3200000x2 where
  lhsContracting := [1]
  rhsContracting := [0]
  lhsNonContracting := [0]
  rhsNonContracting := [1]
  lhsBatch := []
  rhsBatch := []
  wf := dot_S3200000x32_S32x2_S3200000x2_1_0_0_1_n_n_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S3200000x4_S4x32_S3200000x32_1_0_0_1_n_n : DotDims S3200000x4 S4x32 S3200000x32 where
  lhsContracting := [1]
  rhsContracting := [0]
  lhsNonContracting := [0]
  rhsNonContracting := [1]
  lhsBatch := []
  rhsBatch := []
  wf := dot_S3200000x4_S4x32_S3200000x32_1_0_0_1_n_n_wf
def dot_S3200000x32_S32x4_S3200000x4_1_0_0_1_n_n : DotDims S3200000x32 S32x4 S3200000x4 where
  lhsContracting := [1]
  rhsContracting := [0]
  lhsNonContracting := [0]
  rhsNonContracting := [1]
  lhsBatch := []
  rhsBatch := []
  wf := dot_S3200000x32_S32x4_S3200000x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

class Facts : Prop extends Facts₀ where

variable [Facts]
-- ==== Proof.RefFold.lean ====
/-
  The reference program's run, read stretch by stretch.

  The reference's @main is one line of 141 host operations; after it the result buffer holds the operations' fold
  from the launch contents. The line is cut into seven stretches — the normalisation of the node features; the two row
  gathers of layer 0 with their difference and the joined row; the three dense layers of layer 0; the mean aggregation
  at the target nodes; and the same three stretches for layer 1 — and each stretch's one live result is written as the
  stage function of the generated read module (Proof/RefRead.lean `val_main_vN`) of the arguments, given that the
  stretch's inputs already are. Chaining the seven gives the result buffer as `val_main_v109` of the arguments.
-/
import proofs.«418037_j8177617731795_1_alg».proof.Proof.RefRead
import Idealize.ShloMosaic.Lib.Pipeline.Frame

set_option maxRecDepth 16384

noncomputable section

namespace Cert.ReferenceIdeal.Fold

open Cert.ReferenceIdeal Cert.ReferenceIdeal.Gen Cert.ReferenceIdeal.RunCopy Cert.ReferenceIdeal.ReadCopy
open Idealize.ShloMosaic Idealize.ShloMosaic.TcCoe Idealize.SL.Sem Idealize.ShloMosaic.StableHlo

variable {F : FTy → Type} [FloatOps F]

/-! ## The seven stretches: the operation line of @main, cut -/

/-- Operations 1–30 of @main, in order. -/
abbrev bn : List (HloOp τ sig (Elt F)) :=
  [
    nullary main_cst (constant S_ .f32 0x00000000#32),
    binary main_arg0 main_cst main_v0 ((fun x v => Host.reduceAdd x v reducesTo_S100000x4_S4_d0 h_S_) : (⟨S100000x4, .f32⟩ : BufTy).Contents (Elt F) → (⟨S_, .f32⟩ : BufTy).Contents (Elt F) → (⟨S4, .f32⟩ : BufTy).Contents (Elt F)),
    nullary main_cst_0 (constant S_ .f32 0x47C35000#32),
    unary main_cst_0 main_v1 (broadcastInDim S4 ![] bcast_S_S4 : (⟨S_, .f32⟩ : BufTy).Contents (Elt F) → (⟨S4, .f32⟩ : BufTy).Contents (Elt F)),
    binary main_v0 main_v1 main_v2 (Host.divf : (⟨S4, .f32⟩ : BufTy).Contents (Elt F) → (⟨S4, .f32⟩ : BufTy).Contents (Elt F) → (⟨S4, .f32⟩ : BufTy).Contents (Elt F)),
    unary main_v2 main_v3 (broadcastInDim S1x4 ![1] bcast_S4_S1x4_1 : (⟨S4, .f32⟩ : BufTy).Contents (Elt F) → (⟨S1x4, .f32⟩ : BufTy).Contents (Elt F)),
    unary main_v3 main_v4 (broadcastInDim S100000x4 ![0, 1] bcast_S1x4_S100000x4_0_1 : (⟨S1x4, .f32⟩ : BufTy).Contents (Elt F) → (⟨S100000x4, .f32⟩ : BufTy).Contents (Elt F)),
    binary main_arg0 main_v4 main_v5 (subf : (⟨S100000x4, .f32⟩ : BufTy).Contents (Elt F) → (⟨S100000x4, .f32⟩ : BufTy).Contents (Elt F) → (⟨S100000x4, .f32⟩ : BufTy).Contents (Elt F)),
    binary main_v5 main_v5 main_v6 (mulf : (⟨S100000x4, .f32⟩ : BufTy).Contents (Elt F) → (⟨S100000x4, .f32⟩ : BufTy).Contents (Elt F) → (⟨S100000x4, .f32⟩ : BufTy).Contents (Elt F)),
    nullary main_cst_1 (constant S_ .f32 0x00000000#32),
    binary main_v6 main_cst_1 main_v7 ((fun x v => Host.reduceAdd x v reducesTo_S100000x4_S4_d0 h_S_) : (⟨S100000x4, .f32⟩ : BufTy).Contents (Elt F) → (⟨S_, .f32⟩ : BufTy).Contents (Elt F) → (⟨S4, .f32⟩ : BufTy).Contents (Elt F)),
    nullary main_cst_2 (constant S_ .f32 0x47C35000#32),
    unary main_cst_2 main_v8 (broadcastInDim S4 ![] bcast_S_S4 : (⟨S_, .f32⟩ : BufTy).Contents (Elt F) → (⟨S4, .f32⟩ : BufTy).Contents (Elt F)),
    binary main_v7 main_v8 main_v9 (Host.divf : (⟨S4, .f32⟩ : BufTy).Contents (Elt F) → (⟨S4, .f32⟩ : BufTy).Contents (Elt F) → (⟨S4, .f32⟩ : BufTy).Contents (Elt F)),
    unary main_v2 main_v10 (broadcastInDim S1x4 ![1] bcast_S4_S1x4_1 : (⟨S4, .f32⟩ : BufTy).Contents (Elt F) → (⟨S1x4, .f32⟩ : BufTy).Contents (Elt F)),
    unary main_v10 main_v11 (broadcastInDim S100000x4 ![0, 1] bcast_S1x4_S100000x4_0_1 : (⟨S1x4, .f32⟩ : BufTy).Contents (Elt F) → (⟨S100000x4, .f32⟩ : BufTy).Contents (Elt F)),
    binary main_arg0 main_v11 main_v12 (subf : (⟨S100000x4, .f32⟩ : BufTy).Contents (Elt F) → (⟨S100000x4, .f32⟩ : BufTy).Contents (Elt F) → (⟨S100000x4, .f32⟩ : BufTy).Contents (Elt F)),
    nullary main_cst_3 (constant S_ .f32 0x3727C5AC#32),
    unary main_cst_3 main_v13 (broadcastInDim S4 ![] bcast_S_S4 : (⟨S_, .f32⟩ : BufTy).Contents (Elt F) → (⟨S4, .f32⟩ : BufTy).Contents (Elt F)),
    binary main_v9 main_v13 main_v14 (addf : (⟨S4, .f32⟩ : BufTy).Contents (Elt F) → (⟨S4, .f32⟩ : BufTy).Contents (Elt F) → (⟨S4, .f32⟩ : BufTy).Contents (Elt F)),
    unary main_v14 main_v15 (Host.rsqrt : (⟨S4, .f32⟩ : BufTy).Contents (Elt F) → (⟨S4, .f32⟩ : BufTy).Contents (Elt F)),
    unary main_v15 main_v16 (broadcastInDim S1x4 ![1] bcast_S4_S1x4_1 : (⟨S4, .f32⟩ : BufTy).Contents (Elt F) → (⟨S1x4, .f32⟩ : BufTy).Contents (Elt F)),
    unary main_v16 main_v17 (broadcastInDim S100000x4 ![0, 1] bcast_S1x4_S100000x4_0_1 : (⟨S1x4, .f32⟩ : BufTy).Contents (Elt F) → (⟨S100000x4, .f32⟩ : BufTy).Contents (Elt F)),
    binary main_v12 main_v17 main_v18 (mulf : (⟨S100000x4, .f32⟩ : BufTy).Contents (Elt F) → (⟨S100000x4, .f32⟩ : BufTy).Contents (Elt F) → (⟨S100000x4, .f32⟩ : BufTy).Contents (Elt F)),
    unary main_arg3 main_v19 (broadcastInDim S1x4 ![1] bcast_S4_S1x4_1 : (⟨S4, .f32⟩ : BufTy).Contents (Elt F) → (⟨S1x4, .f32⟩ : BufTy).Contents (Elt F)),
    unary main_v19 main_v20 (broadcastInDim S100000x4 ![0, 1] bcast_S1x4_S100000x4_0_1 : (⟨S1x4, .f32⟩ : BufTy).Contents (Elt F) → (⟨S100000x4, .f32⟩ : BufTy).Contents (Elt F)),
    binary main_v18 main_v20 main_v21 (mulf : (⟨S100000x4, .f32⟩ : BufTy).Contents (Elt F) → (⟨S100000x4, .f32⟩ : BufTy).Contents (Elt F) → (⟨S100000x4, .f32⟩ : BufTy).Contents (Elt F)),
    unary main_arg4 main_v22 (broadcastInDim S1x4 ![1] bcast_S4_S1x4_1 : (⟨S4, .f32⟩ : BufTy).Contents (Elt F) → (⟨S1x4, .f32⟩ : BufTy).Contents (Elt F)),
    unary main_v22 main_v23 (broadcastInDim S100000x4 ![0, 1] bcast_S1x4_S100000x4_0_1 : (⟨S1x4, .f32⟩ : BufTy).Contents (Elt F) → (⟨S100000x4, .f32⟩ : BufTy).Contents (Elt F)),
    binary main_v21 main_v23 main_v24 (addf : (⟨S100000x4, .f32⟩ : BufTy).Contents (Elt F) → (⟨S100000x4, .f32⟩ : BufTy).Contents (Elt F) → (⟨S100000x4, .f32⟩ : BufTy).Contents (Elt F)) ]

/-- Operations 31–50 of @main, in order. -/
abbrev rows0 : List (HloOp τ sig (Elt F)) :=
  [
    nullary main_c (constantI S_ 32 0#32),
    unary main_c main_v25 (broadcastInDim S3200000 ![] bcast_S_S3200000 : (⟨S_, .i32⟩ : BufTy).Contents (Elt F) → (⟨S3200000, .i32⟩ : BufTy).Contents (Elt F)),
    binary main_arg2 main_v25 main_v26 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v27 (broadcastInDim S3200000 ![] bcast_S_S3200000 : (⟨S_, .i32⟩ : BufTy).Contents (Elt F) → (⟨S3200000, .i32⟩ : BufTy).Contents (Elt F)),
    binary main_arg2 main_v27 main_v28 (addi : (⟨S3200000, .i32⟩ : BufTy).Contents (Elt F) → (⟨S3200000, .i32⟩ : BufTy).Contents (Elt F) → (⟨S3200000, .i32⟩ : BufTy).Contents (Elt F)),
    ternary main_v26 main_v28 main_arg2 main_v29 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v29 main_v30 (broadcastInDim S3200000x1 ![0] bcast_S3200000_S3200000x1_0 : (⟨S3200000, .i32⟩ : BufTy).Contents (Elt F) → (⟨S3200000x1, .i32⟩ : BufTy).Contents (Elt F)),
    binary main_v24 main_v30 main_v31 ((fun x i => Host.gather gather_S100000x4_S3200000x1_S3200000x4_1_0_n_n_0_1_14 x i) : (⟨S100000x4, .f32⟩ : BufTy).Contents (Elt F) → (⟨S3200000x1, .i32⟩ : BufTy).Contents (Elt F) → (⟨S3200000x4, .f32⟩ : BufTy).Contents (Elt F)),
    nullary main_c_5 (constantI S_ 32 0#32),
    unary main_c_5 main_v32 (broadcastInDim S3200000 ![] bcast_S_S3200000 : (⟨S_, .i32⟩ : BufTy).Contents (Elt F) → (⟨S3200000, .i32⟩ : BufTy).Contents (Elt F)),
    binary main_arg1 main_v32 main_v33 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 100000#32),
    unary main_c_6 main_v34 (broadcastInDim S3200000 ![] bcast_S_S3200000 : (⟨S_, .i32⟩ : BufTy).Contents (Elt F) → (⟨S3200000, .i32⟩ : BufTy).Contents (Elt F)),
    binary main_arg1 main_v34 main_v35 (addi : (⟨S3200000, .i32⟩ : BufTy).Contents (Elt F) → (⟨S3200000, .i32⟩ : BufTy).Contents (Elt F) → (⟨S3200000, .i32⟩ : BufTy).Contents (Elt F)),
    ternary main_v33 main_v35 main_arg1 main_v36 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v36 main_v37 (broadcastInDim S3200000x1 ![0] bcast_S3200000_S3200000x1_0 : (⟨S3200000, .i32⟩ : BufTy).Contents (Elt F) → (⟨S3200000x1, .i32⟩ : BufTy).Contents (Elt F)),
    binary main_v24 main_v37 main_v38 ((fun x i => Host.gather gather_S100000x4_S3200000x1_S3200000x4_1_0_n_n_0_1_14 x i) : (⟨S100000x4, .f32⟩ : BufTy).Contents (Elt F) → (⟨S3200000x1, .i32⟩ : BufTy).Contents (Elt F) → (⟨S3200000x4, .f32⟩ : BufTy).Contents (Elt F)),
    binary main_v38 main_v31 main_v39 (subf : (⟨S3200000x4, .f32⟩ : BufTy).Contents (Elt F) → (⟨S3200000x4, .f32⟩ : BufTy).Contents (Elt F) → (⟨S3200000x4, .f32⟩ : BufTy).Contents (Elt F)),
    binary main_v31 main_v39 main_v40 ((fun a b => concatenate S3200000x8 1 [⟨S3200000x4, a⟩, ⟨S3200000x4, b⟩] concatenates_S3200000x4_S3200000x4_S3200000x8_d1) : (⟨S3200000x4, .f32⟩ : BufTy).Contents (Elt F) → (⟨S3200000x4, .f32⟩ : BufTy).Contents (Elt F) → (⟨S3200000x8, .f32⟩ : BufTy).Contents (Elt F)) ]

/-- Operations 51–71 of @main, in order. -/
abbrev dense0 : List (HloOp τ sig (Elt F)) :=
  [
    binary main_v40 main_arg5 main_v41 ((fun l r => Host.dotGeneral dot_S3200000x8_S8x32_S3200000x32_1_0_0_1_n_n none l r) : (⟨S3200000x8, .f32⟩ : BufTy).Contents (Elt F) → (⟨S8x32, .f32⟩ : BufTy).Contents (Elt F) → (⟨S3200000x32, .f32⟩ : BufTy).Contents (Elt F)),
    unary main_arg6 main_v42 (broadcastInDim S1x32 ![1] bcast_S32_S1x32_1 : (⟨S32, .f32⟩ : BufTy).Contents (Elt F) → (⟨S1x32, .f32⟩ : BufTy).Contents (Elt F)),
    unary main_v42 main_v43 (broadcastInDim S3200000x32 ![0, 1] bcast_S1x32_S3200000x32_0_1 : (⟨S1x32, .f32⟩ : BufTy).Contents (Elt F) → (⟨S3200000x32, .f32⟩ : BufTy).Contents (Elt F)),
    binary main_v41 main_v43 main_v44 (addf : (⟨S3200000x32, .f32⟩ : BufTy).Contents (Elt F) → (⟨S3200000x32, .f32⟩ : BufTy).Contents (Elt F) → (⟨S3200000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S3200000x32, .f32⟩) main_call0_v0) (broadcastInDim S3200000x32 ![] bcast_S_S3200000x32),
    TRef.binary (TRef.of (T := ⟨S3200000x32, .f32⟩) main_v44) (TRef.of (T := ⟨S3200000x32, .f32⟩) main_call0_v0) (TRef.of (T := ⟨S3200000x32, .f32⟩) main_v45) maximumf,
    binary main_v45 main_arg7 main_v46 ((fun l r => Host.dotGeneral dot_S3200000x32_S32x32_S3200000x32_1_0_0_1_n_n none l r) : (⟨S3200000x32, .f32⟩ : BufTy).Contents (Elt F) → (⟨S32x32, .f32⟩ : BufTy).Contents (Elt F) → (⟨S3200000x32, .f32⟩ : BufTy).Contents (Elt F)),
    unary main_arg8 main_v47 (broadcastInDim S1x32 ![1] bcast_S32_S1x32_1 : (⟨S32, .f32⟩ : BufTy).Contents (Elt F) → (⟨S1x32, .f32⟩ : BufTy).Contents (Elt F)),
    unary main_v47 main_v48 (broadcastInDim S3200000x32 ![0, 1] bcast_S1x32_S3200000x32_0_1 : (⟨S1x32, .f32⟩ : BufTy).Contents (Elt F) → (⟨S3200000x32, .f32⟩ : BufTy).Contents (Elt F)),
    binary main_v46 main_v48 main_v49 (addf : (⟨S3200000x32, .f32⟩ : BufTy).Contents (Elt F) → (⟨S3200000x32, .f32⟩ : BufTy).Contents (Elt F) → (⟨S3200000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S3200000x32, .f32⟩) main_call1_v0) (broadcastInDim S3200000x32 ![] bcast_S_S3200000x32),
    TRef.binary (TRef.of (T := ⟨S3200000x32, .f32⟩) main_v49) (TRef.of (T := ⟨S3200000x32, .f32⟩) main_call1_v0) (TRef.of (T := ⟨S3200000x32, .f32⟩) main_v50) maximumf,
    binary main_v50 main_arg9 main_v51 ((fun l r => Host.dotGeneral dot_S3200000x32_S32x2_S3200000x2_1_0_0_1_n_n none l r) : (⟨S3200000x32, .f32⟩ : BufTy).Contents (Elt F) → (⟨S32x2, .f32⟩ : BufTy).Contents (Elt F) → (⟨S3200000x2, .f32⟩ : BufTy).Contents (Elt F)),
    unary main_arg10 main_v52 (broadcastInDim S1x2 ![1] bcast_S2_S1x2_1 : (⟨S2, .f32⟩ : BufTy).Contents (Elt F) → (⟨S1x2, .f32⟩ : BufTy).Contents (Elt F)),
    unary main_v52 main_v53 (broadcastInDim S3200000x2 ![0, 1] bcast_S1x2_S3200000x2_0_1 : (⟨S1x2, .f32⟩ : BufTy).Contents (Elt F) → (⟨S3200000x2, .f32⟩ : BufTy).Contents (Elt F)),
    binary main_v51 main_v53 main_v54 (addf : (⟨S3200000x2, .f32⟩ : BufTy).Contents (Elt F) → (⟨S3200000x2, .f32⟩ : BufTy).Contents (Elt F) → (⟨S3200000x2, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S3200000x2, .f32⟩) main_call2_v0) (broadcastInDim S3200000x2 ![] bcast_S_S3200000x2),
    TRef.binary (TRef.of (T := ⟨S3200000x2, .f32⟩) main_v54) (TRef.of (T := ⟨S3200000x2, .f32⟩) main_call2_v0) (TRef.of (T := ⟨S3200000x2, .f32⟩) main_v55) maximumf ]

/-- Operations 72–87 of @main, in order. -/
abbrev mean0 : List (HloOp τ sig (Elt F)) :=
  [
    nullary main_cst_7 (constant S_ .f32 0x00000000#32),
    unary main_cst_7 main_v56 (broadcastInDim S100000x2 ![] bcast_S_S100000x2 : (⟨S_, .f32⟩ : BufTy).Contents (Elt F) → (⟨S100000x2, .f32⟩ : BufTy).Contents (Elt F)),
    unary main_arg2 main_v57 (broadcastInDim S3200000x1 ![0] bcast_S3200000_S3200000x1_0 : (⟨S3200000, .i32⟩ : BufTy).Contents (Elt F) → (⟨S3200000x1, .i32⟩ : BufTy).Contents (Elt F)),
    ternary main_v56 main_v57 main_v55 main_v58 ((fun x i u => Host.scatterAdd scatter_S100000x2_S3200000x1_S3200000x2_1_0_0_1 x i u) : (⟨S100000x2, .f32⟩ : BufTy).Contents (Elt F) → (⟨S3200000x1, .i32⟩ : BufTy).Contents (Elt F) → (⟨S3200000x2, .f32⟩ : BufTy).Contents (Elt F) → (⟨S100000x2, .f32⟩ : BufTy).Contents (Elt F)),
    nullary main_cst_8 (constant S_ .f32 0x3F800000#32),
    unary main_cst_8 main_v59 (broadcastInDim S3200000 ![] bcast_S_S3200000 : (⟨S_, .f32⟩ : BufTy).Contents (Elt F) → (⟨S3200000, .f32⟩ : BufTy).Contents (Elt F)),
    nullary main_cst_9 (constant S_ .f32 0x00000000#32),
    unary main_cst_9 main_v60 (broadcastInDim S100000 ![] bcast_S_S100000 : (⟨S_, .f32⟩ : BufTy).Contents (Elt F) → (⟨S100000, .f32⟩ : BufTy).Contents (Elt F)),
    unary main_arg2 main_v61 (broadcastInDim S3200000x1 ![0] bcast_S3200000_S3200000x1_0 : (⟨S3200000, .i32⟩ : BufTy).Contents (Elt F) → (⟨S3200000x1, .i32⟩ : BufTy).Contents (Elt F)),
    ternary main_v60 main_v61 main_v59 main_v62 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_10 (constant S_ .f32 0x3F800000#32),
    unary main_cst_10 main_v63 (broadcastInDim S100000 ![] bcast_S_S100000 : (⟨S_, .f32⟩ : BufTy).Contents (Elt F) → (⟨S100000, .f32⟩ : BufTy).Contents (Elt F)),
    binary main_v62 main_v63 main_v64 (maximumf : (⟨S100000, .f32⟩ : BufTy).Contents (Elt F) → (⟨S100000, .f32⟩ : BufTy).Contents (Elt F) → (⟨S100000, .f32⟩ : BufTy).Contents (Elt F)),
    unary main_v64 main_v65 (broadcastInDim S100000x1 ![0] bcast_S100000_S100000x1_0 : (⟨S100000, .f32⟩ : BufTy).Contents (Elt F) → (⟨S100000x1, .f32⟩ : BufTy).Contents (Elt F)),
    unary main_v65 main_v66 (broadcastInDim S100000x2 ![0, 1] bcast_S100000x1_S100000x2_0_1 : (⟨S100000x1, .f32⟩ : BufTy).Contents (Elt F) → (⟨S100000x2, .f32⟩ : BufTy).Contents (Elt F)),
    binary main_v58 main_v66 main_v67 (Host.divf : (⟨S100000x2, .f32⟩ : BufTy).Contents (Elt F) → (⟨S100000x2, .f32⟩ : BufTy).Contents (Elt F) → (⟨S100000x2, .f32⟩ : BufTy).Contents (Elt F)) ]

/-- Operations 88–107 of @main, in order. -/
abbrev rows1 : List (HloOp τ sig (Elt F)) :=
  [
    nullary main_c_11 (constantI S_ 32 0#32),
    unary main_c_11 main_v68 (broadcastInDim S3200000 ![] bcast_S_S3200000 : (⟨S_, .i32⟩ : BufTy).Contents (Elt F) → (⟨S3200000, .i32⟩ : BufTy).Contents (Elt F)),
    binary main_arg2 main_v68 main_v69 (cmpi .slt : (⟨S3200000, .i32⟩ : BufTy).Contents (Elt F) → (⟨S3200000, .i32⟩ : BufTy).Contents (Elt F) → (⟨S3200000, .i1⟩ : BufTy).Contents (Elt F)),
    nullary main_c_12 (constantI S_ 32 100000#32),
    unary main_c_12 main_v70 (broadcastInDim S3200000 ![] bcast_S_S3200000 : (⟨S_, .i32⟩ : BufTy).Contents (Elt F) → (⟨S3200000, .i32⟩ : BufTy).Contents (Elt F)),
    binary main_arg2 main_v70 main_v71 (addi : (⟨S3200000, .i32⟩ : BufTy).Contents (Elt F) → (⟨S3200000, .i32⟩ : BufTy).Contents (Elt F) → (⟨S3200000, .i32⟩ : BufTy).Contents (Elt F)),
    ternary main_v69 main_v71 main_arg2 main_v72 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v72 main_v73 (broadcastInDim S3200000x1 ![0] bcast_S3200000_S3200000x1_0 : (⟨S3200000, .i32⟩ : BufTy).Contents (Elt F) → (⟨S3200000x1, .i32⟩ : BufTy).Contents (Elt F)),
    binary main_v67 main_v73 main_v74 ((fun x i => Host.gather gather_S100000x2_S3200000x1_S3200000x2_1_0_n_n_0_1_12 x i) : (⟨S100000x2, .f32⟩ : BufTy).Contents (Elt F) → (⟨S3200000x1, .i32⟩ : BufTy).Contents (Elt F) → (⟨S3200000x2, .f32⟩ : BufTy).Contents (Elt F)),
    nullary main_c_13 (constantI S_ 32 0#32),
    unary main_c_13 main_v75 (broadcastInDim S3200000 ![] bcast_S_S3200000 : (⟨S_, .i32⟩ : BufTy).Contents (Elt F) → (⟨S3200000, .i32⟩ : BufTy).Contents (Elt F)),
    binary main_arg1 main_v75 main_v76 (cmpi .slt : (⟨S3200000, .i32⟩ : BufTy).Contents (Elt F) → (⟨S3200000, .i32⟩ : BufTy).Contents (Elt F) → (⟨S3200000, .i1⟩ : BufTy).Contents (Elt F)),
    nullary main_c_14 (constantI S_ 32 100000#32),
    unary main_c_14 main_v77 (broadcastInDim S3200000 ![] bcast_S_S3200000 : (⟨S_, .i32⟩ : BufTy).Contents (Elt F) → (⟨S3200000, .i32⟩ : BufTy).Contents (Elt F)),
    binary main_arg1 main_v77 main_v78 (addi : (⟨S3200000, .i32⟩ : BufTy).Contents (Elt F) → (⟨S3200000, .i32⟩ : BufTy).Contents (Elt F) → (⟨S3200000, .i32⟩ : BufTy).Contents (Elt F)),
    ternary main_v76 main_v78 main_arg1 main_v79 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v79 main_v80 (broadcastInDim S3200000x1 ![0] bcast_S3200000_S3200000x1_0 : (⟨S3200000, .i32⟩ : BufTy).Contents (Elt F) → (⟨S3200000x1, .i32⟩ : BufTy).Contents (Elt F)),
    binary main_v67 main_v80 main_v81 ((fun x i => Host.gather gather_S100000x2_S3200000x1_S3200000x2_1_0_n_n_0_1_12 x i) : (⟨S100000x2, .f32⟩ : BufTy).Contents (Elt F) → (⟨S3200000x1, .i32⟩ : BufTy).Contents (Elt F) → (⟨S3200000x2, .f32⟩ : BufTy).Contents (Elt F)),
    binary main_v81 main_v74 main_v82 (subf : (⟨S3200000x2, .f32⟩ : BufTy).Contents (Elt F) → (⟨S3200000x2, .f32⟩ : BufTy).Contents (Elt F) → (⟨S3200000x2, .f32⟩ : BufTy).Contents (Elt F)),
    binary main_v74 main_v82 main_v83 ((fun a b => concatenate S3200000x4 1 [⟨S3200000x2, a⟩, ⟨S3200000x2, b⟩] concatenates_S3200000x2_S3200000x2_S3200000x4_d1) : (⟨S3200000x2, .f32⟩ : BufTy).Contents (Elt F) → (⟨S3200000x2, .f32⟩ : BufTy).Contents (Elt F) → (⟨S3200000x4, .f32⟩ : BufTy).Contents (Elt F)) ]

/-- Operations 108–125 of @main, in order. -/
abbrev dense1 : List (HloOp τ sig (Elt F)) :=
  [
    binary main_v83 main_arg11 main_v84 ((fun l r => Host.dotGeneral dot_S3200000x4_S4x32_S3200000x32_1_0_0_1_n_n none l r) : (⟨S3200000x4, .f32⟩ : BufTy).Contents (Elt F) → (⟨S4x32, .f32⟩ : BufTy).Contents (Elt F) → (⟨S3200000x32, .f32⟩ : BufTy).Contents (Elt F)),
    unary main_arg12 main_v85 (broadcastInDim S1x32 ![1] bcast_S32_S1x32_1 : (⟨S32, .f32⟩ : BufTy).Contents (Elt F) → (⟨S1x32, .f32⟩ : BufTy).Contents (Elt F)),
    unary main_v85 main_v86 (broadcastInDim S3200000x32 ![0, 1] bcast_S1x32_S3200000x32_0_1 : (⟨S1x32, .f32⟩ : BufTy).Contents (Elt F) → (⟨S3200000x32, .f32⟩ : BufTy).Contents (Elt F)),
    binary main_v84 main_v86 main_v87 (addf : (⟨S3200000x32, .f32⟩ : BufTy).Contents (Elt F) → (⟨S3200000x32, .f32⟩ : BufTy).Contents (Elt F) → (⟨S3200000x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S3200000x32, .f32⟩) main_call3_v0) (broadcastInDim S3200000x32 ![] bcast_S_S3200000x32),
    TRef.binary (TRef.of (T := ⟨S3200000x32, .f32⟩) main_v87) (TRef.of (T := ⟨S3200000x32, .f32⟩) main_call3_v0) (TRef.of (T := ⟨S3200000x32, .f32⟩) main_v88) maximumf,
    binary main_v88 main_arg13 main_v89 ((fun l r => Host.dotGeneral dot_S3200000x32_S32x32_S3200000x32_1_0_0_1_n_n none l r) : (⟨S3200000x32, .f32⟩ : BufTy).Contents (Elt F) → (⟨S32x32, .f32⟩ : BufTy).Contents (Elt F) → (⟨S3200000x32, .f32⟩ : BufTy).Contents (Elt F)),
    unary main_arg14 main_v90 (broadcastInDim S1x32 ![1] bcast_S32_S1x32_1 : (⟨S32, .f32⟩ : BufTy).Contents (Elt F) → (⟨S1x32, .f32⟩ : BufTy).Contents (Elt F)),
    unary main_v90 main_v91 (broadcastInDim S3200000x32 ![0, 1] bcast_S1x32_S3200000x32_0_1 : (⟨S1x32, .f32⟩ : BufTy).Contents (Elt F) → (⟨S3200000x32, .f32⟩ : BufTy).Contents (Elt F)),
    binary main_v89 main_v91 main_v92 (addf : (⟨S3200000x32, .f32⟩ : BufTy).Contents (Elt F) → (⟨S3200000x32, .f32⟩ : BufTy).Contents (Elt F) → (⟨S3200000x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S3200000x32, .f32⟩) main_call4_v0) (broadcastInDim S3200000x32 ![] bcast_S_S3200000x32),
    TRef.binary (TRef.of (T := ⟨S3200000x32, .f32⟩) main_v92) (TRef.of (T := ⟨S3200000x32, .f32⟩) main_call4_v0) (TRef.of (T := ⟨S3200000x32, .f32⟩) main_v93) maximumf,
    binary main_v93 main_arg15 main_v94 ((fun l r => Host.dotGeneral dot_S3200000x32_S32x4_S3200000x4_1_0_0_1_n_n none l r) : (⟨S3200000x32, .f32⟩ : BufTy).Contents (Elt F) → (⟨S32x4, .f32⟩ : BufTy).Contents (Elt F) → (⟨S3200000x4, .f32⟩ : BufTy).Contents (Elt F)),
    unary main_arg16 main_v95 (broadcastInDim S1x4 ![1] bcast_S4_S1x4_1 : (⟨S4, .f32⟩ : BufTy).Contents (Elt F) → (⟨S1x4, .f32⟩ : BufTy).Contents (Elt F)),
    unary main_v95 main_v96 (broadcastInDim S3200000x4 ![0, 1] bcast_S1x4_S3200000x4_0_1 : (⟨S1x4, .f32⟩ : BufTy).Contents (Elt F) → (⟨S3200000x4, .f32⟩ : BufTy).Contents (Elt F)),
    binary main_v94 main_v96 main_v97 (addf : (⟨S3200000x4, .f32⟩ : BufTy).Contents (Elt F) → (⟨S3200000x4, .f32⟩ : BufTy).Contents (Elt F) → (⟨S3200000x4, .f32⟩ : BufTy).Contents (Elt F)) ]

/-- Operations 126–141 of @main, in order. -/
abbrev mean1 : List (HloOp τ sig (Elt F)) :=
  [
    nullary main_cst_15 (constant S_ .f32 0x00000000#32),
    unary main_cst_15 main_v98 (broadcastInDim S100000x4 ![] bcast_S_S100000x4 : (⟨S_, .f32⟩ : BufTy).Contents (Elt F) → (⟨S100000x4, .f32⟩ : BufTy).Contents (Elt F)),
    unary main_arg2 main_v99 (broadcastInDim S3200000x1 ![0] bcast_S3200000_S3200000x1_0 : (⟨S3200000, .i32⟩ : BufTy).Contents (Elt F) → (⟨S3200000x1, .i32⟩ : BufTy).Contents (Elt F)),
    ternary main_v98 main_v99 main_v97 main_v100 ((fun x i u => Host.scatterAdd scatter_S100000x4_S3200000x1_S3200000x4_1_0_0_1 x i u) : (⟨S100000x4, .f32⟩ : BufTy).Contents (Elt F) → (⟨S3200000x1, .i32⟩ : BufTy).Contents (Elt F) → (⟨S3200000x4, .f32⟩ : BufTy).Contents (Elt F) → (⟨S100000x4, .f32⟩ : BufTy).Contents (Elt F)),
    nullary main_cst_16 (constant S_ .f32 0x3F800000#32),
    unary main_cst_16 main_v101 (broadcastInDim S3200000 ![] bcast_S_S3200000 : (⟨S_, .f32⟩ : BufTy).Contents (Elt F) → (⟨S3200000, .f32⟩ : BufTy).Contents (Elt F)),
    nullary main_cst_17 (constant S_ .f32 0x00000000#32),
    unary main_cst_17 main_v102 (broadcastInDim S100000 ![] bcast_S_S100000 : (⟨S_, .f32⟩ : BufTy).Contents (Elt F) → (⟨S100000, .f32⟩ : BufTy).Contents (Elt F)),
    unary main_arg2 main_v103 (broadcastInDim S3200000x1 ![0] bcast_S3200000_S3200000x1_0 : (⟨S3200000, .i32⟩ : BufTy).Contents (Elt F) → (⟨S3200000x1, .i32⟩ : BufTy).Contents (Elt F)),
    ternary main_v102 main_v103 main_v101 main_v104 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_18 (constant S_ .f32 0x3F800000#32),
    unary main_cst_18 main_v105 (broadcastInDim S100000 ![] bcast_S_S100000 : (⟨S_, .f32⟩ : BufTy).Contents (Elt F) → (⟨S100000, .f32⟩ : BufTy).Contents (Elt F)),
    binary main_v104 main_v105 main_v106 (maximumf : (⟨S100000, .f32⟩ : BufTy).Contents (Elt F) → (⟨S100000, .f32⟩ : BufTy).Contents (Elt F) → (⟨S100000, .f32⟩ : BufTy).Contents (Elt F)),
    unary main_v106 main_v107 (broadcastInDim S100000x1 ![0] bcast_S100000_S100000x1_0 : (⟨S100000, .f32⟩ : BufTy).Contents (Elt F) → (⟨S100000x1, .f32⟩ : BufTy).Contents (Elt F)),
    unary main_v107 main_v108 (broadcastInDim S100000x4 ![0, 1] bcast_S100000x1_S100000x4_0_1 : (⟨S100000x1, .f32⟩ : BufTy).Contents (Elt F) → (⟨S100000x4, .f32⟩ : BufTy).Contents (Elt F)),
    binary main_v100 main_v108 main_v109 (Host.divf : (⟨S100000x4, .f32⟩ : BufTy).Contents (Elt F) → (⟨S100000x4, .f32⟩ : BufTy).Contents (Elt F) → (⟨S100000x4, .f32⟩ : BufTy).Contents (Elt F)) ]

/-- The line is its seven stretches in order. -/
theorem ops_cut : (ops : List (HloOp τ sig (Elt F))) = bn ++ rows0 ++ dense0 ++ mean0 ++ rows1 ++ dense1 ++ mean1 := rfl

/-! ## Typed references of the inlined rectifier calls -/

/-- Reading back, through a typed reference to buffer `r`, what was written through a typed reference to `r`: the two
    transports are along one equation of types, so the value comes back unchanged. -/
private theorem ofBuf_toBuf_pair {Val : EltTy → Type} {T : BufTy} (r : Ref sig .tc) (h1 h1' : r.ty = T) (h2 h2' : r.space ≠ .host)
    (h3 h3' : r.isScoped = false) (v : T.Contents Val) :
    (TRef.of r h1 h2 h3 : TRef sig T).ofBuf ((TRef.of r h1' h2' h3' : TRef sig T).toBuf v) = v := by
  cases h1; rfl

private theorem ofBuf_main_v44 (v : (⟨S3200000x32, .f32⟩ : BufTy).Contents (Elt F)) :
    (TRef.of (T := ⟨S3200000x32, .f32⟩) main_v44 : TRef sig ⟨S3200000x32, .f32⟩).ofBuf v = v := rfl

private theorem toBuf_main_v45 (v : (⟨S3200000x32, .f32⟩ : BufTy).Contents (Elt F)) :
    (TRef.of (T := ⟨S3200000x32, .f32⟩) main_v45 : TRef sig ⟨S3200000x32, .f32⟩).toBuf v = v := rfl

private theorem ofBuf_main_v49 (v : (⟨S3200000x32, .f32⟩ : BufTy).Contents (Elt F)) :
    (TRef.of (T := ⟨S3200000x32, .f32⟩) main_v49 : TRef sig ⟨S3200000x32, .f32⟩).ofBuf v = v := rfl

private theorem toBuf_main_v50 (v : (⟨S3200000x32, .f32⟩ : BufTy).Contents (Elt F)) :
    (TRef.of (T := ⟨S3200000x32, .f32⟩) main_v50 : TRef sig ⟨S3200000x32, .f32⟩).toBuf v = v := rfl

private theorem ofBuf_main_v54 (v : (⟨S3200000x2, .f32⟩ : BufTy).Contents (Elt F)) :
    (TRef.of (T := ⟨S3200000x2, .f32⟩) main_v54 : TRef sig ⟨S3200000x2, .f32⟩).ofBuf v = v := rfl

private theorem toBuf_main_v55 (v : (⟨S3200000x2, .f32⟩ : BufTy).Contents (Elt F)) :
    (TRef.of (T := ⟨S3200000x2, .f32⟩) main_v55 : TRef sig ⟨S3200000x2, .f32⟩).toBuf v = v := rfl

private theorem ofBuf_main_v87 (v : (⟨S3200000x32, .f32⟩ : BufTy).Contents (Elt F)) :
    (TRef.of (T := ⟨S3200000x32, .f32⟩) main_v87 : TRef sig ⟨S3200000x32, .f32⟩).ofBuf v = v := rfl

private theorem toBuf_main_v88 (v : (⟨S3200000x32, .f32⟩ : BufTy).Contents (Elt F)) :
    (TRef.of (T := ⟨S3200000x32, .f32⟩) main_v88 : TRef sig ⟨S3200000x32, .f32⟩).toBuf v = v := rfl

private theorem ofBuf_main_v92 (v : (⟨S3200000x32, .f32⟩ : BufTy).Contents (Elt F)) :
    (TRef.of (T := ⟨S3200000x32, .f32⟩) main_v92 : TRef sig ⟨S3200000x32, .f32⟩).ofBuf v = v := rfl

private theorem toBuf_main_v93 (v : (⟨S3200000x32, .f32⟩ : BufTy).Contents (Elt F)) :
    (TRef.of (T := ⟨S3200000x32, .f32⟩) main_v93 : TRef sig ⟨S3200000x32, .f32⟩).toBuf v = v := rfl

/-! ## One stretch at a time, from any starting contents `U` -/

section Stretch

variable (U : Valuation τ sig (Elt F))
variable {x0 : (⟨S100000x4, .f32⟩ : BufTy).Contents (Elt F)} {x1 : (⟨S3200000, .i32⟩ : BufTy).Contents (Elt F)} {x2 : (⟨S3200000, .i32⟩ : BufTy).Contents (Elt F)} {x3 : (⟨S4, .f32⟩ : BufTy).Contents (Elt F)} {x4 : (⟨S4, .f32⟩ : BufTy).Contents (Elt F)} {x5 : (⟨S8x32, .f32⟩ : BufTy).Contents (Elt F)} {x6 : (⟨S32, .f32⟩ : BufTy).Contents (Elt F)} {x7 : (⟨S32x32, .f32⟩ : BufTy).Contents (Elt F)} {x8 : (⟨S32, .f32⟩ : BufTy).Contents (Elt F)} {x9 : (⟨S32x2, .f32⟩ : BufTy).Contents (Elt F)} {x10 : (⟨S2, .f32⟩ : BufTy).Contents (Elt F)} {x11 : (⟨S4x32, .f32⟩ : BufTy).Contents (Elt F)} {x12 : (⟨S32, .f32⟩ : BufTy).Contents (Elt F)} {x13 : (⟨S32x32, .f32⟩ : BufTy).Contents (Elt F)} {x14 : (⟨S32, .f32⟩ : BufTy).Contents (Elt F)} {x15 : (⟨S32x4, .f32⟩ : BufTy).Contents (Elt F)} {x16 : (⟨S4, .f32⟩ : BufTy).Contents (Elt F)}

/-- The normalisation: from contents holding the node features, scale and shift, the result is the normalised features. -/
theorem bn_stage (h0 : U (Proc.devRef .tc main_arg0) = x0)
    (h3 : U (Proc.devRef .tc main_arg3) = x3)
    (h4 : U (Proc.devRef .tc main_arg4) = x4) :
    StableHlo.after (bn (F := F)) U (Proc.devRef .tc main_v24) = val_main_v24 (F := F) x0 x3 x4 := by
  subst h0
  subst h3
  subst h4
  after_results_simp
  rfl

/-- Layer 0's rows: from contents holding the normalised features and the two index lists, the joined row array. -/
theorem rows0_stage (hs : U (Proc.devRef .tc main_v24) = val_main_v24 (F := F) x0 x3 x4)
    (h1 : U (Proc.devRef .tc main_arg1) = x1)
    (h2 : U (Proc.devRef .tc main_arg2) = x2) :
    StableHlo.after (rows0 (F := F)) U (Proc.devRef .tc main_v40) = val_main_v40 (F := F) x0 x1 x2 x3 x4 := by
  subst h1
  subst h2
  after_results_simp
  refine congrArg₂ (fun (a b : (⟨S3200000x4, .f32⟩ : BufTy).Contents (Elt F)) => concatenate S3200000x8 1 [⟨S3200000x4, a⟩, ⟨S3200000x4, b⟩] concatenates_S3200000x4_S3200000x4_S3200000x8_d1) ?_ ?_
  · after_results_simp
    rw [hs]
    rfl
  · after_results_simp
    rw [hs]
    rfl

/-- Layer 0's three dense layers: from contents holding the joined rows and the six weight arrays, the messages. -/
theorem dense0_stage (hs : U (Proc.devRef .tc main_v40) = val_main_v40 (F := F) x0 x1 x2 x3 x4)
    (h5 : U (Proc.devRef .tc main_arg5) = x5)
    (h6 : U (Proc.devRef .tc main_arg6) = x6)
    (h7 : U (Proc.devRef .tc main_arg7) = x7)
    (h8 : U (Proc.devRef .tc main_arg8) = x8)
    (h9 : U (Proc.devRef .tc main_arg9) = x9)
    (h10 : U (Proc.devRef .tc main_arg10) = x10) :
    StableHlo.after (dense0 (F := F)) U (Proc.devRef .tc main_v55) = val_main_v55 (F := F) x0 x1 x2 x3 x4 x5 x6 x7 x8 x9 x10 := by
  subst h5
  subst h6
  subst h7
  subst h8
  subst h9
  subst h10
  after_results_simp
  simp only [ofBuf_toBuf_pair, ofBuf_main_v44, toBuf_main_v45, ofBuf_main_v49, toBuf_main_v50, ofBuf_main_v54, toBuf_main_v55]
  rw [hs]
  rfl

/-- Layer 0's aggregation: from contents holding the messages and the target list, the hidden node features. -/
theorem mean0_stage (hs : U (Proc.devRef .tc main_v55) = val_main_v55 (F := F) x0 x1 x2 x3 x4 x5 x6 x7 x8 x9 x10)
    (h2 : U (Proc.devRef .tc main_arg2) = x2) :
    StableHlo.after (mean0 (F := F)) U (Proc.devRef .tc main_v67) = val_main_v67 (F := F) x0 x1 x2 x3 x4 x5 x6 x7 x8 x9 x10 := by
  subst h2
  after_results_simp
  rw [hs]
  rfl

/-- Layer 1's rows: from contents holding the hidden features and the two index lists, the joined row array. -/
theorem rows1_stage (hs : U (Proc.devRef .tc main_v67) = val_main_v67 (F := F) x0 x1 x2 x3 x4 x5 x6 x7 x8 x9 x10)
    (h1 : U (Proc.devRef .tc main_arg1) = x1)
    (h2 : U (Proc.devRef .tc main_arg2) = x2) :
    StableHlo.after (rows1 (F := F)) U (Proc.devRef .tc main_v83) = val_main_v83 (F := F) x0 x1 x2 x3 x4 x5 x6 x7 x8 x9 x10 := by
  subst h1
  subst h2
  after_results_simp
  refine congrArg₂ (fun (a b : (⟨S3200000x2, .f32⟩ : BufTy).Contents (Elt F)) => concatenate S3200000x4 1 [⟨S3200000x2, a⟩, ⟨S3200000x2, b⟩] concatenates_S3200000x2_S3200000x2_S3200000x4_d1) ?_ ?_
  · after_results_simp
    rw [hs]
    rfl
  · after_results_simp
    rw [hs]
    rfl

/-- Layer 1's three dense layers: from contents holding the joined rows and the six weight arrays, the messages. -/
theorem dense1_stage (hs : U (Proc.devRef .tc main_v83) = val_main_v83 (F := F) x0 x1 x2 x3 x4 x5 x6 x7 x8 x9 x10)
    (h11 : U (Proc.devRef .tc main_arg11) = x11)
    (h12 : U (Proc.devRef .tc main_arg12) = x12)
    (h13 : U (Proc.devRef .tc main_arg13) = x13)
    (h14 : U (Proc.devRef .tc main_arg14) = x14)
    (h15 : U (Proc.devRef .tc main_arg15) = x15)
    (h16 : U (Proc.devRef .tc main_arg16) = x16) :
    StableHlo.after (dense1 (F := F)) U (Proc.devRef .tc main_v97) = val_main_v97 (F := F) x0 x1 x2 x3 x4 x5 x6 x7 x8 x9 x10 x11 x12 x13 x14 x15 x16 := by
  subst h11
  subst h12
  subst h13
  subst h14
  subst h15
  subst h16
  after_results_simp
  simp only [ofBuf_toBuf_pair, ofBuf_main_v87, toBuf_main_v88, ofBuf_main_v92, toBuf_main_v93]
  rw [hs]
  rfl

/-- Layer 1's aggregation: from contents holding the messages and the target list, the result. -/
theorem mean1_stage (hs : U (Proc.devRef .tc main_v97) = val_main_v97 (F := F) x0 x1 x2 x3 x4 x5 x6 x7 x8 x9 x10 x11 x12 x13 x14 x15 x16)
    (h2 : U (Proc.devRef .tc main_arg2) = x2) :
    StableHlo.after (mean1 (F := F)) U (Proc.devRef .tc main_v109) = val_main_v109 (F := F) x0 x1 x2 x3 x4 x5 x6 x7 x8 x9 x10 x11 x12 x13 x14 x15 x16 := by
  subst h2
  after_results_simp
  rw [hs]
  rfl

end Stretch

/-! ## The argument buffers stay as launched -/

section Args

variable (m : (ℓ : Loc nD τ sig) → Buf (Elt F) ℓ) (c : Dev nD)

/-- A buffer none of the stretches' operations writes keeps its contents: by rewriting through every operation. -/
local macro "through_stretches" : tactic => `(tactic| (after_results_simp <;> rfl))

theorem arg1_at1 : StableHlo.after (bn (F := F)) (launchContents m c) (Proc.devRef .tc main_arg1) = m ((c.tc : Thread nD τ).loc main_arg1) := by
  through_stretches

theorem arg2_at1 : StableHlo.after (bn (F := F)) (launchContents m c) (Proc.devRef .tc main_arg2) = m ((c.tc : Thread nD τ).loc main_arg2) := by
  through_stretches

theorem arg5_at2 : StableHlo.after (rows0 (F := F)) (StableHlo.after (bn (F := F)) (launchContents m c)) (Proc.devRef .tc main_arg5) = m ((c.tc : Thread nD τ).loc main_arg5) := by
  through_stretches

theorem arg6_at2 : StableHlo.after (rows0 (F := F)) (StableHlo.after (bn (F := F)) (launchContents m c)) (Proc.devRef .tc main_arg6) = m ((c.tc : Thread nD τ).loc main_arg6) := by
  through_stretches

theorem arg7_at2 : StableHlo.after (rows0 (F := F)) (StableHlo.after (bn (F := F)) (launchContents m c)) (Proc.devRef .tc main_arg7) = m ((c.tc : Thread nD τ).loc main_arg7) := by
  through_stretches

theorem arg8_at2 : StableHlo.after (rows0 (F := F)) (StableHlo.after (bn (F := F)) (launchContents m c)) (Proc.devRef .tc main_arg8) = m ((c.tc : Thread nD τ).loc main_arg8) := by
  through_stretches

theorem arg9_at2 : StableHlo.after (rows0 (F := F)) (StableHlo.after (bn (F := F)) (launchContents m c)) (Proc.devRef .tc main_arg9) = m ((c.tc : Thread nD τ).loc main_arg9) := by
  through_stretches

theorem arg10_at2 : StableHlo.after (rows0 (F := F)) (StableHlo.after (bn (F := F)) (launchContents m c)) (Proc.devRef .tc main_arg10) = m ((c.tc : Thread nD τ).loc main_arg10) := by
  through_stretches

theorem arg2_at3 : StableHlo.after (dense0 (F := F)) (StableHlo.after (rows0 (F := F)) (StableHlo.after (bn (F := F)) (launchContents m c))) (Proc.devRef .tc main_arg2) = m ((c.tc : Thread nD τ).loc main_arg2) := by
  through_stretches

theorem arg1_at4 : StableHlo.after (mean0 (F := F)) (StableHlo.after (dense0 (F := F)) (StableHlo.after (rows0 (F := F)) (StableHlo.after (bn (F := F)) (launchContents m c)))) (Proc.devRef .tc main_arg1) = m ((c.tc : Thread nD τ).loc main_arg1) := by
  through_stretches

theorem arg2_at4 : StableHlo.after (mean0 (F := F)) (StableHlo.after (dense0 (F := F)) (StableHlo.after (rows0 (F := F)) (StableHlo.after (bn (F := F)) (launchContents m c)))) (Proc.devRef .tc main_arg2) = m ((c.tc : Thread nD τ).loc main_arg2) := by
  through_stretches

theorem arg11_at5 : StableHlo.after (rows1 (F := F)) (StableHlo.after (mean0 (F := F)) (StableHlo.after (dense0 (F := F)) (StableHlo.after (rows0 (F := F)) (StableHlo.after (bn (F := F)) (launchContents m c))))) (Proc.devRef .tc main_arg11) = m ((c.tc : Thread nD τ).loc main_arg11) := by
  through_stretches

theorem arg12_at5 : StableHlo.after (rows1 (F := F)) (StableHlo.after (mean0 (F := F)) (StableHlo.after (dense0 (F := F)) (StableHlo.after (rows0 (F := F)) (StableHlo.after (bn (F := F)) (launchContents m c))))) (Proc.devRef .tc main_arg12) = m ((c.tc : Thread nD τ).loc main_arg12) := by
  through_stretches

theorem arg13_at5 : StableHlo.after (rows1 (F := F)) (StableHlo.after (mean0 (F := F)) (StableHlo.after (dense0 (F := F)) (StableHlo.after (rows0 (F := F)) (StableHlo.after (bn (F := F)) (launchContents m c))))) (Proc.devRef .tc main_arg13) = m ((c.tc : Thread nD τ).loc main_arg13) := by
  through_stretches

theorem arg14_at5 : StableHlo.after (rows1 (F := F)) (StableHlo.after (mean0 (F := F)) (StableHlo.after (dense0 (F := F)) (StableHlo.after (rows0 (F := F)) (StableHlo.after (bn (F := F)) (launchContents m c))))) (Proc.devRef .tc main_arg14) = m ((c.tc : Thread nD τ).loc main_arg14) := by
  through_stretches

theorem arg15_at5 : StableHlo.after (rows1 (F := F)) (StableHlo.after (mean0 (F := F)) (StableHlo.after (dense0 (F := F)) (StableHlo.after (rows0 (F := F)) (StableHlo.after (bn (F := F)) (launchContents m c))))) (Proc.devRef .tc main_arg15) = m ((c.tc : Thread nD τ).loc main_arg15) := by
  through_stretches

theorem arg16_at5 : StableHlo.after (rows1 (F := F)) (StableHlo.after (mean0 (F := F)) (StableHlo.after (dense0 (F := F)) (StableHlo.after (rows0 (F := F)) (StableHlo.after (bn (F := F)) (launchContents m c))))) (Proc.devRef .tc main_arg16) = m ((c.tc : Thread nD τ).loc main_arg16) := by
  through_stretches

theorem arg2_at6 : StableHlo.after (dense1 (F := F)) (StableHlo.after (rows1 (F := F)) (StableHlo.after (mean0 (F := F)) (StableHlo.after (dense0 (F := F)) (StableHlo.after (rows0 (F := F)) (StableHlo.after (bn (F := F)) (launchContents m c)))))) (Proc.devRef .tc main_arg2) = m ((c.tc : Thread nD τ).loc main_arg2) := by
  through_stretches

end Args

/-! ## The result buffer after the run -/

/-- After the whole line the result buffer holds the last stage of the arguments' launch contents. -/
theorem ref_value (m : (ℓ : Loc nD τ sig) → Buf (Elt F) ℓ) (c : Dev nD) :
    StableHlo.after (ops (F := F)) (launchContents m c) (Proc.devRef .tc main_v109)
      = val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [ops_cut, StableHlo.after_append, StableHlo.after_append, StableHlo.after_append, StableHlo.after_append,
    StableHlo.after_append, StableHlo.after_append]
  have a0 : launchContents m c (Proc.devRef .tc main_arg0) = m ((c.tc : Thread nD τ).loc main_arg0) := rfl
  have a3 : launchContents m c (Proc.devRef .tc main_arg3) = m ((c.tc : Thread nD τ).loc main_arg3) := rfl
  have a4 : launchContents m c (Proc.devRef .tc main_arg4) = m ((c.tc : Thread nD τ).loc main_arg4) := rfl
  have s1 := bn_stage (launchContents m c) a0 a3 a4
  have s2 := rows0_stage _ s1 (arg1_at1 m c) (arg2_at1 m c)
  have s3 := dense0_stage _ s2 (arg5_at2 m c) (arg6_at2 m c) (arg7_at2 m c) (arg8_at2 m c) (arg9_at2 m c) (arg10_at2 m c)
  have s4 := mean0_stage _ s3 (arg2_at3 m c)
  have s5 := rows1_stage _ s4 (arg1_at4 m c) (arg2_at4 m c)
  have s6 := dense1_stage _ s5 (arg11_at5 m c) (arg12_at5 m c) (arg13_at5 m c) (arg14_at5 m c) (arg15_at5 m c) (arg16_at5 m c)
  exact mean1_stage _ s6 (arg2_at6 m c)

end Cert.ReferenceIdeal.Fold

end
-- ==== Proof.Take.lean ====
/-
  A filled row take against a clamped row gather.

  Both programs read rows of the node features at an integer list `idx`, first wrapping a negative entry by adding
  the number of rows `N = 100000`. One program then gathers the row directly (a start index outside `[0, N - 1]` is
  clamped); the other also tests `0 ≤ w ≤ N - 1` on the wrapped entry `w` and, where the test fails, replaces the
  gathered row by a fill value. For an entry in `[-N, N)` the wrapped entry lies in `[0, N - 1]`, the test passes,
  and the two reads are the same gathered entry.
-/
import proofs.«418037_j8177617731795_1_alg».proof.Proof.Gen.KernelIdeal
import Idealize.ShloMosaic.PureOps.Ideal
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

noncomputable section

namespace Cert.KernelIdeal.Take

open Cert.KernelIdeal Cert.KernelIdeal.Gen Idealize.ShloMosaic Idealize.ShloMosaic.ValueIdx

/-- The index list with negative entries wrapped by `+ 100000`, as a column. -/
def wrapCol (idx : IVec S3200000 32) : IVec S3200000x1 32 :=
  broadcastInDim S3200000x1 ![0] bcast_S3200000_S3200000x1_0
    (select (cmpi .slt idx (broadcastInDim S3200000 ![] bcast_S_S3200000 (constantI S_ 32 0#32)))
      (addi idx (broadcastInDim S3200000 ![] bcast_S_S3200000 (constantI S_ 32 100000#32))) idx)

/-- The test `0 ≤ w ≤ 99999` on each wrapped entry. -/
def inRows (col : IVec S3200000x1 32) : IVec S3200000 1 :=
  Host.reduce IntOp.andi
    (andi (cmpi .sge col (broadcastInDim S3200000x1 ![] bcast_S_S3200000x1 (constantI S_ 32 0#32)))
      (cmpi .sle col (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The filled take of rows of width 4. -/
def take4 (h : FVec Ideal S100000x4 .f32) (idx : IVec S3200000 32) : FVec Ideal S3200000x4 .f32 :=
  select (broadcastInDim S3200000x4 ![0] bcast_S3200000_S3200000x4_0 (inRows (wrapCol idx)))
    (Host.gather gather_S100000x4_S3200000x1_S3200000x4_1_0_n_n_0_1_14 h (wrapCol idx))
    (broadcastInDim S3200000x4 ![] bcast_S_S3200000x4 (constant (F := Ideal) S_ .f32 0x7FC00000#32))

/-- The filled take of rows of width 2. -/
def take2 (h : FVec Ideal S100000x2 .f32) (idx : IVec S3200000 32) : FVec Ideal S3200000x2 .f32 :=
  select (broadcastInDim S3200000x2 ![0] bcast_S3200000_S3200000x2_0 (inRows (wrapCol idx)))
    (Host.gather gather_S100000x2_S3200000x1_S3200000x2_1_0_n_n_0_1_12 h (wrapCol idx))
    (broadcastInDim S3200000x2 ![] bcast_S_S3200000x2 (constant (F := Ideal) S_ .f32 0x7FC00000#32))

/-- An and-fold from 1 over words that are all 1 is 1. -/
private theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons.2 (Or.inr hi)))]
    rfl

/-- A word in `[-100000, 100000)`, wrapped by `+ 100000` when negative, passes the test `0 ≤ w ≤ 99999`:
    the sum of a negative word no less than `-100000` and `100000` does not wrap around. -/
private theorem wrap_test (x : BitVec 32) (hr : (-100000 : ℤ) ≤ x.toInt ∧ x.toInt < 100000) :
    IntOp.andi (IntOp.cmpi .sge (if x.toInt < 0 then x + 100000#32 else x) 0#32)
      (IntOp.cmpi .sle (if x.toInt < 0 then x + 100000#32 else x) 99999#32) = 1#1 := by
  obtain ⟨hlo, hhi⟩ := hr
  have h0 : (0#32 : BitVec 32).toInt = 0 := by decide
  have h9 : (99999#32 : BitVec 32).toInt = 99999 := by decide
  have hc : (100000#32 : BitVec 32).toInt = 100000 := by decide
  by_cases hn : x.toInt < 0
  · rw [if_pos hn]
    have hw : (x + 100000#32).toInt = x.toInt + 100000 := by
      rw [BitVec.toInt_add, hc]
      apply Int.bmod_eq_of_le <;> omega
    simp only [IntOp.andi, IntOp.cmpi, BitVec.sle, h0, h9, hw]
    rw [decide_eq_true (by omega), decide_eq_true (by omega)]
    rfl
  · rw [if_neg hn]
    simp only [IntOp.andi, IntOp.cmpi, BitVec.sle, h0, h9]
    rw [decide_eq_true (by omega), decide_eq_true (by omega)]
    rfl

/-- The wrapped column at position `e`. -/
theorem wrapCol_at (idx : IVec S3200000 32) (e : Fin 3200000) :
    wrapCol idx (ix2 e (0 : Fin 1))
      = if (idx (ix1 e)).toInt < 0 then idx (ix1 e) + 100000#32 else idx (ix1 e) := by
  unfold wrapCol
  rw [broadcastInDim_apply _ bcast_S3200000_S3200000x1_0 _ (ix2 e (0 : Fin 1)) (ix1 e) (fun a => match a with
    | ⟨0, _⟩ => by show e.val = if (3200000 : Nat) = 1 then 0 else e.val; rw [if_neg (by decide)])]
  show Scalar.select (IntOp.cmpi .slt (idx (ix1 e)) 0#32) (IntOp.addi (idx (ix1 e)) 100000#32) (idx (ix1 e)) = _
  have h0 : (0#32 : BitVec 32).toInt = 0 := by decide
  by_cases hn : (idx (ix1 e)).toInt < 0
  · rw [if_pos hn]
    simp only [Scalar.select, IntOp.cmpi, IntOp.addi, BitVec.slt, h0, decide_eq_true hn]
    rfl
  · rw [if_neg hn]
    simp only [Scalar.select, IntOp.cmpi, IntOp.addi, BitVec.slt, h0, decide_eq_false hn]
    rfl

/-- For an entry in `[-100000, 100000)` the test passes. -/
theorem inRows_at (idx : IVec S3200000 32) (e : Fin 3200000)
    (hr : (-100000 : ℤ) ≤ (idx (ix1 e)).toInt ∧ (idx (ix1 e)).toInt < 100000) :
    inRows (wrapCol idx) (ix1 e) = 1#1 := by
  unfold inRows
  rw [Host.reduce_eq_fold]
  refine fold_andi_one _ _ (fun i hi => ?_)
  have hd := (Finset.mem_filter.1 hi).2
  -- an index of the column that reduces into position `e` is `(e, 0)`
  have h0 : i 0 = e := by
    have hv : (reducesTo_S3200000x1_S3200000_d1.drop i 0 : Nat) = i 0 :=
      Shape.ReducesTo.drop_apply_val reducesTo_S3200000x1_S3200000_d1 i 0
    rw [hd] at hv
    exact Fin.ext hv.symm
  have hie : i = ix2 e (0 : Fin 1) := by
    funext a
    match a with
    | ⟨0, _⟩ => exact h0
    | ⟨1, _⟩ =>
      have h1 : (i 1).val < 1 := (i 1).isLt
      exact Fin.ext (by show (i 1).val = 0; omega)
  rw [hie]
  show IntOp.andi (IntOp.cmpi .sge (wrapCol idx (ix2 e (0 : Fin 1))) 0#32)
    (IntOp.cmpi .sle (wrapCol idx (ix2 e (0 : Fin 1))) 99999#32) = 1#1
  rw [wrapCol_at]
  exact wrap_test _ hr

/-- Width 4: for an entry in `[-100000, 100000)` the filled take is the gather. -/
theorem take4_at (h : FVec Ideal S100000x4 .f32) (idx : IVec S3200000 32) (e : Fin 3200000) (k : Fin 4)
    (hr : (-100000 : ℤ) ≤ (idx (ix1 e)).toInt ∧ (idx (ix1 e)).toInt < 100000) :
    take4 h idx (ix2 e k)
      = Host.gather gather_S100000x4_S3200000x1_S3200000x4_1_0_n_n_0_1_14 h (wrapCol idx) (ix2 e k) := by
  have hm : broadcastInDim S3200000x4 ![0] bcast_S3200000_S3200000x4_0 (inRows (wrapCol idx)) (ix2 e k) = 1#1 := by
    rw [broadcastInDim_apply _ bcast_S3200000_S3200000x4_0 _ (ix2 e k) (ix1 e) (fun a => match a with
      | ⟨0, _⟩ => by show e.val = if (3200000 : Nat) = 1 then 0 else e.val; rw [if_neg (by decide)])]
    exact inRows_at idx e hr
  unfold take4
  show Scalar.select (broadcastInDim S3200000x4 ![0] bcast_S3200000_S3200000x4_0 (inRows (wrapCol idx)) (ix2 e k)) _ _ = _
  rw [hm]
  rfl

/-- Width 2: for an entry in `[-100000, 100000)` the filled take is the gather. -/
theorem take2_at (h : FVec Ideal S100000x2 .f32) (idx : IVec S3200000 32) (e : Fin 3200000) (k : Fin 2)
    (hr : (-100000 : ℤ) ≤ (idx (ix1 e)).toInt ∧ (idx (ix1 e)).toInt < 100000) :
    take2 h idx (ix2 e k)
      = Host.gather gather_S100000x2_S3200000x1_S3200000x2_1_0_n_n_0_1_12 h (wrapCol idx) (ix2 e k) := by
  have hm : broadcastInDim S3200000x2 ![0] bcast_S3200000_S3200000x2_0 (inRows (wrapCol idx)) (ix2 e k) = 1#1 := by
    rw [broadcastInDim_apply _ bcast_S3200000_S3200000x2_0 _ (ix2 e k) (ix1 e) (fun a => match a with
      | ⟨0, _⟩ => by show e.val = if (3200000 : Nat) = 1 then 0 else e.val; rw [if_neg (by decide)])]
    exact inRows_at idx e hr
  unfold take2
  show Scalar.select (broadcastInDim S3200000x2 ![0] bcast_S3200000_S3200000x2_0 (inRows (wrapCol idx)) (ix2 e k)) _ _ = _
  rw [hm]
  rfl

end Cert.KernelIdeal.Take

end
-- ==== Proof.KFold.lean ====
/-
  The kernel program's host operations, stretch by stretch.

  Between the launch and the return the kernel program runs stretches of host operations around its two regions.
  Here each buffer a region reads, and the result buffer, is written as an explicit function of the buffers the
  stretch started from:

  * the two row arrays of a region are filled takes (Proof/Take.lean) of the node features at the target list
    `dst` and the source list `src`;
  * the weight arrays are the top and bottom halves of the first weight matrix (two slices) and the biases as one-row
    matrices (three reshapes);
  * after a region, the node features of the next layer are the scatter-add of the region's output at `dst` over
    zeros, divided by the number of edges arriving at the node, floored at one (`meanAt2`, `meanAt4`).

  The argument arrays themselves are written by nothing, so every stretch finds them as launched.
-/
import proofs.«418037_j8177617731795_1_alg».proof.Proof.Gen.KernelIdeal.Frame
import proofs.«418037_j8177617731795_1_alg».proof.Proof.Take

set_option maxRecDepth 16384

noncomputable section

namespace Cert.KernelIdeal.Fold

open Cert.KernelIdeal Cert.KernelIdeal.Gen Idealize.ShloMosaic Idealize.ShloMosaic.TcCoe Idealize.ShloMosaic.ValueIdx
open Idealize.SL.Sem Idealize.ShloMosaic.StableHlo Cert.KernelIdeal.Take

/-- Reading back, through a typed reference to buffer `r`, what was written through a typed reference to `r`: the two
    transports are along one equation of types, so the value comes back unchanged. -/
theorem ofBuf_toBuf_pair {Val : EltTy → Type} {T : BufTy} (r : Ref sig .tc) (h1 h1' : r.ty = T) (h2 h2' : r.space ≠ .host)
    (h3 h3' : r.isScoped = false) (v : T.Contents Val) :
    (TRef.of r h1 h2 h3 : TRef sig T).ofBuf ((TRef.of r h1' h2' h3' : TRef sig T).toBuf v) = v := by
  cases h1; rfl

/-! ## The mean aggregation after a region -/

/-- Width 2: the per-edge values `o` summed into their target nodes, over the number of arriving edges (at least one). -/
def meanAt2 {F : FTy → Type} [FloatOps F] (o : FVec F S3200000x2 .f32) (dst : IVec S3200000 32) : FVec F S100000x2 .f32 :=
  Host.divf
    (Host.scatterAdd scatter_S100000x2_S3200000x1_S3200000x2_1_0_0_1
      (broadcastInDim S100000x2 ![] bcast_S_S100000x2 (constant (F := F) S_ .f32 0x00000000#32))
      (broadcastInDim S3200000x1 ![0] bcast_S3200000_S3200000x1_0 dst) o)
    (broadcastInDim S100000x2 ![0, 1] bcast_S100000x1_S100000x2_0_1
      (broadcastInDim S100000x1 ![0] bcast_S100000_S100000x1_0
        (maximumf
          (Host.scatterAdd scatter_S100000_S3200000x1_S3200000_n_0_0_1
            (broadcastInDim S100000 ![] bcast_S_S100000 (constant (F := F) S_ .f32 0x00000000#32))
            (broadcastInDim S3200000x1 ![0] bcast_S3200000_S3200000x1_0 dst)
            (broadcastInDim S3200000 ![] bcast_S_S3200000 (constant (F := F) S_ .f32 0x3F800000#32)))
          (broadcastInDim S100000 ![] bcast_S_S100000 (constant (F := F) S_ .f32 0x3F800000#32)))))

/-- Width 4: the same aggregation. -/
def meanAt4 {F : FTy → Type} [FloatOps F] (o : FVec F S3200000x4 .f32) (dst : IVec S3200000 32) : FVec F S100000x4 .f32 :=
  Host.divf
    (Host.scatterAdd scatter_S100000x4_S3200000x1_S3200000x4_1_0_0_1
      (broadcastInDim S100000x4 ![] bcast_S_S100000x4 (constant (F := F) S_ .f32 0x00000000#32))
      (broadcastInDim S3200000x1 ![0] bcast_S3200000_S3200000x1_0 dst) o)
    (broadcastInDim S100000x4 ![0, 1] bcast_S100000x1_S100000x4_0_1
      (broadcastInDim S100000x1 ![0] bcast_S100000_S100000x1_0
        (maximumf
          (Host.scatterAdd scatter_S100000_S3200000x1_S3200000_n_0_0_1
            (broadcastInDim S100000 ![] bcast_S_S100000 (constant (F := F) S_ .f32 0x00000000#32))
            (broadcastInDim S3200000x1 ![0] bcast_S3200000_S3200000x1_0 dst)
            (broadcastInDim S3200000 ![] bcast_S_S3200000 (constant (F := F) S_ .f32 0x3F800000#32)))
          (broadcastInDim S100000 ![] bcast_S_S100000 (constant (F := F) S_ .f32 0x3F800000#32)))))

/-! ## One stretch at a time, from any starting contents `U` -/

section Stretch

variable (U : Valuation τ sig (Elt Ideal))

/-- The first take of layer 0: rows of the features at `dst`. -/
theorem take_dst0 :
    StableHlo.after (hostOps0_1 (F := Ideal)) U (Proc.devRef .tc main_v25)
      = take4 (U (Proc.devRef .tc main_v24)) (U (Proc.devRef .tc main_arg2)) := by
  have h : StableHlo.after (hostOps0_1 (F := Ideal)) U (Proc.devRef .tc main_v25)
      = (TRef.of main_v25 : TRef sig ⟨S3200000x4, .f32⟩).toBuf
          (take4 ((TRef.of main_v24 : TRef sig ⟨S100000x4, .f32⟩).ofBuf (U (Proc.devRef .tc main_v24)))
            ((TRef.of main_arg2 : TRef sig ⟨S3200000, .i32⟩).ofBuf (U (Proc.devRef .tc main_arg2)))) := by
    after_results_simp
    simp only [ofBuf_toBuf_pair]
    rfl
  have e0 (v : (⟨S3200000x4, .f32⟩ : BufTy).Contents (Elt Ideal)) :
      (TRef.of main_v25 : TRef sig ⟨S3200000x4, .f32⟩).toBuf v = v := rfl
  have e1 : (TRef.of main_v24 : TRef sig ⟨S100000x4, .f32⟩).ofBuf (U (Proc.devRef .tc main_v24)) = U (Proc.devRef .tc main_v24) := rfl
  have e2 : (TRef.of main_arg2 : TRef sig ⟨S3200000, .i32⟩).ofBuf (U (Proc.devRef .tc main_arg2)) = U (Proc.devRef .tc main_arg2) := rfl
  exact h.trans ((e0 _).trans (congrArg₂ take4 e1 e2))

/-- The second take of layer 0: rows of the features at `src`. -/
theorem take_src0 :
    StableHlo.after (hostOps0_2 (F := Ideal)) U (Proc.devRef .tc main_v26)
      = take4 (U (Proc.devRef .tc main_v24)) (U (Proc.devRef .tc main_arg1)) := by
  have h : StableHlo.after (hostOps0_2 (F := Ideal)) U (Proc.devRef .tc main_v26)
      = (TRef.of main_v26 : TRef sig ⟨S3200000x4, .f32⟩).toBuf
          (take4 ((TRef.of main_v24 : TRef sig ⟨S100000x4, .f32⟩).ofBuf (U (Proc.devRef .tc main_v24)))
            ((TRef.of main_arg1 : TRef sig ⟨S3200000, .i32⟩).ofBuf (U (Proc.devRef .tc main_arg1)))) := by
    after_results_simp
    simp only [ofBuf_toBuf_pair]
    rfl
  have e0 (v : (⟨S3200000x4, .f32⟩ : BufTy).Contents (Elt Ideal)) :
      (TRef.of main_v26 : TRef sig ⟨S3200000x4, .f32⟩).toBuf v = v := rfl
  have e1 : (TRef.of main_v24 : TRef sig ⟨S100000x4, .f32⟩).ofBuf (U (Proc.devRef .tc main_v24)) = U (Proc.devRef .tc main_v24) := rfl
  have e2 : (TRef.of main_arg1 : TRef sig ⟨S3200000, .i32⟩).ofBuf (U (Proc.devRef .tc main_arg1)) = U (Proc.devRef .tc main_arg1) := rfl
  exact h.trans ((e0 _).trans (congrArg₂ take4 e1 e2))

/-- The first take of layer 1: rows of the hidden features at `dst`. -/
theorem take_dst1 :
    StableHlo.after (hostOps1_1 (F := Ideal)) U (Proc.devRef .tc main_v45)
      = take2 (U (Proc.devRef .tc main_v44)) (U (Proc.devRef .tc main_arg2)) := by
  have h : StableHlo.after (hostOps1_1 (F := Ideal)) U (Proc.devRef .tc main_v45)
      = (TRef.of main_v45 : TRef sig ⟨S3200000x2, .f32⟩).toBuf
          (take2 ((TRef.of main_v44 : TRef sig ⟨S100000x2, .f32⟩).ofBuf (U (Proc.devRef .tc main_v44)))
            ((TRef.of main_arg2 : TRef sig ⟨S3200000, .i32⟩).ofBuf (U (Proc.devRef .tc main_arg2)))) := by
    after_results_simp
    simp only [ofBuf_toBuf_pair]
    rfl
  have e0 (v : (⟨S3200000x2, .f32⟩ : BufTy).Contents (Elt Ideal)) :
      (TRef.of main_v45 : TRef sig ⟨S3200000x2, .f32⟩).toBuf v = v := rfl
  have e1 : (TRef.of main_v44 : TRef sig ⟨S100000x2, .f32⟩).ofBuf (U (Proc.devRef .tc main_v44)) = U (Proc.devRef .tc main_v44) := rfl
  have e2 : (TRef.of main_arg2 : TRef sig ⟨S3200000, .i32⟩).ofBuf (U (Proc.devRef .tc main_arg2)) = U (Proc.devRef .tc main_arg2) := rfl
  exact h.trans ((e0 _).trans (congrArg₂ take2 e1 e2))

/-- The second take of layer 1: rows of the hidden features at `src`. -/
theorem take_src1 :
    StableHlo.after (hostOps1_2 (F := Ideal)) U (Proc.devRef .tc main_v46)
      = take2 (U (Proc.devRef .tc main_v44)) (U (Proc.devRef .tc main_arg1)) := by
  have h : StableHlo.after (hostOps1_2 (F := Ideal)) U (Proc.devRef .tc main_v46)
      = (TRef.of main_v46 : TRef sig ⟨S3200000x2, .f32⟩).toBuf
          (take2 ((TRef.of main_v44 : TRef sig ⟨S100000x2, .f32⟩).ofBuf (U (Proc.devRef .tc main_v44)))
            ((TRef.of main_arg1 : TRef sig ⟨S3200000, .i32⟩).ofBuf (U (Proc.devRef .tc main_arg1)))) := by
    after_results_simp
    simp only [ofBuf_toBuf_pair]
    rfl
  have e0 (v : (⟨S3200000x2, .f32⟩ : BufTy).Contents (Elt Ideal)) :
      (TRef.of main_v46 : TRef sig ⟨S3200000x2, .f32⟩).toBuf v = v := rfl
  have e1 : (TRef.of main_v44 : TRef sig ⟨S100000x2, .f32⟩).ofBuf (U (Proc.devRef .tc main_v44)) = U (Proc.devRef .tc main_v44) := rfl
  have e2 : (TRef.of main_arg1 : TRef sig ⟨S3200000, .i32⟩).ofBuf (U (Proc.devRef .tc main_arg1)) = U (Proc.devRef .tc main_arg1) := rfl
  exact h.trans ((e0 _).trans (congrArg₂ take2 e1 e2))

/-- The aggregation after region 0. -/
theorem mean0 :
    StableHlo.after (hostOps1 (F := Ideal)) U (Proc.devRef .tc main_v44)
      = meanAt2 (F := Ideal) (U (Proc.devRef .tc main_v32)) (U (Proc.devRef .tc main_arg2)) := by
  after_results_simp
  rfl

/-- The aggregation after region 1: the program's result. -/
theorem mean1 :
    StableHlo.after (hostOps2 (F := Ideal)) U (Proc.devRef .tc main_v64)
      = meanAt4 (F := Ideal) (U (Proc.devRef .tc main_v52)) (U (Proc.devRef .tc main_arg2)) := by
  after_results_simp
  rfl

end Stretch

/-! ## The contents at each region's entry and at the return, from the launch memory -/

section Run

variable (m : (ℓ : Loc nD τ sig) → Buf (Elt Ideal) ℓ) (ρ : Dev nD → PrngReg) (c : Dev nD)

/-- A buffer none of the stretch's operations writes keeps its contents: by rewriting through every operation. -/
local macro "through_stretches" : tactic => `(tactic| (after_results_simp <;> rfl))

/-! ### The two index lists stay as launched -/

theorem dst_at1 : W1 m ρ c (Proc.devRef .tc main_arg2) = m ((c : Thread nD τ).loc main_arg2) := by
  show StableHlo.after hostOps0 (W0 m ρ c) _ = _
  through_stretches

theorem src_at2 : W2 m ρ c (Proc.devRef .tc main_arg1) = m ((c : Thread nD τ).loc main_arg1) := by
  show StableHlo.after hostOps0_1 (StableHlo.after hostOps0 (W0 m ρ c)) _ = _
  through_stretches

theorem feat_at2 : W2 m ρ c (Proc.devRef .tc main_v24) = W1 m ρ c (Proc.devRef .tc main_v24) := by
  show StableHlo.after hostOps0_1 (W1 m ρ c) _ = _
  generalize W1 m ρ c = U
  through_stretches

theorem src_at4 : W4 m ρ c (Proc.devRef .tc main_arg1) = m ((c : Thread nD τ).loc main_arg1) := by
  show StableHlo.after hostOps0_3 (StableHlo.after hostOps0_2 (StableHlo.after hostOps0_1 (StableHlo.after hostOps0 (W0 m ρ c)))) _ = _
  through_stretches

theorem dst_at4 : W4 m ρ c (Proc.devRef .tc main_arg2) = m ((c : Thread nD τ).loc main_arg2) := by
  show StableHlo.after hostOps0_3 (StableHlo.after hostOps0_2 (StableHlo.after hostOps0_1 (StableHlo.after hostOps0 (W0 m ρ c)))) _ = _
  through_stretches

theorem src_at5 : W5 m ρ c (Proc.devRef .tc main_arg1) = m ((c : Thread nD τ).loc main_arg1) :=
  (W5_of_ne m ρ c main_arg1 (by decide)).trans (src_at4 m ρ c)

theorem dst_at5 : W5 m ρ c (Proc.devRef .tc main_arg2) = m ((c : Thread nD τ).loc main_arg2) :=
  (W5_of_ne m ρ c main_arg2 (by decide)).trans (dst_at4 m ρ c)

theorem dst_at6 : W6 m ρ c (Proc.devRef .tc main_arg2) = m ((c : Thread nD τ).loc main_arg2) := by
  refine Eq.trans ?_ (dst_at5 m ρ c)
  show StableHlo.after hostOps1 (W5 m ρ c) _ = _
  generalize W5 m ρ c = U
  through_stretches

theorem src_at7 : W7 m ρ c (Proc.devRef .tc main_arg1) = m ((c : Thread nD τ).loc main_arg1) := by
  refine Eq.trans ?_ (src_at5 m ρ c)
  show StableHlo.after hostOps1_1 (StableHlo.after hostOps1 (W5 m ρ c)) _ = _
  generalize W5 m ρ c = U
  through_stretches

theorem feat_at7 : W7 m ρ c (Proc.devRef .tc main_v44) = W6 m ρ c (Proc.devRef .tc main_v44) := by
  show StableHlo.after hostOps1_1 (W6 m ρ c) _ = _
  generalize W6 m ρ c = U
  through_stretches

theorem dst_at10 : W10 m ρ c (Proc.devRef .tc main_arg2) = m ((c : Thread nD τ).loc main_arg2) := by
  refine (W10_of_ne m ρ c main_arg2 (by decide)).trans (Eq.trans ?_ (dst_at5 m ρ c))
  show StableHlo.after hostOps1_3 (StableHlo.after hostOps1_2 (StableHlo.after hostOps1_1 (StableHlo.after hostOps1 (W5 m ρ c)))) _ = _
  generalize W5 m ρ c = U
  through_stretches

/-! ### Region 0's arrays at its entry -/

/-- The target rows: the filled take of the normalised features at `dst`. -/
theorem in0_xi : V4 m ρ c main_v25
    = take4 (W1 m ρ c (Proc.devRef .tc main_v24)) (m ((c : Thread nD τ).loc main_arg2)) := by
  have e1 : W4 m ρ c (Proc.devRef .tc main_v25) = StableHlo.after hostOps0_1 (W1 m ρ c) (Proc.devRef .tc main_v25) := by
    show StableHlo.after hostOps0_3 (StableHlo.after hostOps0_2 (StableHlo.after hostOps0_1 (W1 m ρ c))) _ = _
    generalize StableHlo.after (hostOps0_1 (F := Ideal)) (W1 m ρ c) = U
    through_stretches
  exact e1.trans ((take_dst0 (W1 m ρ c)).trans (congrArg (take4 _) (dst_at1 m ρ c)))

/-- The source rows: the filled take of the normalised features at `src`. -/
theorem in0_xj : V4 m ρ c main_v26
    = take4 (W1 m ρ c (Proc.devRef .tc main_v24)) (m ((c : Thread nD τ).loc main_arg1)) := by
  have e1 : W4 m ρ c (Proc.devRef .tc main_v26) = StableHlo.after hostOps0_2 (W2 m ρ c) (Proc.devRef .tc main_v26) := by
    show StableHlo.after hostOps0_3 (StableHlo.after hostOps0_2 (W2 m ρ c)) _ = _
    generalize StableHlo.after (hostOps0_2 (F := Ideal)) (W2 m ρ c) = U
    through_stretches
  exact e1.trans ((take_src0 (W2 m ρ c)).trans (congrArg₂ take4 (feat_at2 m ρ c) (src_at2 m ρ c)))

theorem in0_w1a : V4 m ρ c main_v27
    = extractStridedSlice S4x32 ![0, 0] (m ((c : Thread nD τ).loc main_arg5)) slices_S8x32_S4x32_0_0 := by
  show StableHlo.after hostOps0_3 (StableHlo.after hostOps0_2 (StableHlo.after hostOps0_1 (StableHlo.after hostOps0 (W0 m ρ c)))) _ = _
  through_stretches

theorem in0_w1b : V4 m ρ c main_v28
    = extractStridedSlice S4x32 ![4, 0] (m ((c : Thread nD τ).loc main_arg5)) slices_S8x32_S4x32_4_0 := by
  show StableHlo.after hostOps0_3 (StableHlo.after hostOps0_2 (StableHlo.after hostOps0_1 (StableHlo.after hostOps0 (W0 m ρ c)))) _ = _
  through_stretches

theorem in0_b1 : V4 m ρ c main_v29 = shapeCast S1x32 (m ((c : Thread nD τ).loc main_arg6)) shapeCasts_S32_S1x32 := by
  show StableHlo.after hostOps0_3 (StableHlo.after hostOps0_2 (StableHlo.after hostOps0_1 (StableHlo.after hostOps0 (W0 m ρ c)))) _ = _
  through_stretches

theorem in0_w2 : V4 m ρ c main_arg7 = m ((c : Thread nD τ).loc main_arg7) := by
  show StableHlo.after hostOps0_3 (StableHlo.after hostOps0_2 (StableHlo.after hostOps0_1 (StableHlo.after hostOps0 (W0 m ρ c)))) _ = _
  through_stretches

theorem in0_b2 : V4 m ρ c main_v30 = shapeCast S1x32 (m ((c : Thread nD τ).loc main_arg8)) shapeCasts_S32_S1x32 := by
  show StableHlo.after hostOps0_3 (StableHlo.after hostOps0_2 (StableHlo.after hostOps0_1 (StableHlo.after hostOps0 (W0 m ρ c)))) _ = _
  through_stretches

theorem in0_w3 : V4 m ρ c main_arg9 = m ((c : Thread nD τ).loc main_arg9) := by
  show StableHlo.after hostOps0_3 (StableHlo.after hostOps0_2 (StableHlo.after hostOps0_1 (StableHlo.after hostOps0 (W0 m ρ c)))) _ = _
  through_stretches

theorem in0_b3 : V4 m ρ c main_v31 = shapeCast S1x2 (m ((c : Thread nD τ).loc main_arg10)) shapeCasts_S2_S1x2 := by
  show StableHlo.after hostOps0_3 (StableHlo.after hostOps0_2 (StableHlo.after hostOps0_1 (StableHlo.after hostOps0 (W0 m ρ c)))) _ = _
  through_stretches

/-! ### Region 0's output, and the hidden features after it -/

/-- Region 0's output buffer holds what the pipeline's write-backs leave. -/
theorem out0 : W5 m ρ c (Proc.devRef .tc main_v32) = (dat0 (V4 m ρ) c).arrAt 9 cfg0.N :=
  W5_arr m ρ c 9

/-- The hidden features: the mean aggregation of region 0's output at `dst`. -/
theorem feat1 : W6 m ρ c (Proc.devRef .tc main_v44)
    = meanAt2 (F := Ideal) (W5 m ρ c (Proc.devRef .tc main_v32)) (m ((c : Thread nD τ).loc main_arg2)) :=
  (mean0 (W5 m ρ c)).trans (congrArg (meanAt2 (F := Ideal) _) (dst_at5 m ρ c))

/-! ### Region 1's arrays at its entry -/

/-- The target rows: the filled take of the hidden features at `dst`. -/
theorem in1_xi : V9 m ρ c main_v45
    = take2 (W6 m ρ c (Proc.devRef .tc main_v44)) (m ((c : Thread nD τ).loc main_arg2)) := by
  have e1 : W9 m ρ c (Proc.devRef .tc main_v45) = StableHlo.after hostOps1_1 (W6 m ρ c) (Proc.devRef .tc main_v45) := by
    show StableHlo.after hostOps1_3 (StableHlo.after hostOps1_2 (StableHlo.after hostOps1_1 (W6 m ρ c))) _ = _
    generalize StableHlo.after (hostOps1_1 (F := Ideal)) (W6 m ρ c) = U
    through_stretches
  exact e1.trans ((take_dst1 (W6 m ρ c)).trans (congrArg (take2 _) (dst_at6 m ρ c)))

/-- The source rows: the filled take of the hidden features at `src`. -/
theorem in1_xj : V9 m ρ c main_v46
    = take2 (W6 m ρ c (Proc.devRef .tc main_v44)) (m ((c : Thread nD τ).loc main_arg1)) := by
  have e1 : W9 m ρ c (Proc.devRef .tc main_v46) = StableHlo.after hostOps1_2 (W7 m ρ c) (Proc.devRef .tc main_v46) := by
    show StableHlo.after hostOps1_3 (StableHlo.after hostOps1_2 (W7 m ρ c)) _ = _
    generalize StableHlo.after (hostOps1_2 (F := Ideal)) (W7 m ρ c) = U
    through_stretches
  exact e1.trans ((take_src1 (W7 m ρ c)).trans (congrArg₂ take2 (feat_at7 m ρ c) (src_at7 m ρ c)))

/-- An argument array no stretch and no region writes, read at region 1's entry: back through region 0 to the launch. -/
local macro "weight_at9" a:ident : tactic => `(tactic| (
  refine Eq.trans (b := W5 m ρ c (Proc.devRef .tc $a)) ?_ ((W5_of_ne m ρ c $a (by decide)).trans ?_)
  · show StableHlo.after hostOps1_3 (StableHlo.after hostOps1_2 (StableHlo.after hostOps1_1 (StableHlo.after hostOps1 (W5 m ρ c)))) _ = _
    generalize W5 m ρ c = U
    through_stretches
  · show StableHlo.after hostOps0_3 (StableHlo.after hostOps0_2 (StableHlo.after hostOps0_1 (StableHlo.after hostOps0 (W0 m ρ c)))) _ = _
    through_stretches))

theorem w1_at9 : W9 m ρ c (Proc.devRef .tc main_arg11) = m ((c : Thread nD τ).loc main_arg11) := by weight_at9 main_arg11
theorem b1_at9 : W9 m ρ c (Proc.devRef .tc main_arg12) = m ((c : Thread nD τ).loc main_arg12) := by weight_at9 main_arg12
theorem b2_at9 : W9 m ρ c (Proc.devRef .tc main_arg14) = m ((c : Thread nD τ).loc main_arg14) := by weight_at9 main_arg14
theorem b3_at9 : W9 m ρ c (Proc.devRef .tc main_arg16) = m ((c : Thread nD τ).loc main_arg16) := by weight_at9 main_arg16

theorem in1_w2 : V9 m ρ c main_arg13 = m ((c : Thread nD τ).loc main_arg13) := by weight_at9 main_arg13
theorem in1_w3 : V9 m ρ c main_arg15 = m ((c : Thread nD τ).loc main_arg15) := by weight_at9 main_arg15

/-- The last stretch before region 1 (two slices, three reshapes), from any contents `U`. -/
theorem split1_w1a (U : Valuation τ sig (Elt Ideal)) :
    StableHlo.after (hostOps1_3 (F := Ideal)) U (Proc.devRef .tc main_v47)
      = extractStridedSlice S2x32 ![0, 0] (U (Proc.devRef .tc main_arg11)) slices_S4x32_S2x32_0_0 := by through_stretches
theorem split1_w1b (U : Valuation τ sig (Elt Ideal)) :
    StableHlo.after (hostOps1_3 (F := Ideal)) U (Proc.devRef .tc main_v48)
      = extractStridedSlice S2x32 ![2, 0] (U (Proc.devRef .tc main_arg11)) slices_S4x32_S2x32_2_0 := by through_stretches
theorem split1_b1 (U : Valuation τ sig (Elt Ideal)) :
    StableHlo.after (hostOps1_3 (F := Ideal)) U (Proc.devRef .tc main_v49)
      = shapeCast S1x32 (U (Proc.devRef .tc main_arg12)) shapeCasts_S32_S1x32 := by through_stretches
theorem split1_b2 (U : Valuation τ sig (Elt Ideal)) :
    StableHlo.after (hostOps1_3 (F := Ideal)) U (Proc.devRef .tc main_v50)
      = shapeCast S1x32 (U (Proc.devRef .tc main_arg14)) shapeCasts_S32_S1x32 := by through_stretches
theorem split1_b3 (U : Valuation τ sig (Elt Ideal)) :
    StableHlo.after (hostOps1_3 (F := Ideal)) U (Proc.devRef .tc main_v51)
      = shapeCast S1x4 (U (Proc.devRef .tc main_arg16)) shapeCasts_S4_S1x4 := by through_stretches

/-- An argument array read at the last stretch before region 1. -/
local macro "weight_at8" a:ident : tactic => `(tactic| (
  refine Eq.trans (b := W5 m ρ c (Proc.devRef .tc $a)) ?_ ((W5_of_ne m ρ c $a (by decide)).trans ?_)
  · show StableHlo.after hostOps1_2 (StableHlo.after hostOps1_1 (StableHlo.after hostOps1 (W5 m ρ c))) _ = _
    generalize W5 m ρ c = U
    through_stretches
  · show StableHlo.after hostOps0_3 (StableHlo.after hostOps0_2 (StableHlo.after hostOps0_1 (StableHlo.after hostOps0 (W0 m ρ c)))) _ = _
    through_stretches))

theorem w1_at8 : W8 m ρ c (Proc.devRef .tc main_arg11) = m ((c : Thread nD τ).loc main_arg11) := by weight_at8 main_arg11
theorem b1_at8 : W8 m ρ c (Proc.devRef .tc main_arg12) = m ((c : Thread nD τ).loc main_arg12) := by weight_at8 main_arg12
theorem b2_at8 : W8 m ρ c (Proc.devRef .tc main_arg14) = m ((c : Thread nD τ).loc main_arg14) := by weight_at8 main_arg14
theorem b3_at8 : W8 m ρ c (Proc.devRef .tc main_arg16) = m ((c : Thread nD τ).loc main_arg16) := by weight_at8 main_arg16

theorem in1_w1a : V9 m ρ c main_v47
    = extractStridedSlice S2x32 ![0, 0] (m ((c : Thread nD τ).loc main_arg11)) slices_S4x32_S2x32_0_0 :=
  (split1_w1a (W8 m ρ c)).trans (congrArg (extractStridedSlice S2x32 ![0, 0] · slices_S4x32_S2x32_0_0) (w1_at8 m ρ c))
theorem in1_w1b : V9 m ρ c main_v48
    = extractStridedSlice S2x32 ![2, 0] (m ((c : Thread nD τ).loc main_arg11)) slices_S4x32_S2x32_2_0 :=
  (split1_w1b (W8 m ρ c)).trans (congrArg (extractStridedSlice S2x32 ![2, 0] · slices_S4x32_S2x32_2_0) (w1_at8 m ρ c))
theorem in1_b1 : V9 m ρ c main_v49 = shapeCast S1x32 (m ((c : Thread nD τ).loc main_arg12)) shapeCasts_S32_S1x32 :=
  (split1_b1 (W8 m ρ c)).trans (congrArg (shapeCast S1x32 · shapeCasts_S32_S1x32) (b1_at8 m ρ c))
theorem in1_b2 : V9 m ρ c main_v50 = shapeCast S1x32 (m ((c : Thread nD τ).loc main_arg14)) shapeCasts_S32_S1x32 :=
  (split1_b2 (W8 m ρ c)).trans (congrArg (shapeCast S1x32 · shapeCasts_S32_S1x32) (b2_at8 m ρ c))
theorem in1_b3 : V9 m ρ c main_v51 = shapeCast S1x4 (m ((c : Thread nD τ).loc main_arg16)) shapeCasts_S4_S1x4 :=
  (split1_b3 (W8 m ρ c)).trans (congrArg (shapeCast S1x4 · shapeCasts_S4_S1x4) (b3_at8 m ρ c))

/-! ### Region 1's output, and the result -/

/-- Region 1's output buffer holds what the pipeline's write-backs leave. -/
theorem out1 : W10 m ρ c (Proc.devRef .tc main_v52) = (dat1 (V9 m ρ) c).arrAt 9 cfg1.N :=
  W10_arr m ρ c 9

/-- The result: the mean aggregation of region 1's output at `dst`. -/
theorem result : W11 m ρ c (Proc.devRef .tc main_v64)
    = meanAt4 (F := Ideal) ((dat1 (V9 m ρ) c).arrAt 9 cfg1.N) (m ((c : Thread nD τ).loc main_arg2)) :=
  (mean1 (W10 m ρ c)).trans (congrArg₂ (meanAt4 (F := Ideal)) (out1 m ρ c) (dst_at10 m ρ c))

end Run

end Cert.KernelIdeal.Fold

end
-- ==== Proof.EdgeSpec.lean ====
/-
  The message of one edge in an edge convolution, over the extended reals.

  For an edge with target features `xi` and source features `xj` (each a row of `d` numbers) the message is
  a three-layer perceptron of the row `[xi, xj - xi]` of width `2d`:

      h1 = relu ([xi, xj - xi] · W1 + b1),   h2 = relu (h1 · W2 + b2),   out = h2 · W3 + b3.

  The first product can be arranged in two ways: one sum over the `2d` joined columns against the whole
  `W1`, or the sum over the first `d` columns against the top half of `W1` plus the sum over the last `d`
  against its bottom half. A finite sum over `d + d` positions splits at `d` whatever the summands are —
  only the associativity of `+` on the extended reals is used, so no finiteness is needed.
-/
import Idealize.ShloMosaic.PureOps.Ideal
import Idealize.ShloMosaic.Lib.ValueIdx

noncomputable section

open scoped BigOperators

namespace Cert.EdgeConv

/-- The rectifier on the extended reals. -/
def relu (v : EReal) : EReal := max v 0

/-- A row times a matrix, plus a bias: entry `j`. -/
def affine {n p : ℕ} (a : Fin n → EReal) (W : Fin n → Fin p → EReal) (b : Fin p → EReal) (j : Fin p) : EReal :=
  (∑ k, a k * W k j) + b j

/-- Two rows against two matrices, summed, plus a bias: entry `j` (the split arrangement of the first layer). -/
def affine2 {n p : ℕ} (a a' : Fin n → EReal) (W W' : Fin n → Fin p → EReal) (b : Fin p → EReal) (j : Fin p) : EReal :=
  ((∑ k, a k * W k j) + ∑ k, a' k * W' k j) + b j

/-- The message of one edge BEFORE any last activation, entry `j`: `Wa`, `Wb` are the top and bottom halves
    of the first weight matrix, the hidden width is 32. -/
def message {d o : ℕ} (xi xj : Fin d → EReal) (Wa Wb : Fin d → Fin 32 → EReal) (b1 : Fin 32 → EReal)
    (W2 : Fin 32 → Fin 32 → EReal) (b2 : Fin 32 → EReal) (W3 : Fin 32 → Fin o → EReal) (b3 : Fin o → EReal)
    (j : Fin o) : EReal :=
  affine (fun k => relu (affine (fun k' => relu (affine2 xi (fun t => xj t - xi t) Wa Wb b1 k')) W2 b2 k)) W3 b3 j

/-- A sum over `d + d` joined positions is the sum over the first `d` plus the sum over the last `d`. -/
theorem sum_joined {d : ℕ} (f : Fin (d + d) → EReal) :
    (∑ k : Fin (d + d), f k) = (∑ k : Fin d, f (Fin.castAdd d k)) + ∑ k : Fin d, f (Fin.natAdd d k) :=
  Fin.sum_univ_add f

/-- The joined arrangement of the first layer is the split one: a row `[a, a']` of width `d + d` against a
    matrix of `d + d` rows is `a` against its top half plus `a'` against its bottom half. -/
theorem affine_joined {d p : ℕ} (a a' : Fin d → EReal) (W : Fin (d + d) → Fin p → EReal) (b : Fin p → EReal)
    (j : Fin p) :
    affine (Fin.append a a') W b j
      = affine2 a a' (fun k => W (Fin.castAdd d k)) (fun k => W (Fin.natAdd d k)) b j := by
  unfold affine affine2
  rw [sum_joined]
  simp only [Fin.append_left, Fin.append_right]

end Cert.EdgeConv

end
-- ==== Proof.KBody.lean ====
/-
  The kernel body's stored value, read at one entry.

  The body of each region loads a block of 8000 target rows `x0` and 8000 source rows `x1`, the two halves of the
  first weight matrix, and the remaining weights and biases, and stores ONE value: row `p` of it is the message of
  the edge whose target and source features are rows `p` of `x0` and `x1` (Proof/EdgeSpec.lean `message`), with a
  last rectifier in the first region and none in the second. At the ideal values a change of float format is the
  identity and a matrix product onto a zero accumulator is the plain sum of products.
-/
import proofs.«418037_j8177617731795_1_alg».proof.Proof.Gen.KernelIdeal.Skeleton
import proofs.«418037_j8177617731795_1_alg».proof.Proof.EdgeSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.EdgeConv

/-! ## The zero word -/

/-- The scalar constant `0.0` is the extended real zero. -/
private theorem zero_word : Scalar.ofBits (F := Ideal) .f32 0x00000000#32 = (0 : EReal) :=
  Ideal.ofBits_zero_f32

/-! ## Each matrix product at an entry

  For a product of an `m × K` operand with a `K × n` one, contracting the left's axis 1 with the right's axis 0, the
  left operand is read at (row of the output, contraction position) and the right one at (contraction position,
  column of the output): four coordinate facts per product, then the sum over the one contraction coordinate. -/

/-! ### `[8000, 4] · [4, 32]` -/

private theorem lhsA_0 (i : S8000x32.Idx) (q : dot_S8000x4_S4x32_S8000x32_1_0_0_1_n_n.contr.Idx) :
    (dot_S8000x4_S4x32_S8000x32_1_0_0_1_n_n.lhsIdx i q 0).val = (i 0).val := by
  unfold DotDims.lhsIdx
  rw [dif_neg (show ¬(0 : Fin S8000x4.rank) ∈ dot_S8000x4_S4x32_S8000x32_1_0_0_1_n_n.lhsBatch by decide), dif_pos (show (0 : Fin S8000x4.rank) ∈ dot_S8000x4_S4x32_S8000x32_1_0_0_1_n_n.lhsNonContracting by decide)]
  rfl
private theorem lhsA_1 (i : S8000x32.Idx) (q : dot_S8000x4_S4x32_S8000x32_1_0_0_1_n_n.contr.Idx) :
    (dot_S8000x4_S4x32_S8000x32_1_0_0_1_n_n.lhsIdx i q 1).val = (q ⟨0, by decide⟩).val :=
  dot_S8000x4_S4x32_S8000x32_1_0_0_1_n_n.lhsIdx_val_of_single rfl i q
private theorem rhsA_0 (i : S8000x32.Idx) (q : dot_S8000x4_S4x32_S8000x32_1_0_0_1_n_n.contr.Idx) :
    (dot_S8000x4_S4x32_S8000x32_1_0_0_1_n_n.rhsIdx i q 0).val = (q ⟨0, by decide⟩).val :=
  dot_S8000x4_S4x32_S8000x32_1_0_0_1_n_n.rhsIdx_val_of_single rfl i q
private theorem rhsA_1 (i : S8000x32.Idx) (q : dot_S8000x4_S4x32_S8000x32_1_0_0_1_n_n.contr.Idx) :
    (dot_S8000x4_S4x32_S8000x32_1_0_0_1_n_n.rhsIdx i q 1).val = (i 1).val := by
  unfold DotDims.rhsIdx
  rw [dif_neg (show ¬(1 : Fin S4x32.rank) ∈ dot_S8000x4_S4x32_S8000x32_1_0_0_1_n_n.rhsBatch by decide), dif_pos (show (1 : Fin S4x32.rank) ∈ dot_S8000x4_S4x32_S8000x32_1_0_0_1_n_n.rhsNonContracting by decide)]
  rfl
/-- An 8000×4 block times a 4×32 matrix onto a zero accumulator, at row `p`, column `j`. -/
private theorem mmA_apply (a : FVec Ideal S8000x4 .bf16) (w : FVec Ideal S4x32 .bf16) (p : Fin 8000) (j : Fin 32) :
    matmul (F := Ideal) dot_S8000x4_S4x32_S8000x32_1_0_0_1_n_n none a w (constant (F := Ideal) S8000x32 .f32 0x00000000#32) (ix2 p j)
      = ∑ k : Fin 4, a (ix2 p k) * w (ix2 k j) := by
  simp only [matmul]
  rw [Ideal.matmul_constant_zero_apply, ← Equiv.sum_comp (contrEquiv1 dot_S8000x4_S4x32_S8000x32_1_0_0_1_n_n 4 rfl rfl).symm]
  refine Finset.sum_congr rfl fun k _ => ?_
  have hk := contrEquiv1_symm_val dot_S8000x4_S4x32_S8000x32_1_0_0_1_n_n 4 rfl rfl k
  have el : dot_S8000x4_S4x32_S8000x32_1_0_0_1_n_n.lhsIdx (ix2 p j) ((contrEquiv1 dot_S8000x4_S4x32_S8000x32_1_0_0_1_n_n 4 rfl rfl).symm k) = ix2 p k := funext fun a => Fin.ext (by
    match a with
    | ⟨0, _⟩ => exact lhsA_0 _ _
    | ⟨1, _⟩ => exact (lhsA_1 _ _).trans hk)
  have er : dot_S8000x4_S4x32_S8000x32_1_0_0_1_n_n.rhsIdx (ix2 p j) ((contrEquiv1 dot_S8000x4_S4x32_S8000x32_1_0_0_1_n_n 4 rfl rfl).symm k) = ix2 k j := funext fun a => Fin.ext (by
    match a with
    | ⟨0, _⟩ => exact (rhsA_0 _ _).trans hk
    | ⟨1, _⟩ => exact rhsA_1 _ _)
  rw [el, er]

/-! ### `[8000, 32] · [32, 32]` -/

private theorem lhsB_0 (i : S8000x32.Idx) (q : dot_S8000x32_S32x32_S8000x32_1_0_0_1_n_n.contr.Idx) :
    (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
  rfl
private theorem lhsB_1 (i : S8000x32.Idx) (q : dot_S8000x32_S32x32_S8000x32_1_0_0_1_n_n.contr.Idx) :
    (dot_S8000x32_S32x32_S8000x32_1_0_0_1_n_n.lhsIdx i q 1).val = (q ⟨0, by decide⟩).val :=
  dot_S8000x32_S32x32_S8000x32_1_0_0_1_n_n.lhsIdx_val_of_single rfl i q
private theorem rhsB_0 (i : S8000x32.Idx) (q : dot_S8000x32_S32x32_S8000x32_1_0_0_1_n_n.contr.Idx) :
    (dot_S8000x32_S32x32_S8000x32_1_0_0_1_n_n.rhsIdx i q 0).val = (q ⟨0, by decide⟩).val :=
  dot_S8000x32_S32x32_S8000x32_1_0_0_1_n_n.rhsIdx_val_of_single rfl i q
private theorem rhsB_1 (i : S8000x32.Idx) (q : dot_S8000x32_S32x32_S8000x32_1_0_0_1_n_n.contr.Idx) :
    (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
  rfl
/-- An 8000×32 block times a 32×32 matrix onto a zero accumulator, at row `p`, column `j`. -/
private theorem mmB_apply (a : FVec Ideal S8000x32 .bf16) (w : FVec Ideal S32x32 .bf16) (p : Fin 8000) (j : Fin 32) :
    matmul (F := Ideal) dot_S8000x32_S32x32_S8000x32_1_0_0_1_n_n none a w (constant (F := Ideal) S8000x32 .f32 0x00000000#32) (ix2 p j)
      = ∑ k : Fin 32, a (ix2 p k) * w (ix2 k j) := by
  simp only [matmul]
  rw [Ideal.matmul_constant_zero_apply, ← Equiv.sum_comp (contrEquiv1 dot_S8000x32_S32x32_S8000x32_1_0_0_1_n_n 32 rfl rfl).symm]
  refine Finset.sum_congr rfl fun k _ => ?_
  have hk := contrEquiv1_symm_val dot_S8000x32_S32x32_S8000x32_1_0_0_1_n_n 32 rfl rfl k
  have el : dot_S8000x32_S32x32_S8000x32_1_0_0_1_n_n.lhsIdx (ix2 p j) ((contrEquiv1 dot_S8000x32_S32x32_S8000x32_1_0_0_1_n_n 32 rfl rfl).symm k) = ix2 p k := funext fun a => Fin.ext (by
    match a with
    | ⟨0, _⟩ => exact lhsB_0 _ _
    | ⟨1, _⟩ => exact (lhsB_1 _ _).trans hk)
  have er : dot_S8000x32_S32x32_S8000x32_1_0_0_1_n_n.rhsIdx (ix2 p j) ((contrEquiv1 dot_S8000x32_S32x32_S8000x32_1_0_0_1_n_n 32 rfl rfl).symm k) = ix2 k j := funext fun a => Fin.ext (by
    match a with
    | ⟨0, _⟩ => exact (rhsB_0 _ _).trans hk
    | ⟨1, _⟩ => exact rhsB_1 _ _)
  rw [el, er]

/-! ### `[8000, 32] · [32, 2]` -/

private theorem lhsC_0 (i : S8000x2.Idx) (q : dot_S8000x32_S32x2_S8000x2_1_0_0_1_n_n.contr.Idx) :
    (dot_S8000x32_S32x2_S8000x2_1_0_0_1_n_n.lhsIdx i q 0).val = (i 0).val := by
  unfold DotDims.lhsIdx
  rw [dif_neg (show ¬(0 : Fin S8000x32.rank) ∈ dot_S8000x32_S32x2_S8000x2_1_0_0_1_n_n.lhsBatch by decide), dif_pos (show (0 : Fin S8000x32.rank) ∈ dot_S8000x32_S32x2_S8000x2_1_0_0_1_n_n.lhsNonContracting by decide)]
  rfl
private theorem lhsC_1 (i : S8000x2.Idx) (q : dot_S8000x32_S32x2_S8000x2_1_0_0_1_n_n.contr.Idx) :
    (dot_S8000x32_S32x2_S8000x2_1_0_0_1_n_n.lhsIdx i q 1).val = (q ⟨0, by decide⟩).val :=
  dot_S8000x32_S32x2_S8000x2_1_0_0_1_n_n.lhsIdx_val_of_single rfl i q
private theorem rhsC_0 (i : S8000x2.Idx) (q : dot_S8000x32_S32x2_S8000x2_1_0_0_1_n_n.contr.Idx) :
    (dot_S8000x32_S32x2_S8000x2_1_0_0_1_n_n.rhsIdx i q 0).val = (q ⟨0, by decide⟩).val :=
  dot_S8000x32_S32x2_S8000x2_1_0_0_1_n_n.rhsIdx_val_of_single rfl i q
private theorem rhsC_1 (i : S8000x2.Idx) (q : dot_S8000x32_S32x2_S8000x2_1_0_0_1_n_n.contr.Idx) :
    (dot_S8000x32_S32x2_S8000x2_1_0_0_1_n_n.rhsIdx i q 1).val = (i 1).val := by
  unfold DotDims.rhsIdx
  rw [dif_neg (show ¬(1 : Fin S32x2.rank) ∈ dot_S8000x32_S32x2_S8000x2_1_0_0_1_n_n.rhsBatch by decide), dif_pos (show (1 : Fin S32x2.rank) ∈ dot_S8000x32_S32x2_S8000x2_1_0_0_1_n_n.rhsNonContracting by decide)]
  rfl
/-- An 8000×32 block times a 32×2 matrix onto a zero accumulator, at row `p`, column `j`. -/
private theorem mmC_apply (a : FVec Ideal S8000x32 .bf16) (w : FVec Ideal S32x2 .bf16) (p : Fin 8000) (j : Fin 2) :
    matmul (F := Ideal) dot_S8000x32_S32x2_S8000x2_1_0_0_1_n_n none a w (constant (F := Ideal) S8000x2 .f32 0x00000000#32) (ix2 p j)
      = ∑ k : Fin 32, a (ix2 p k) * w (ix2 k j) := by
  simp only [matmul]
  rw [Ideal.matmul_constant_zero_apply, ← Equiv.sum_comp (contrEquiv1 dot_S8000x32_S32x2_S8000x2_1_0_0_1_n_n 32 rfl rfl).symm]
  refine Finset.sum_congr rfl fun k _ => ?_
  have hk := contrEquiv1_symm_val dot_S8000x32_S32x2_S8000x2_1_0_0_1_n_n 32 rfl rfl k
  have el : dot_S8000x32_S32x2_S8000x2_1_0_0_1_n_n.lhsIdx (ix2 p j) ((contrEquiv1 dot_S8000x32_S32x2_S8000x2_1_0_0_1_n_n 32 rfl rfl).symm k) = ix2 p k := funext fun a => Fin.ext (by
    match a with
    | ⟨0, _⟩ => exact lhsC_0 _ _
    | ⟨1, _⟩ => exact (lhsC_1 _ _).trans hk)
  have er : dot_S8000x32_S32x2_S8000x2_1_0_0_1_n_n.rhsIdx (ix2 p j) ((contrEquiv1 dot_S8000x32_S32x2_S8000x2_1_0_0_1_n_n 32 rfl rfl).symm k) = ix2 k j := funext fun a => Fin.ext (by
    match a with
    | ⟨0, _⟩ => exact (rhsC_0 _ _).trans hk
    | ⟨1, _⟩ => exact rhsC_1 _ _)
  rw [el, er]

/-! ### `[8000, 2] · [2, 32]` -/

private theorem lhsD_0 (i : S8000x32.Idx) (q : dot_S8000x2_S2x32_S8000x32_1_0_0_1_n_n.contr.Idx) :
    (dot_S8000x2_S2x32_S8000x32_1_0_0_1_n_n.lhsIdx i q 0).val = (i 0).val := by
  unfold DotDims.lhsIdx
  rw [dif_neg (show ¬(0 : Fin S8000x2.rank) ∈ dot_S8000x2_S2x32_S8000x32_1_0_0_1_n_n.lhsBatch by decide), dif_pos (show (0 : Fin S8000x2.rank) ∈ dot_S8000x2_S2x32_S8000x32_1_0_0_1_n_n.lhsNonContracting by decide)]
  rfl
private theorem lhsD_1 (i : S8000x32.Idx) (q : dot_S8000x2_S2x32_S8000x32_1_0_0_1_n_n.contr.Idx) :
    (dot_S8000x2_S2x32_S8000x32_1_0_0_1_n_n.lhsIdx i q 1).val = (q ⟨0, by decide⟩).val :=
  dot_S8000x2_S2x32_S8000x32_1_0_0_1_n_n.lhsIdx_val_of_single rfl i q
private theorem rhsD_0 (i : S8000x32.Idx) (q : dot_S8000x2_S2x32_S8000x32_1_0_0_1_n_n.contr.Idx) :
    (dot_S8000x2_S2x32_S8000x32_1_0_0_1_n_n.rhsIdx i q 0).val = (q ⟨0, by decide⟩).val :=
  dot_S8000x2_S2x32_S8000x32_1_0_0_1_n_n.rhsIdx_val_of_single rfl i q
private theorem rhsD_1 (i : S8000x32.Idx) (q : dot_S8000x2_S2x32_S8000x32_1_0_0_1_n_n.contr.Idx) :
    (dot_S8000x2_S2x32_S8000x32_1_0_0_1_n_n.rhsIdx i q 1).val = (i 1).val := by
  unfold DotDims.rhsIdx
  rw [dif_neg (show ¬(1 : Fin S2x32.rank) ∈ dot_S8000x2_S2x32_S8000x32_1_0_0_1_n_n.rhsBatch by decide), dif_pos (show (1 : Fin S2x32.rank) ∈ dot_S8000x2_S2x32_S8000x32_1_0_0_1_n_n.rhsNonContracting by decide)]
  rfl
/-- An 8000×2 block times a 2×32 matrix onto a zero accumulator, at row `p`, column `j`. -/
private theorem mmD_apply (a : FVec Ideal S8000x2 .bf16) (w : FVec Ideal S2x32 .bf16) (p : Fin 8000) (j : Fin 32) :
    matmul (F := Ideal) dot_S8000x2_S2x32_S8000x32_1_0_0_1_n_n none a w (constant (F := Ideal) S8000x32 .f32 0x00000000#32) (ix2 p j)
      = ∑ k : Fin 2, a (ix2 p k) * w (ix2 k j) := by
  simp only [matmul]
  rw [Ideal.matmul_constant_zero_apply, ← Equiv.sum_comp (contrEquiv1 dot_S8000x2_S2x32_S8000x32_1_0_0_1_n_n 2 rfl rfl).symm]
  refine Finset.sum_congr rfl fun k _ => ?_
  have hk := contrEquiv1_symm_val dot_S8000x2_S2x32_S8000x32_1_0_0_1_n_n 2 rfl rfl k
  have el : dot_S8000x2_S2x32_S8000x32_1_0_0_1_n_n.lhsIdx (ix2 p j) ((contrEquiv1 dot_S8000x2_S2x32_S8000x32_1_0_0_1_n_n 2 rfl rfl).symm k) = ix2 p k := funext fun a => Fin.ext (by
    match a with
    | ⟨0, _⟩ => exact lhsD_0 _ _
    | ⟨1, _⟩ => exact (lhsD_1 _ _).trans hk)
  have er : dot_S8000x2_S2x32_S8000x32_1_0_0_1_n_n.rhsIdx (ix2 p j) ((contrEquiv1 dot_S8000x2_S2x32_S8000x32_1_0_0_1_n_n 2 rfl rfl).symm k) = ix2 k j := funext fun a => Fin.ext (by
    match a with
    | ⟨0, _⟩ => exact (rhsD_0 _ _).trans hk
    | ⟨1, _⟩ => exact rhsD_1 _ _)
  rw [el, er]

/-! ### `[8000, 32] · [32, 4]` -/

private theorem lhsE_0 (i : S8000x4.Idx) (q : dot_S8000x32_S32x4_S8000x4_1_0_0_1_n_n.contr.Idx) :
    (dot_S8000x32_S32x4_S8000x4_1_0_0_1_n_n.lhsIdx i q 0).val = (i 0).val := by
  unfold DotDims.lhsIdx
  rw [dif_neg (show ¬(0 : Fin S8000x32.rank) ∈ dot_S8000x32_S32x4_S8000x4_1_0_0_1_n_n.lhsBatch by decide), dif_pos (show (0 : Fin S8000x32.rank) ∈ dot_S8000x32_S32x4_S8000x4_1_0_0_1_n_n.lhsNonContracting by decide)]
  rfl
private theorem lhsE_1 (i : S8000x4.Idx) (q : dot_S8000x32_S32x4_S8000x4_1_0_0_1_n_n.contr.Idx) :
    (dot_S8000x32_S32x4_S8000x4_1_0_0_1_n_n.lhsIdx i q 1).val = (q ⟨0, by decide⟩).val :=
  dot_S8000x32_S32x4_S8000x4_1_0_0_1_n_n.lhsIdx_val_of_single rfl i q
private theorem rhsE_0 (i : S8000x4.Idx) (q : dot_S8000x32_S32x4_S8000x4_1_0_0_1_n_n.contr.Idx) :
    (dot_S8000x32_S32x4_S8000x4_1_0_0_1_n_n.rhsIdx i q 0).val = (q ⟨0, by decide⟩).val :=
  dot_S8000x32_S32x4_S8000x4_1_0_0_1_n_n.rhsIdx_val_of_single rfl i q
private theorem rhsE_1 (i : S8000x4.Idx) (q : dot_S8000x32_S32x4_S8000x4_1_0_0_1_n_n.contr.Idx) :
    (dot_S8000x32_S32x4_S8000x4_1_0_0_1_n_n.rhsIdx i q 1).val = (i 1).val := by
  unfold DotDims.rhsIdx
  rw [dif_neg (show ¬(1 : Fin S32x4.rank) ∈ dot_S8000x32_S32x4_S8000x4_1_0_0_1_n_n.rhsBatch by decide), dif_pos (show (1 : Fin S32x4.rank) ∈ dot_S8000x32_S32x4_S8000x4_1_0_0_1_n_n.rhsNonContracting by decide)]
  rfl
/-- An 8000×32 block times a 32×4 matrix onto a zero accumulator, at row `p`, column `j`. -/
private theorem mmE_apply (a : FVec Ideal S8000x32 .bf16) (w : FVec Ideal S32x4 .bf16) (p : Fin 8000) (j : Fin 4) :
    matmul (F := Ideal) dot_S8000x32_S32x4_S8000x4_1_0_0_1_n_n none a w (constant (F := Ideal) S8000x4 .f32 0x00000000#32) (ix2 p j)
      = ∑ k : Fin 32, a (ix2 p k) * w (ix2 k j) := by
  simp only [matmul]
  rw [Ideal.matmul_constant_zero_apply, ← Equiv.sum_comp (contrEquiv1 dot_S8000x32_S32x4_S8000x4_1_0_0_1_n_n 32 rfl rfl).symm]
  refine Finset.sum_congr rfl fun k _ => ?_
  have hk := contrEquiv1_symm_val dot_S8000x32_S32x4_S8000x4_1_0_0_1_n_n 32 rfl rfl k
  have el : dot_S8000x32_S32x4_S8000x4_1_0_0_1_n_n.lhsIdx (ix2 p j) ((contrEquiv1 dot_S8000x32_S32x4_S8000x4_1_0_0_1_n_n 32 rfl rfl).symm k) = ix2 p k := funext fun a => Fin.ext (by
    match a with
    | ⟨0, _⟩ => exact lhsE_0 _ _
    | ⟨1, _⟩ => exact (lhsE_1 _ _).trans hk)
  have er : dot_S8000x32_S32x4_S8000x4_1_0_0_1_n_n.rhsIdx (ix2 p j) ((contrEquiv1 dot_S8000x32_S32x4_S8000x4_1_0_0_1_n_n 32 rfl rfl).symm k) = ix2 k j := funext fun a => Fin.ext (by
    match a with
    | ⟨0, _⟩ => exact (rhsE_0 _ _).trans hk
    | ⟨1, _⟩ => exact rhsE_1 _ _)
  rw [el, er]

/-! ## The two stored values -/

/-- Region 0's stored value at row `p`, column `q`: the rectified message of the edge in row `p`. -/
theorem pay0_at (x0 x1 : Vec Ideal S8000x4 .f32) (x2 x3 : Vec Ideal S4x32 .f32) (x4 : Vec Ideal S1x32 .f32)
    (x5 : Vec Ideal S32x32 .f32) (x6 : Vec Ideal S1x32 .f32) (x7 : Vec Ideal S32x2 .f32) (x8 : Vec Ideal S1x2 .f32)
    (p : Fin 8000) (q : Fin 2) :
    k0_pay1 (F := Ideal) (k0_pay2 (F := Ideal) x0 x1 x2 x3 x4 x5 x6 x7) x8 (ix2 p q)
      = relu (message (fun k : Fin 4 => x0 (ix2 p k)) (fun k : Fin 4 => x1 (ix2 p k))
          (fun k j => x2 (ix2 k j)) (fun k j => x3 (ix2 k j)) (fun j => x4 (ix2 (0 : Fin 1) j))
          (fun k j => x5 (ix2 k j)) (fun j => x6 (ix2 (0 : Fin 1) j))
          (fun k j => x7 (ix2 k j)) (fun j => x8 (ix2 (0 : Fin 1) j)) q) := by
  unfold k0_pay1 k0_pay2
  simp only [shapeCast_self, maximumf_apply, addf_apply, subf_apply, truncf_apply, broadcast_apply,
    mmA_apply, mmB_apply, mmC_apply, broadcastTo_1b_ab_apply, zero_word]
  rfl

/-- Region 1's stored value at row `p`, column `q`: the message of the edge in row `p` (no last rectifier). -/
theorem pay1_at (x0 x1 : Vec Ideal S8000x2 .f32) (x2 x3 : Vec Ideal S2x32 .f32) (x4 : Vec Ideal S1x32 .f32)
    (x5 : Vec Ideal S32x32 .f32) (x6 : Vec Ideal S1x32 .f32) (x7 : Vec Ideal S32x4 .f32) (x8 : Vec Ideal S1x4 .f32)
    (p : Fin 8000) (q : Fin 4) :
    k1_pay1 (F := Ideal) (k1_pay2 (F := Ideal) x0 x1 x2 x3 x4 x5 x6 x7) x8 (ix2 p q)
      = message (fun k : Fin 2 => x0 (ix2 p k)) (fun k : Fin 2 => x1 (ix2 p k))
          (fun k j => x2 (ix2 k j)) (fun k j => x3 (ix2 k j)) (fun j => x4 (ix2 (0 : Fin 1) j))
          (fun k j => x5 (ix2 k j)) (fun j => x6 (ix2 (0 : Fin 1) j))
          (fun k j => x7 (ix2 k j)) (fun j => x8 (ix2 (0 : Fin 1) j)) q := by
  unfold k1_pay1 k1_pay2
  simp only [shapeCast_self, maximumf_apply, addf_apply, subf_apply, truncf_apply, broadcast_apply,
    mmD_apply, mmB_apply, mmE_apply, broadcastTo_1b_ab_apply, zero_word]
  rfl

end Cert.KernelIdeal.Body

end
-- ==== Proof.KRegion.lean ====
/-
  Each region's output array after its run, read at one entry.

  Region `r` runs the body at 400 grid points; point `t` reads rows `8000 t … 8000 t + 7999` of the two row arrays
  and the whole of every weight array, and writes back rows `8000 t … 8000 t + 7999` of the output. The 400 blocks
  tile the 3 200 000 rows, so after the run entry `(e, q)` of the output array is the body's value for the edge in
  row `e`: its message (Proof/EdgeSpec.lean), a function of row `e` of the two row arrays and of the weights.
-/
import proofs.«418037_j8177617731795_1_alg».proof.Proof.Gen.KernelIdeal.Frame
import proofs.«418037_j8177617731795_1_alg».proof.Proof.KBody

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx
open Idealize.SL.Sem Cert.EdgeConv

variable (V : (c : Dev nD) → (b : Ref sig .tc) → Buf (Elt Ideal) ((c : Thread nD τ).loc b))

/-- The offsets of a load or store of a whole block. -/
private theorem offset_zero : (![0, 0] : Fin 2 → Nat) = fun _ => 0 := funext fun a => by fin_cases a <;> rfl

/-! ## Region 0 -/

/-- The block index of every window of region 0 at grid point `t`: the two row arrays and the output move to block
    `(t, 0)`, every weight array stays at block `(0, 0)`. -/
private theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The whole output array of region 0 as one function of the arrays the region is entered with: entry `(e, q)` is
    the rectified message of the edge in row `e`. -/
private def messages0 (c : Dev nD) : S3200000x2.Idx → Elt Ideal .f32 := fun i =>
  relu (message (fun k : Fin 4 => V c main_v25 (ix2 (i 0) k)) (fun k : Fin 4 => V c main_v26 (ix2 (i 0) k))
    (fun k j => V c main_v27 (ix2 k j)) (fun k j => V c main_v28 (ix2 k j))
    (fun j => V c main_v29 (ix2 (0 : Fin 1) j))
    (fun k j => V c main_arg7 (ix2 k j)) (fun j => V c main_v30 (ix2 (0 : Fin 1) j))
    (fun k j => V c main_arg9 (ix2 k j)) (fun j => V c main_v31 (ix2 (0 : Fin 1) j)) (i 1))

/-- Row `p` of the block of grid point `t` is row `8000 t + p` of the array. -/
private def row0 (t : Fin cfg0.N) (p : Fin 8000) : Fin 3200000 :=
  ⟨t.val * 8000 + p.val, by have h : t.val < 400 := t.isLt; have := p.isLt; omega⟩

/-! Each input block of grid point `t`, read at one entry: rows `8000 t + p` of the two row arrays, every weight
    array whole. An element of a block sits in its array, on each axis, at the block index times the block's size plus
    its own coordinate. -/

private theorem blk0_0_at (c : Dev nD) (t : Fin cfg0.N) (p : Fin 8000) (k : Fin 4) :
    iblk0 V c 0 t (ix2 p k) = V c main_v25 (ix2 (row0 t p) k) := by
  obtain ⟨e0, e1, -⟩ := block_index0 t
  show V c main_v25 (((cfg0.win 0).blk t).view.emb (ix2 p k)) = _
  refine congrArg (V c main_v25) (funext fun a => Fin.ext ?_)
  match a with
  | ⟨0, _⟩ => show win0_0.index t (0 : Fin 2) * 8000 + 1 * p.val = t.val * 8000 + p.val; omega
  | ⟨1, _⟩ => show win0_0.index t (1 : Fin 2) * 4 + 1 * k.val = k.val; omega

private theorem blk0_1_at (c : Dev nD) (t : Fin cfg0.N) (p : Fin 8000) (k : Fin 4) :
    iblk0 V c 1 t (ix2 p k) = V c main_v26 (ix2 (row0 t p) k) := by
  obtain ⟨-, -, e0, e1, -⟩ := block_index0 t
  show V c main_v26 (((cfg0.win 1).blk t).view.emb (ix2 p k)) = _
  refine congrArg (V c main_v26) (funext fun a => Fin.ext ?_)
  match a with
  | ⟨0, _⟩ => show win0_1.index t (0 : Fin 2) * 8000 + 1 * p.val = t.val * 8000 + p.val; omega
  | ⟨1, _⟩ => show win0_1.index t (1 : Fin 2) * 4 + 1 * k.val = k.val; omega

private theorem blk0_2_at (c : Dev nD) (t : Fin cfg0.N) (k : Fin 4) (j : Fin 32) :
    iblk0 V c 2 t (ix2 k j) = V c main_v27 (ix2 k j) := by
  obtain ⟨-, -, -, -, e0, e1, -⟩ := block_index0 t
  show V c main_v27 (((cfg0.win 2).blk t).view.emb (ix2 k j)) = _
  refine congrArg (V c main_v27) (funext fun a => Fin.ext ?_)
  match a with
  | ⟨0, _⟩ => show win0_2.index t (0 : Fin 2) * 4 + 1 * k.val = k.val; omega
  | ⟨1, _⟩ => show win0_2.index t (1 : Fin 2) * 32 + 1 * j.val = j.val; omega

private theorem blk0_3_at (c : Dev nD) (t : Fin cfg0.N) (k : Fin 4) (j : Fin 32) :
    iblk0 V c 3 t (ix2 k j) = V c main_v28 (ix2 k j) := by
  obtain ⟨-, -, -, -, -, -, e0, e1, -⟩ := block_index0 t
  show V c main_v28 (((cfg0.win 3).blk t).view.emb (ix2 k j)) = _
  refine congrArg (V c main_v28) (funext fun a => Fin.ext ?_)
  match a with
  | ⟨0, _⟩ => show win0_3.index t (0 : Fin 2) * 4 + 1 * k.val = k.val; omega
  | ⟨1, _⟩ => show win0_3.index t (1 : Fin 2) * 32 + 1 * j.val = j.val; omega

private theorem blk0_4_at (c : Dev nD) (t : Fin cfg0.N) (k : Fin 1) (j : Fin 32) :
    iblk0 V c 4 t (ix2 k j) = V c main_v29 (ix2 k j) := by
  obtain ⟨-, -, -, -, -, -, -, -, e0, e1, -⟩ := block_index0 t
  show V c main_v29 (((cfg0.win 4).blk t).view.emb (ix2 k j)) = _
  refine congrArg (V c main_v29) (funext fun a => Fin.ext ?_)
  match a with
  | ⟨0, _⟩ => show win0_4.index t (0 : Fin 2) * 1 + 1 * k.val = k.val; omega
  | ⟨1, _⟩ => show win0_4.index t (1 : Fin 2) * 32 + 1 * j.val = j.val; omega

private theorem blk0_5_at (c : Dev nD) (t : Fin cfg0.N) (k : Fin 32) (j : Fin 32) :
    iblk0 V c 5 t (ix2 k j) = V c main_arg7 (ix2 k j) := by
  obtain ⟨-, -, -, -, -, -, -, -, -, -, e0, e1, -⟩ := block_index0 t
  show V c main_arg7 (((cfg0.win 5).blk t).view.emb (ix2 k j)) = _
  refine congrArg (V c main_arg7) (funext fun a => Fin.ext ?_)
  match a with
  | ⟨0, _⟩ => show win0_5.index t (0 : Fin 2) * 32 + 1 * k.val = k.val; omega
  | ⟨1, _⟩ => show win0_5.index t (1 : Fin 2) * 32 + 1 * j.val = j.val; omega

private theorem blk0_6_at (c : Dev nD) (t : Fin cfg0.N) (k : Fin 1) (j : Fin 32) :
    iblk0 V c 6 t (ix2 k j) = V c main_v30 (ix2 k j) := by
  obtain ⟨-, -, -, -, -, -, -, -, -, -, -, -, e0, e1, -⟩ := block_index0 t
  show V c main_v30 (((cfg0.win 6).blk t).view.emb (ix2 k j)) = _
  refine congrArg (V c main_v30) (funext fun a => Fin.ext ?_)
  match a with
  | ⟨0, _⟩ => show win0_6.index t (0 : Fin 2) * 1 + 1 * k.val = k.val; omega
  | ⟨1, _⟩ => show win0_6.index t (1 : Fin 2) * 32 + 1 * j.val = j.val; omega

private theorem blk0_7_at (c : Dev nD) (t : Fin cfg0.N) (k : Fin 32) (j : Fin 2) :
    iblk0 V c 7 t (ix2 k j) = V c main_arg9 (ix2 k j) := by
  obtain ⟨-, -, -, -, -, -, -, -, -, -, -, -, -, -, e0, e1, -⟩ := block_index0 t
  show V c main_arg9 (((cfg0.win 7).blk t).view.emb (ix2 k j)) = _
  refine congrArg (V c main_arg9) (funext fun a => Fin.ext ?_)
  match a with
  | ⟨0, _⟩ => show win0_7.index t (0 : Fin 2) * 32 + 1 * k.val = k.val; omega
  | ⟨1, _⟩ => show win0_7.index t (1 : Fin 2) * 2 + 1 * j.val = j.val; omega

private theorem blk0_8_at (c : Dev nD) (t : Fin cfg0.N) (k : Fin 1) (j : Fin 2) :
    iblk0 V c 8 t (ix2 k j) = V c main_v31 (ix2 k j) := by
  obtain ⟨-, -, -, -, -, -, -, -, -, -, -, -, -, -, -, -, e0, e1, -⟩ := block_index0 t
  show V c main_v31 (((cfg0.win 8).blk t).view.emb (ix2 k j)) = _
  refine congrArg (V c main_v31) (funext fun a => Fin.ext ?_)
  match a with
  | ⟨0, _⟩ => show win0_8.index t (0 : Fin 2) * 1 + 1 * k.val = k.val; omega
  | ⟨1, _⟩ => show win0_8.index t (1 : Fin 2) * 2 + 1 * j.val = j.val; omega

/-- Entry `(p, q)` of the output's block at point `t` is entry `(8000 t + p, q)` of the output array. -/
private theorem out_blk0_at (t : Fin cfg0.N) (p : Fin 8000) (q : Fin 2) :
    ((cfg0.win 9).blk t).view.emb (ix2 p q) = ix2 (row0 t p) q := by
  obtain ⟨-, -, -, -, -, -, -, -, -, -, -, -, -, -, -, -, -, -, e0, e1⟩ := block_index0 t
  refine funext fun a => Fin.ext ?_
  match a with
  | ⟨0, _⟩ => show win0_9.index t (0 : Fin 2) * 8000 + 1 * p.val = t.val * 8000 + p.val; omega
  | ⟨1, _⟩ => show win0_9.index t (1 : Fin 2) * 2 + 1 * q.val = q.val; omega

/-- What grid point `t` writes back is block `t` of `messages0`. -/
private theorem flushed0_eq (c : Dev nD) (t : Fin cfg0.N) :
    (dat0 (F := Ideal) V c).flushed 9 t = ((cfg0.win 9).blk t).view.read (Elt Ideal) (messages0 V c) := by
  show (cfg0.win 9).cut (grid0.coords t) ((dat0 (F := Ideal) V c).after 9 t) = _
  rw [after0_9]
  unfold out0_9
  rw [View.canon_unit_zero offset_zero]
  simp only [View.ld_unit_zero (S := S8000x4) offset_zero, View.ld_unit_zero (S := S4x32) offset_zero,
    View.ld_unit_zero (S := S1x32) offset_zero, View.ld_unit_zero (S := S32x32) offset_zero,
    View.ld_unit_zero (S := S32x2) offset_zero, View.ld_unit_zero (S := S1x2) offset_zero]
  funext j
  obtain ⟨p, q, rfl⟩ : ∃ (p : Fin 8000) (q : Fin 2), j = ix2 p q := ⟨j 0, j 1, eq_ix2 j⟩
  show k0_pay1 (F := Ideal) (k0_pay2 (F := Ideal) (iblk0 V c 0 t) (iblk0 V c 1 t) (iblk0 V c 2 t) (iblk0 V c 3 t)
      (iblk0 V c 4 t) (iblk0 V c 5 t) (iblk0 V c 6 t) (iblk0 V c 7 t)) (iblk0 V c 8 t) (ix2 p q)
    = messages0 V c (((cfg0.win 9).blk t).view.emb (ix2 p q))
  refine (Body.pay0_at (iblk0 V c 0 t) (iblk0 V c 1 t) (iblk0 V c 2 t) (iblk0 V c 3 t)
      (iblk0 V c 4 t) (iblk0 V c 5 t) (iblk0 V c 6 t) (iblk0 V c 7 t) (iblk0 V c 8 t) p q).trans ?_
  rw [out_blk0_at t p q]
  simp only [blk0_0_at V c t, blk0_1_at V c t, blk0_2_at V c t, blk0_3_at V c t, blk0_4_at V c t, blk0_5_at V c t,
    blk0_6_at V c t, blk0_7_at V c t, blk0_8_at V c t]
  rfl

/-- An index of the output array is in point `t`'s block iff each coordinate is in the block's range on its axis. -/
private theorem mem_out_blk0 (t : Fin cfg0.N) (i : S3200000x2.Idx) :
    i ∈ ((cfg0.win 9).blk t).view.set
      ↔ ∀ a : Fin 2, win0_9.index t a * S8000x2.size a ≤ (i a).val
          ∧ (i a).val < win0_9.index t a * S8000x2.size a + S8000x2.size a := by
  show i ∈ ((View.whole main_v32).slice (win0_9.rect t)).set ↔ _
  rw [View.set_slice_whole, Rect.mem_set_unit]
  exact Iff.rfl

/-- Row `e` of the output array is in the block of grid point `e / 8000`. -/
private theorem covered0 (i : S3200000x2.Idx) :
    ∃ t : Fin cfg0.N, (cfg0.win 9).flush t = true ∧ i ∈ ((cfg0.win 9).blk t).view.set := by
  have hi0 : (i 0).val < 3200000 := (i 0).isLt
  have hi1 : (i 1).val < 2 := (i 1).isLt
  have ht : (i 0).val / 8000 < 400 := by omega
  refine ⟨⟨(i 0).val / 8000, ht⟩, flush0_9 _, ?_⟩
  obtain ⟨-, -, -, -, -, -, -, -, -, -, -, -, -, -, -, -, -, -, e0, e1⟩ := block_index0 ⟨(i 0).val / 8000, ht⟩
  have e0' : win0_9.index ⟨(i 0).val / 8000, ht⟩ (0 : Fin 2) = (i 0).val / 8000 := e0
  rw [mem_out_blk0]
  intro a
  match a with
  | ⟨0, _⟩ =>
    show win0_9.index ⟨(i 0).val / 8000, ht⟩ (0 : Fin 2) * 8000 ≤ (i 0).val
      ∧ (i 0).val < win0_9.index ⟨(i 0).val / 8000, ht⟩ (0 : Fin 2) * 8000 + 8000
    omega
  | ⟨1, _⟩ =>
    show win0_9.index ⟨(i 0).val / 8000, ht⟩ (1 : Fin 2) * 2 ≤ (i 1).val
      ∧ (i 1).val < win0_9.index ⟨(i 0).val / 8000, ht⟩ (1 : Fin 2) * 2 + 2
    omega

/-- The output array of region 0 after the run is `messages0`: every point writes back its block of it, and the
    blocks cover the array. -/
private theorem final0 (c : Dev nD) : (dat0 (F := Ideal) V c).arrAt 9 cfg0.N = messages0 V c :=
  (dat0 (F := Ideal) V c).arrAt_eq_of_cover 9 (messages0 V c) (fun t _ => flushed0_eq V c t) covered0

/-- Region 0's output array at `(e, q)`, from the contents `V` the region is entered with. -/
theorem region0_at (c : Dev nD) (e : Fin 3200000) (q : Fin 2) :
    (dat0 (F := Ideal) V c).arrAt 9 cfg0.N (ix2 e q)
      = relu (message (fun k : Fin 4 => V c main_v25 (ix2 e k)) (fun k : Fin 4 => V c main_v26 (ix2 e k))
          (fun k j => V c main_v27 (ix2 k j)) (fun k j => V c main_v28 (ix2 k j))
          (fun j => V c main_v29 (ix2 (0 : Fin 1) j))
          (fun k j => V c main_arg7 (ix2 k j)) (fun j => V c main_v30 (ix2 (0 : Fin 1) j))
          (fun k j => V c main_arg9 (ix2 k j)) (fun j => V c main_v31 (ix2 (0 : Fin 1) j)) q) := by
  rw [final0 V c]
  rfl

/-! ## Region 1 -/

/-- The block index of every window of region 1 at grid point `t`: the two row arrays and the output move to block
    `(t, 0)`, every weight array stays at block `(0, 0)`. -/
private theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The whole output array of region 1 as one function of the arrays the region is entered with: entry `(e, q)` is
    the message of the edge in row `e` (no last rectifier). -/
private def messages1 (c : Dev nD) : S3200000x4.Idx → Elt Ideal .f32 := fun i =>
  message (fun k : Fin 2 => V c main_v45 (ix2 (i 0) k)) (fun k : Fin 2 => V c main_v46 (ix2 (i 0) k))
    (fun k j => V c main_v47 (ix2 k j)) (fun k j => V c main_v48 (ix2 k j))
    (fun j => V c main_v49 (ix2 (0 : Fin 1) j))
    (fun k j => V c main_arg13 (ix2 k j)) (fun j => V c main_v50 (ix2 (0 : Fin 1) j))
    (fun k j => V c main_arg15 (ix2 k j)) (fun j => V c main_v51 (ix2 (0 : Fin 1) j)) (i 1)

/-- Row `p` of the block of grid point `t` is row `8000 t + p` of the array. -/
private def row1 (t : Fin cfg1.N) (p : Fin 8000) : Fin 3200000 :=
  ⟨t.val * 8000 + p.val, by have h : t.val < 400 := t.isLt; have := p.isLt; omega⟩

/-! Each input block of grid point `t`, read at one entry, as in region 0. -/

private theorem blk1_0_at (c : Dev nD) (t : Fin cfg1.N) (p : Fin 8000) (k : Fin 2) :
    iblk1 V c 0 t (ix2 p k) = V c main_v45 (ix2 (row1 t p) k) := by
  obtain ⟨e0, e1, -⟩ := block_index1 t
  show V c main_v45 (((cfg1.win 0).blk t).view.emb (ix2 p k)) = _
  refine congrArg (V c main_v45) (funext fun a => Fin.ext ?_)
  match a with
  | ⟨0, _⟩ => show win1_0.index t (0 : Fin 2) * 8000 + 1 * p.val = t.val * 8000 + p.val; omega
  | ⟨1, _⟩ => show win1_0.index t (1 : Fin 2) * 2 + 1 * k.val = k.val; omega

private theorem blk1_1_at (c : Dev nD) (t : Fin cfg1.N) (p : Fin 8000) (k : Fin 2) :
    iblk1 V c 1 t (ix2 p k) = V c main_v46 (ix2 (row1 t p) k) := by
  obtain ⟨-, -, e0, e1, -⟩ := block_index1 t
  show V c main_v46 (((cfg1.win 1).blk t).view.emb (ix2 p k)) = _
  refine congrArg (V c main_v46) (funext fun a => Fin.ext ?_)
  match a with
  | ⟨0, _⟩ => show win1_1.index t (0 : Fin 2) * 8000 + 1 * p.val = t.val * 8000 + p.val; omega
  | ⟨1, _⟩ => show win1_1.index t (1 : Fin 2) * 2 + 1 * k.val = k.val; omega

private theorem blk1_2_at (c : Dev nD) (t : Fin cfg1.N) (k : Fin 2) (j : Fin 32) :
    iblk1 V c 2 t (ix2 k j) = V c main_v47 (ix2 k j) := by
  obtain ⟨-, -, -, -, e0, e1, -⟩ := block_index1 t
  show V c main_v47 (((cfg1.win 2).blk t).view.emb (ix2 k j)) = _
  refine congrArg (V c main_v47) (funext fun a => Fin.ext ?_)
  match a with
  | ⟨0, _⟩ => show win1_2.index t (0 : Fin 2) * 2 + 1 * k.val = k.val; omega
  | ⟨1, _⟩ => show win1_2.index t (1 : Fin 2) * 32 + 1 * j.val = j.val; omega

private theorem blk1_3_at (c : Dev nD) (t : Fin cfg1.N) (k : Fin 2) (j : Fin 32) :
    iblk1 V c 3 t (ix2 k j) = V c main_v48 (ix2 k j) := by
  obtain ⟨-, -, -, -, -, -, e0, e1, -⟩ := block_index1 t
  show V c main_v48 (((cfg1.win 3).blk t).view.emb (ix2 k j)) = _
  refine congrArg (V c main_v48) (funext fun a => Fin.ext ?_)
  match a with
  | ⟨0, _⟩ => show win1_3.index t (0 : Fin 2) * 2 + 1 * k.val = k.val; omega
  | ⟨1, _⟩ => show win1_3.index t (1 : Fin 2) * 32 + 1 * j.val = j.val; omega

private theorem blk1_4_at (c : Dev nD) (t : Fin cfg1.N) (k : Fin 1) (j : Fin 32) :
    iblk1 V c 4 t (ix2 k j) = V c main_v49 (ix2 k j) := by
  obtain ⟨-, -, -, -, -, -, -, -, e0, e1, -⟩ := block_index1 t
  show V c main_v49 (((cfg1.win 4).blk t).view.emb (ix2 k j)) = _
  refine congrArg (V c main_v49) (funext fun a => Fin.ext ?_)
  match a with
  | ⟨0, _⟩ => show win1_4.index t (0 : Fin 2) * 1 + 1 * k.val = k.val; omega
  | ⟨1, _⟩ => show win1_4.index t (1 : Fin 2) * 32 + 1 * j.val = j.val; omega

private theorem blk1_5_at (c : Dev nD) (t : Fin cfg1.N) (k : Fin 32) (j : Fin 32) :
    iblk1 V c 5 t (ix2 k j) = V c main_arg13 (ix2 k j) := by
  obtain ⟨-, -, -, -, -, -, -, -, -, -, e0, e1, -⟩ := block_index1 t
  show V c main_arg13 (((cfg1.win 5).blk t).view.emb (ix2 k j)) = _
  refine congrArg (V c main_arg13) (funext fun a => Fin.ext ?_)
  match a with
  | ⟨0, _⟩ => show win1_5.index t (0 : Fin 2) * 32 + 1 * k.val = k.val; omega
  | ⟨1, _⟩ => show win1_5.index t (1 : Fin 2) * 32 + 1 * j.val = j.val; omega

private theorem blk1_6_at (c : Dev nD) (t : Fin cfg1.N) (k : Fin 1) (j : Fin 32) :
    iblk1 V c 6 t (ix2 k j) = V c main_v50 (ix2 k j) := by
  obtain ⟨-, -, -, -, -, -, -, -, -, -, -, -, e0, e1, -⟩ := block_index1 t
  show V c main_v50 (((cfg1.win 6).blk t).view.emb (ix2 k j)) = _
  refine congrArg (V c main_v50) (funext fun a => Fin.ext ?_)
  match a with
  | ⟨0, _⟩ => show win1_6.index t (0 : Fin 2) * 1 + 1 * k.val = k.val; omega
  | ⟨1, _⟩ => show win1_6.index t (1 : Fin 2) * 32 + 1 * j.val = j.val; omega

private theorem blk1_7_at (c : Dev nD) (t : Fin cfg1.N) (k : Fin 32) (j : Fin 4) :
    iblk1 V c 7 t (ix2 k j) = V c main_arg15 (ix2 k j) := by
  obtain ⟨-, -, -, -, -, -, -, -, -, -, -, -, -, -, e0, e1, -⟩ := block_index1 t
  show V c main_arg15 (((cfg1.win 7).blk t).view.emb (ix2 k j)) = _
  refine congrArg (V c main_arg15) (funext fun a => Fin.ext ?_)
  match a with
  | ⟨0, _⟩ => show win1_7.index t (0 : Fin 2) * 32 + 1 * k.val = k.val; omega
  | ⟨1, _⟩ => show win1_7.index t (1 : Fin 2) * 4 + 1 * j.val = j.val; omega

private theorem blk1_8_at (c : Dev nD) (t : Fin cfg1.N) (k : Fin 1) (j : Fin 4) :
    iblk1 V c 8 t (ix2 k j) = V c main_v51 (ix2 k j) := by
  obtain ⟨-, -, -, -, -, -, -, -, -, -, -, -, -, -, -, -, e0, e1, -⟩ := block_index1 t
  show V c main_v51 (((cfg1.win 8).blk t).view.emb (ix2 k j)) = _
  refine congrArg (V c main_v51) (funext fun a => Fin.ext ?_)
  match a with
  | ⟨0, _⟩ => show win1_8.index t (0 : Fin 2) * 1 + 1 * k.val = k.val; omega
  | ⟨1, _⟩ => show win1_8.index t (1 : Fin 2) * 4 + 1 * j.val = j.val; omega

/-- Entry `(p, q)` of the output's block at point `t` is entry `(8000 t + p, q)` of the output array. -/
private theorem out_blk1_at (t : Fin cfg1.N) (p : Fin 8000) (q : Fin 4) :
    ((cfg1.win 9).blk t).view.emb (ix2 p q) = ix2 (row1 t p) q := by
  obtain ⟨-, -, -, -, -, -, -, -, -, -, -, -, -, -, -, -, -, -, e0, e1⟩ := block_index1 t
  refine funext fun a => Fin.ext ?_
  match a with
  | ⟨0, _⟩ => show win1_9.index t (0 : Fin 2) * 8000 + 1 * p.val = t.val * 8000 + p.val; omega
  | ⟨1, _⟩ => show win1_9.index t (1 : Fin 2) * 4 + 1 * q.val = q.val; omega

/-- What grid point `t` writes back is block `t` of `messages1`. -/
private theorem flushed1_eq (c : Dev nD) (t : Fin cfg1.N) :
    (dat1 (F := Ideal) V c).flushed 9 t = ((cfg1.win 9).blk t).view.read (Elt Ideal) (messages1 V c) := by
  show (cfg1.win 9).cut (grid1.coords t) ((dat1 (F := Ideal) V c).after 9 t) = _
  rw [after1_9]
  unfold out1_9
  rw [View.canon_unit_zero offset_zero]
  simp only [View.ld_unit_zero (S := S8000x2) offset_zero, View.ld_unit_zero (S := S2x32) offset_zero,
    View.ld_unit_zero (S := S1x32) offset_zero, View.ld_unit_zero (S := S32x32) offset_zero,
    View.ld_unit_zero (S := S32x4) offset_zero, View.ld_unit_zero (S := S1x4) offset_zero]
  funext j
  obtain ⟨p, q, rfl⟩ : ∃ (p : Fin 8000) (q : Fin 4), j = ix2 p q := ⟨j 0, j 1, eq_ix2 j⟩
  show k1_pay1 (F := Ideal) (k1_pay2 (F := Ideal) (iblk1 V c 0 t) (iblk1 V c 1 t) (iblk1 V c 2 t) (iblk1 V c 3 t)
      (iblk1 V c 4 t) (iblk1 V c 5 t) (iblk1 V c 6 t) (iblk1 V c 7 t)) (iblk1 V c 8 t) (ix2 p q)
    = messages1 V c (((cfg1.win 9).blk t).view.emb (ix2 p q))
  refine (Body.pay1_at (iblk1 V c 0 t) (iblk1 V c 1 t) (iblk1 V c 2 t) (iblk1 V c 3 t)
      (iblk1 V c 4 t) (iblk1 V c 5 t) (iblk1 V c 6 t) (iblk1 V c 7 t) (iblk1 V c 8 t) p q).trans ?_
  rw [out_blk1_at t p q]
  simp only [blk1_0_at V c t, blk1_1_at V c t, blk1_2_at V c t, blk1_3_at V c t, blk1_4_at V c t, blk1_5_at V c t,
    blk1_6_at V c t, blk1_7_at V c t, blk1_8_at V c t]
  rfl

/-- An index of the output array is in point `t`'s block iff each coordinate is in the block's range on its axis. -/
private theorem mem_out_blk1 (t : Fin cfg1.N) (i : S3200000x4.Idx) :
    i ∈ ((cfg1.win 9).blk t).view.set
      ↔ ∀ a : Fin 2, win1_9.index t a * S8000x4.size a ≤ (i a).val
          ∧ (i a).val < win1_9.index t a * S8000x4.size a + S8000x4.size a := by
  show i ∈ ((View.whole main_v52).slice (win1_9.rect t)).set ↔ _
  rw [View.set_slice_whole, Rect.mem_set_unit]
  exact Iff.rfl

/-- Row `e` of the output array is in the block of grid point `e / 8000`. -/
private theorem covered1 (i : S3200000x4.Idx) :
    ∃ t : Fin cfg1.N, (cfg1.win 9).flush t = true ∧ i ∈ ((cfg1.win 9).blk t).view.set := by
  have hi0 : (i 0).val < 3200000 := (i 0).isLt
  have hi1 : (i 1).val < 4 := (i 1).isLt
  have ht : (i 0).val / 8000 < 400 := by omega
  refine ⟨⟨(i 0).val / 8000, ht⟩, flush1_9 _, ?_⟩
  obtain ⟨-, -, -, -, -, -, -, -, -, -, -, -, -, -, -, -, -, -, e0, e1⟩ := block_index1 ⟨(i 0).val / 8000, ht⟩
  have e0' : win1_9.index ⟨(i 0).val / 8000, ht⟩ (0 : Fin 2) = (i 0).val / 8000 := e0
  rw [mem_out_blk1]
  intro a
  match a with
  | ⟨0, _⟩ =>
    show win1_9.index ⟨(i 0).val / 8000, ht⟩ (0 : Fin 2) * 8000 ≤ (i 0).val
      ∧ (i 0).val < win1_9.index ⟨(i 0).val / 8000, ht⟩ (0 : Fin 2) * 8000 + 8000
    omega
  | ⟨1, _⟩ =>
    show win1_9.index ⟨(i 0).val / 8000, ht⟩ (1 : Fin 2) * 4 ≤ (i 1).val
      ∧ (i 1).val < win1_9.index ⟨(i 0).val / 8000, ht⟩ (1 : Fin 2) * 4 + 4
    omega

/-- The output array of region 1 after the run is `messages1`: every point writes back its block of it, and the
    blocks cover the array. -/
private theorem final1 (c : Dev nD) : (dat1 (F := Ideal) V c).arrAt 9 cfg1.N = messages1 V c :=
  (dat1 (F := Ideal) V c).arrAt_eq_of_cover 9 (messages1 V c) (fun t _ => flushed1_eq V c t) covered1

/-- Region 1's output array at `(e, q)`, from the contents `V` the region is entered with. -/
theorem region1_at (c : Dev nD) (e : Fin 3200000) (q : Fin 4) :
    (dat1 (F := Ideal) V c).arrAt 9 cfg1.N (ix2 e q)
      = message (fun k : Fin 2 => V c main_v45 (ix2 e k)) (fun k : Fin 2 => V c main_v46 (ix2 e k))
          (fun k j => V c main_v47 (ix2 k j)) (fun k j => V c main_v48 (ix2 k j))
          (fun j => V c main_v49 (ix2 (0 : Fin 1) j))
          (fun k j => V c main_arg13 (ix2 k j)) (fun j => V c main_v50 (ix2 (0 : Fin 1) j))
          (fun k j => V c main_arg15 (ix2 k j)) (fun j => V c main_v51 (ix2 (0 : Fin 1) j)) q := by
  rw [final1 V c]
  rfl

end Cert.KernelIdeal.Region

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.KEdge.lean ====
/-
  The kernel program's per-edge values, in terms of the launch memory.

  * `meanAt2_congr`, `meanAt4_congr`: the mean aggregation at `dst` only looks at the per-edge values of edges whose
    target number is a node, `0 ≤ dst e < 100000`: the scatter-add drops every other edge, and the count does not
    depend on the values. So two arrays of per-edge values that agree on those edges have the same aggregation.
  * `edge0`, `edge1`: where the target and source numbers of edge `e` lie in `[-100000, 100000)`, region `r`'s output
    at `(e, q)` is the message (Proof/EdgeSpec.lean) of the gathered target and source rows, the two halves of the
    first weight matrix, and the remaining weights and biases as launched: the filled takes are gathers there
    (Proof/Take.lean), a slice reads its source at the shifted row, a bias as a one-row matrix reads the bias.
-/
import proofs.«418037_j8177617731795_1_alg».proof.Proof.KFold
import proofs.«418037_j8177617731795_1_alg».proof.Proof.KRegion
import proofs.«418037_j8177617731795_1_alg».proof.Proof.LibRows
import Idealize.ShloMosaic.Lib.ValueLayout

set_option maxRecDepth 16384

noncomputable section

open scoped BigOperators

namespace Cert.KernelIdeal.Edge

open Cert.KernelIdeal Cert.KernelIdeal.Gen Idealize.ShloMosaic Idealize.ShloMosaic.TcCoe Idealize.ShloMosaic.ValueIdx
open Idealize.SL.Sem Cert.EdgeConv Cert.KernelIdeal.Take Cert.KernelIdeal.Fold

/-- The index list as a column, at position `e`. -/
theorem col_at (idx : IVec S3200000 32) (e : Fin 3200000) :
    broadcastInDim S3200000x1 ![0] bcast_S3200000_S3200000x1_0 idx (ix2 e (0 : Fin 1)) = idx (ix1 e) :=
  broadcastInDim_apply _ bcast_S3200000_S3200000x1_0 idx _ (ix1 e) (fun a => match a with
    | ⟨0, _⟩ => by show e.val = if (3200000 : Nat) = 1 then 0 else e.val; rw [if_neg (by decide)])

/-! ## The aggregation looks only at edges whose target is a node -/

theorem meanAt2_congr (o o' : FVec Ideal S3200000x2 .f32) (dst : IVec S3200000 32)
    (h : ∀ (e : Fin 3200000) (q : Fin 2), 0 ≤ (dst (ix1 e)).toInt → (dst (ix1 e)).toInt < 100000 →
      o (ix2 e q) = o' (ix2 e q)) :
    meanAt2 o dst = meanAt2 o' dst := by
  unfold meanAt2
  refine congrArg (fun a => Host.divf a _) ?_
  funext i
  obtain ⟨n, q, rfl⟩ : ∃ (n : Fin 100000) (q : Fin 2), i = ix2 n q := ⟨i 0, i 1, eq_ix2 i⟩
  have key := fun u : FVec Ideal S3200000x2 .f32 =>
    rowScatterAdd_apply (N := 100000) (E := 3200000) (C := 2) scatter_S100000x2_S3200000x1_S3200000x2_1_0_0_1_wf
      (broadcastInDim S100000x2 ![] bcast_S_S100000x2 (constant (F := Ideal) S_ .f32 0x00000000#32))
      (broadcastInDim S3200000x1 ![0] bcast_S3200000_S3200000x1_0 dst) u n q
  refine (key o).trans (Eq.trans ?_ (key o').symm)
  refine congrArg (_ + ·) (Finset.sum_congr rfl fun e he => ?_)
  have hrow : (broadcastInDim S3200000x1 ![0] bcast_S3200000_S3200000x1_0 dst (ix2 e (0 : Fin 1))).toInt = (n.val : ℤ) :=
    (Finset.mem_filter.mp he).2
  rw [col_at] at hrow
  exact h e q (by omega) (by have := n.isLt; omega)

theorem meanAt4_congr (o o' : FVec Ideal S3200000x4 .f32) (dst : IVec S3200000 32)
    (h : ∀ (e : Fin 3200000) (q : Fin 4), 0 ≤ (dst (ix1 e)).toInt → (dst (ix1 e)).toInt < 100000 →
      o (ix2 e q) = o' (ix2 e q)) :
    meanAt4 o dst = meanAt4 o' dst := by
  unfold meanAt4
  refine congrArg (fun a => Host.divf a _) ?_
  funext i
  obtain ⟨n, q, rfl⟩ : ∃ (n : Fin 100000) (q : Fin 4), i = ix2 n q := ⟨i 0, i 1, eq_ix2 i⟩
  have key := fun u : FVec Ideal S3200000x4 .f32 =>
    rowScatterAdd_apply (N := 100000) (E := 3200000) (C := 4) scatter_S100000x4_S3200000x1_S3200000x4_1_0_0_1_wf
      (broadcastInDim S100000x4 ![] bcast_S_S100000x4 (constant (F := Ideal) S_ .f32 0x00000000#32))
      (broadcastInDim S3200000x1 ![0] bcast_S3200000_S3200000x1_0 dst) u n q
  refine (key o).trans (Eq.trans ?_ (key o').symm)
  refine congrArg (_ + ·) (Finset.sum_congr rfl fun e he => ?_)
  have hrow : (broadcastInDim S3200000x1 ![0] bcast_S3200000_S3200000x1_0 dst (ix2 e (0 : Fin 1))).toInt = (n.val : ℤ) :=
    (Finset.mem_filter.mp he).2
  rw [col_at] at hrow
  exact h e q (by omega) (by have := n.isLt; omega)

/-! ## The weight arrays read at an entry -/

theorem top8 (w : FVec Ideal S8x32 .f32) (k : Fin 4) (j : Fin 32) :
    extractStridedSlice S4x32 ![0, 0] w slices_S8x32_S4x32_0_0 (ix2 k j) = w (ix2 (⟨k.val, by omega⟩ : Fin 8) j) :=
  slice2_axis0_apply 0 w slices_S8x32_S4x32_0_0 k j _ (Nat.zero_add _).symm

theorem bottom8 (w : FVec Ideal S8x32 .f32) (k : Fin 4) (j : Fin 32) :
    extractStridedSlice S4x32 ![4, 0] w slices_S8x32_S4x32_4_0 (ix2 k j) = w (ix2 (⟨k.val + 4, by omega⟩ : Fin 8) j) :=
  slice2_axis0_apply 4 w slices_S8x32_S4x32_4_0 k j _ (Nat.add_comm _ _)

theorem top4 (w : FVec Ideal S4x32 .f32) (k : Fin 2) (j : Fin 32) :
    extractStridedSlice S2x32 ![0, 0] w slices_S4x32_S2x32_0_0 (ix2 k j) = w (ix2 (⟨k.val, by omega⟩ : Fin 4) j) :=
  slice2_axis0_apply 0 w slices_S4x32_S2x32_0_0 k j _ (Nat.zero_add _).symm

theorem bottom4 (w : FVec Ideal S4x32 .f32) (k : Fin 2) (j : Fin 32) :
    extractStridedSlice S2x32 ![2, 0] w slices_S4x32_S2x32_2_0 (ix2 k j) = w (ix2 (⟨k.val + 2, by omega⟩ : Fin 4) j) :=
  slice2_axis0_apply 2 w slices_S4x32_S2x32_2_0 k j _ (Nat.add_comm _ _)

/-! ## The per-edge values -/

section Rows

variable (m : (ℓ : Loc nD τ sig) → Buf (Elt Ideal) ℓ) (ρ : Dev nD → PrngReg) (c : Dev nD)

/-- Region 0's output at `(e, q)`, where edge `e`'s two numbers lie in `[-100000, 100000)`. -/
theorem edge0 (e : Fin 3200000) (q : Fin 2)
    (hd : (-100000 : ℤ) ≤ (m ((c : Thread nD τ).loc main_arg2) (ix1 e)).toInt ∧ (m ((c : Thread nD τ).loc main_arg2) (ix1 e)).toInt < 100000)
    (hs : (-100000 : ℤ) ≤ (m ((c : Thread nD τ).loc main_arg1) (ix1 e)).toInt ∧ (m ((c : Thread nD τ).loc main_arg1) (ix1 e)).toInt < 100000) :
    (dat0 (V4 m ρ) c).arrAt 9 cfg0.N (ix2 e q)
      = relu (message
          (fun k : Fin 4 => Host.gather gather_S100000x4_S3200000x1_S3200000x4_1_0_n_n_0_1_14
            (W1 m ρ c (Proc.devRef .tc main_v24)) (wrapCol (m ((c : Thread nD τ).loc main_arg2))) (ix2 e k))
          (fun k : Fin 4 => Host.gather gather_S100000x4_S3200000x1_S3200000x4_1_0_n_n_0_1_14
            (W1 m ρ c (Proc.devRef .tc main_v24)) (wrapCol (m ((c : Thread nD τ).loc main_arg1))) (ix2 e k))
          (fun k j => m ((c : Thread nD τ).loc main_arg5) (ix2 (⟨k.val, by omega⟩ : Fin 8) j))
          (fun k j => m ((c : Thread nD τ).loc main_arg5) (ix2 (⟨k.val + 4, by omega⟩ : Fin 8) j))
          (fun j => m ((c : Thread nD τ).loc main_arg6) (ix1 j))
          (fun k j => m ((c : Thread nD τ).loc main_arg7) (ix2 k j))
          (fun j => m ((c : Thread nD τ).loc main_arg8) (ix1 j))
          (fun k j => m ((c : Thread nD τ).loc main_arg9) (ix2 k j))
          (fun j => m ((c : Thread nD τ).loc main_arg10) (ix1 j)) q) := by
  rw [Region.region0_at (V4 m ρ) c e q, in0_xi, in0_xj, in0_w1a, in0_w1b, in0_b1, in0_w2, in0_b2, in0_w3, in0_b3]
  have h3 : ∀ (k : Fin 4) (j : Fin 32), extractStridedSlice S4x32 ![0, 0] (m ((c : Thread nD τ).loc main_arg5)) slices_S8x32_S4x32_0_0 (ix2 k j)
      = m ((c : Thread nD τ).loc main_arg5) (ix2 (⟨k.val, by omega⟩ : Fin 8) j) := fun k j => top8 _ k j
  have h4 : ∀ (k : Fin 4) (j : Fin 32), extractStridedSlice S4x32 ![4, 0] (m ((c : Thread nD τ).loc main_arg5)) slices_S8x32_S4x32_4_0 (ix2 k j)
      = m ((c : Thread nD τ).loc main_arg5) (ix2 (⟨k.val + 4, by omega⟩ : Fin 8) j) := fun k j => bottom8 _ k j
  simp only [take4_at _ _ e _ hd, take4_at _ _ e _ hs, h3, h4, shapeCast_a_1a_apply]

/-- Region 1's output at `(e, q)`, where edge `e`'s two numbers lie in `[-100000, 100000)`. -/
theorem edge1 (e : Fin 3200000) (q : Fin 4)
    (hd : (-100000 : ℤ) ≤ (m ((c : Thread nD τ).loc main_arg2) (ix1 e)).toInt ∧ (m ((c : Thread nD τ).loc main_arg2) (ix1 e)).toInt < 100000)
    (hs : (-100000 : ℤ) ≤ (m ((c : Thread nD τ).loc main_arg1) (ix1 e)).toInt ∧ (m ((c : Thread nD τ).loc main_arg1) (ix1 e)).toInt < 100000) :
    (dat1 (V9 m ρ) c).arrAt 9 cfg1.N (ix2 e q)
      = message
          (fun k : Fin 2 => Host.gather gather_S100000x2_S3200000x1_S3200000x2_1_0_n_n_0_1_12
            (W6 m ρ c (Proc.devRef .tc main_v44)) (wrapCol (m ((c : Thread nD τ).loc main_arg2))) (ix2 e k))
          (fun k : Fin 2 => Host.gather gather_S100000x2_S3200000x1_S3200000x2_1_0_n_n_0_1_12
            (W6 m ρ c (Proc.devRef .tc main_v44)) (wrapCol (m ((c : Thread nD τ).loc main_arg1))) (ix2 e k))
          (fun k j => m ((c : Thread nD τ).loc main_arg11) (ix2 (⟨k.val, by omega⟩ : Fin 4) j))
          (fun k j => m ((c : Thread nD τ).loc main_arg11) (ix2 (⟨k.val + 2, by omega⟩ : Fin 4) j))
          (fun j => m ((c : Thread nD τ).loc main_arg12) (ix1 j))
          (fun k j => m ((c : Thread nD τ).loc main_arg13) (ix2 k j))
          (fun j => m ((c : Thread nD τ).loc main_arg14) (ix1 j))
          (fun k j => m ((c : Thread nD τ).loc main_arg15) (ix2 k j))
          (fun j => m ((c : Thread nD τ).loc main_arg16) (ix1 j)) q := by
  rw [Region.region1_at (V9 m ρ) c e q, in1_xi, in1_xj, in1_w1a, in1_w1b, in1_b1, in1_w2, in1_b2, in1_w3, in1_b3]
  have h3 : ∀ (k : Fin 2) (j : Fin 32), extractStridedSlice S2x32 ![0, 0] (m ((c : Thread nD τ).loc main_arg11)) slices_S4x32_S2x32_0_0 (ix2 k j)
      = m ((c : Thread nD τ).loc main_arg11) (ix2 (⟨k.val, by omega⟩ : Fin 4) j) := fun k j => top4 _ k j
  have h4 : ∀ (k : Fin 2) (j : Fin 32), extractStridedSlice S2x32 ![2, 0] (m ((c : Thread nD τ).loc main_arg11)) slices_S4x32_S2x32_2_0 (ix2 k j)
      = m ((c : Thread nD τ).loc main_arg11) (ix2 (⟨k.val + 2, by omega⟩ : Fin 4) j) := fun k j => bottom4 _ k j
  simp only [take2_at _ _ e _ hd, take2_at _ _ e _ hs, h3, h4, shapeCast_a_1a_apply]

end Rows

end Cert.KernelIdeal.Edge

end
-- ==== Proof.RefRows.lean ====
/-
  The reference's per-edge values, read at one entry.

  In the reference the features of an edge's target and source are two row gathers `xi`, `xj` of the node features;
  the row `[xi, xj - xi]` of width `2d` (a concatenation) goes through three dense layers. Read at row `e`, column
  `q`, the result is the message of Proof/EdgeSpec.lean at rows `e` of the two gathers: a host matrix product is the
  plain sum of products at the ideal values, and the sum over the `2d` joined columns splits at `d`
  (`Cert.EdgeConv.affine_joined`).
-/
import proofs.«418037_j8177617731795_1_alg».proof.Proof.RefRead
import proofs.«418037_j8177617731795_1_alg».proof.Proof.EdgeSpec

noncomputable section

open scoped BigOperators

namespace Cert.ReferenceIdeal.Rows

open Cert.ReferenceIdeal Cert.ReferenceIdeal.ReadCopy Idealize.ShloMosaic Idealize.ShloMosaic.ValueIdx Cert.EdgeConv

/-! ## Finite sums over joined columns -/

/-- A sum over eight positions is the sum over the first four plus the sum over the last four. -/
private theorem sum_eight_split (f : Fin 8 → EReal) :
    (∑ k : Fin 8, f k) = (∑ k : Fin 4, f ⟨k.val, by omega⟩) + ∑ k : Fin 4, f ⟨k.val + 4, by omega⟩ := by
  rw [Fin.sum_univ_eight, Fin.sum_univ_four, Fin.sum_univ_four]
  simp only [add_assoc]
  rfl

/-- A sum over four positions is the sum over the first two plus the sum over the last two. -/
private theorem sum_four_split (f : Fin 4 → EReal) :
    (∑ k : Fin 4, f k) = (∑ k : Fin 2, f ⟨k.val, by omega⟩) + ∑ k : Fin 2, f ⟨k.val + 2, by omega⟩ := by
  rw [Fin.sum_univ_four, Fin.sum_univ_two, Fin.sum_univ_two]
  simp only [add_assoc]
  rfl

/-! ## The first convolution -/

section First

variable (x0 : FVec Ideal S100000x4 .f32) (x1 x2 : IVec S3200000 32) (x3 x4 : FVec Ideal S4 .f32)
  (x5 : FVec Ideal S8x32 .f32) (x6 : FVec Ideal S32 .f32) (x7 : FVec Ideal S32x32 .f32) (x8 : FVec Ideal S32 .f32)
  (x9 : FVec Ideal S32x2 .f32) (x10 : FVec Ideal S2 .f32)

/-- The joined row at a column below 4 is the target's gathered row at that column. -/
private theorem joined0_left (e : Fin 3200000) (k : Fin 4) :
    val_main_v40 (F := Ideal) x0 x1 x2 x3 x4 (ix2 e (⟨k.val, by omega⟩ : Fin 8))
      = val_main_v31 (F := Ideal) x0 x2 x3 x4 (ix2 e k) := by
  unfold val_main_v40
  exact concatenate_pair_apply_left 1 _ _ Gen.concatenates_S3200000x4_S3200000x4_S3200000x8_d1 _ rfl (ix2 e k)
    (fun b => by
      match b with
      | ⟨0, _⟩ => rfl
      | ⟨1, _⟩ => rfl)

/-- The joined row at a column from 4 on is the source's gathered row minus the target's, four columns back. -/
private theorem joined0_right (e : Fin 3200000) (k : Fin 4) :
    val_main_v40 (F := Ideal) x0 x1 x2 x3 x4 (ix2 e (⟨k.val + 4, by omega⟩ : Fin 8))
      = (val_main_v38 (F := Ideal) x0 x1 x3 x4 (ix2 e k) : EReal) - val_main_v31 (F := Ideal) x0 x2 x3 x4 (ix2 e k) := by
  unfold val_main_v40
  refine (concatenate_pair_apply_right 1 _ _ Gen.concatenates_S3200000x4_S3200000x4_S3200000x8_d1 _ rfl rfl (ix2 e k)
    (fun b hb => by
      match b with
      | ⟨0, _⟩ => rfl
      | ⟨1, _⟩ => exact absurd rfl hb) rfl).trans ?_
  rw [val_main_v39_apply, Ideal.subf_def]

/-- The first hidden row: the rectified split first layer at the two gathered rows. -/
private theorem hidden0_first (e : Fin 3200000) (j : Fin 32) :
    val_main_v45 (F := Ideal) x0 x1 x2 x3 x4 x5 x6 (ix2 e j)
      = relu (affine2 (fun k : Fin 4 => val_main_v31 (F := Ideal) x0 x2 x3 x4 (ix2 e k))
          (fun k : Fin 4 => (val_main_v38 (F := Ideal) x0 x1 x3 x4 (ix2 e k) : EReal)
            - val_main_v31 (F := Ideal) x0 x2 x3 x4 (ix2 e k))
          (fun k j => x5 (ix2 (⟨k.val, by omega⟩ : Fin 8) j)) (fun k j => x5 (ix2 (⟨k.val + 4, by omega⟩ : Fin 8) j))
          (fun j => x6 (ix1 j)) j) := by
  rw [val_main_v45_apply, val_main_v44_apply, val_main_v41_apply, val_main_v43_apply, val_main_v42_apply,
    val_main_call0_v0_apply, val_main_call0_cst_apply]
  have el : ∀ k : Fin 8, lidx_main_v41 (ix2 e j) k = ix2 e k := fun k =>
    funext fun a => Fin.ext (by match a with | ⟨0, _⟩ => rfl | ⟨1, _⟩ => rfl)
  have er : ∀ k : Fin 8, ridx_main_v41 (ix2 e j) k = ix2 k j := fun k =>
    funext fun a => Fin.ext (by match a with | ⟨0, _⟩ => rfl | ⟨1, _⟩ => rfl)
  have eb : idx_main_v42 (idx_main_v43 (ix2 e j)) = ix1 j :=
    funext fun a => Fin.ext (by match a with | ⟨0, _⟩ => rfl)
  simp only [el, er, eb]
  rw [sum_eight_split]
  simp only [joined0_left, joined0_right, Ideal.maximumf_def, Ideal.addf_def, Ideal.ofBits_def, Ideal.ofBits_zero_f32]
  unfold relu affine2
  with_reducible rfl

/-- The second hidden row: the rectified second layer of the first hidden row. -/
private theorem hidden0_second (e : Fin 3200000) (j : Fin 32) :
    val_main_v50 (F := Ideal) x0 x1 x2 x3 x4 x5 x6 x7 x8 (ix2 e j)
      = relu (affine (fun k : Fin 32 => val_main_v45 (F := Ideal) x0 x1 x2 x3 x4 x5 x6 (ix2 e k))
          (fun k j => x7 (ix2 k j)) (fun j => x8 (ix1 j)) j) := by
  rw [val_main_v50_apply, val_main_v49_apply, val_main_v46_apply, val_main_v48_apply, val_main_v47_apply,
    val_main_call1_v0_apply, val_main_call1_cst_apply]
  have el : ∀ k : Fin 32, lidx_main_v46 (ix2 e j) k = ix2 e k := fun k =>
    funext fun a => Fin.ext (by match a with | ⟨0, _⟩ => rfl | ⟨1, _⟩ => rfl)
  have er : ∀ k : Fin 32, ridx_main_v46 (ix2 e j) k = ix2 k j := fun k =>
    funext fun a => Fin.ext (by match a with | ⟨0, _⟩ => rfl | ⟨1, _⟩ => rfl)
  have eb : idx_main_v47 (idx_main_v48 (ix2 e j)) = ix1 j :=
    funext fun a => Fin.ext (by match a with | ⟨0, _⟩ => rfl)
  simp only [el, er, eb, Ideal.maximumf_def, Ideal.addf_def, Ideal.ofBits_def, Ideal.ofBits_zero_f32]
  unfold relu affine
  with_reducible rfl

/-- The result row: the rectified third layer of the second hidden row. -/
private theorem out0 (e : Fin 3200000) (q : Fin 2) :
    val_main_v55 (F := Ideal) x0 x1 x2 x3 x4 x5 x6 x7 x8 x9 x10 (ix2 e q)
      = relu (affine (fun k : Fin 32 => val_main_v50 (F := Ideal) x0 x1 x2 x3 x4 x5 x6 x7 x8 (ix2 e k))
          (fun k j => x9 (ix2 k j)) (fun j => x10 (ix1 j)) q) := by
  rw [val_main_v55_apply, val_main_v54_apply, val_main_v51_apply, val_main_v53_apply, val_main_v52_apply,
    val_main_call2_v0_apply, val_main_call2_cst_apply]
  have el : ∀ k : Fin 32, lidx_main_v51 (ix2 e q) k = ix2 e k := fun k =>
    funext fun a => Fin.ext (by match a with | ⟨0, _⟩ => rfl | ⟨1, _⟩ => rfl)
  have er : ∀ k : Fin 32, ridx_main_v51 (ix2 e q) k = ix2 k q := fun k =>
    funext fun a => Fin.ext (by match a with | ⟨0, _⟩ => rfl | ⟨1, _⟩ => rfl)
  have eb : idx_main_v52 (idx_main_v53 (ix2 e q)) = ix1 q :=
    funext fun a => Fin.ext (by match a with | ⟨0, _⟩ => rfl)
  simp only [el, er, eb, Ideal.maximumf_def, Ideal.addf_def, Ideal.ofBits_def, Ideal.ofBits_zero_f32]
  unfold relu affine
  with_reducible rfl

end First

/-- The first convolution's per-edge value at `(e, q)`: the rectified message at rows `e` of its two gathers. -/
theorem layer0_at (x0 : FVec Ideal S100000x4 .f32) (x1 x2 : IVec S3200000 32) (x3 x4 : FVec Ideal S4 .f32)
    (x5 : FVec Ideal S8x32 .f32) (x6 : FVec Ideal S32 .f32) (x7 : FVec Ideal S32x32 .f32) (x8 : FVec Ideal S32 .f32)
    (x9 : FVec Ideal S32x2 .f32) (x10 : FVec Ideal S2 .f32) (e : Fin 3200000) (q : Fin 2) :
    val_main_v55 (F := Ideal) x0 x1 x2 x3 x4 x5 x6 x7 x8 x9 x10 (ix2 e q)
      = relu (message (fun k : Fin 4 => val_main_v31 (F := Ideal) x0 x2 x3 x4 (ix2 e k))
          (fun k : Fin 4 => val_main_v38 (F := Ideal) x0 x1 x3 x4 (ix2 e k))
          (fun k j => x5 (ix2 (⟨k.val, by omega⟩ : Fin 8) j)) (fun k j => x5 (ix2 (⟨k.val + 4, by omega⟩ : Fin 8) j))
          (fun j => x6 (ix1 j)) (fun k j => x7 (ix2 k j)) (fun j => x8 (ix1 j))
          (fun k j => x9 (ix2 k j)) (fun j => x10 (ix1 j)) q) := by
  rw [out0]
  simp only [hidden0_second, hidden0_first]
  unfold message
  with_reducible rfl

/-! ## The second convolution -/

section Second

variable (x0 : FVec Ideal S100000x4 .f32) (x1 x2 : IVec S3200000 32) (x3 x4 : FVec Ideal S4 .f32)
  (x5 : FVec Ideal S8x32 .f32) (x6 : FVec Ideal S32 .f32) (x7 : FVec Ideal S32x32 .f32) (x8 : FVec Ideal S32 .f32)
  (x9 : FVec Ideal S32x2 .f32) (x10 : FVec Ideal S2 .f32) (x11 : FVec Ideal S4x32 .f32) (x12 : FVec Ideal S32 .f32)
  (x13 : FVec Ideal S32x32 .f32) (x14 : FVec Ideal S32 .f32) (x15 : FVec Ideal S32x4 .f32) (x16 : FVec Ideal S4 .f32)

/-- The joined row at a column below 2 is the target's gathered row at that column. -/
private theorem joined1_left (e : Fin 3200000) (k : Fin 2) :
    val_main_v83 (F := Ideal) x0 x1 x2 x3 x4 x5 x6 x7 x8 x9 x10 (ix2 e (⟨k.val, by omega⟩ : Fin 4))
      = val_main_v74 (F := Ideal) x0 x1 x2 x3 x4 x5 x6 x7 x8 x9 x10 (ix2 e k) := by
  unfold val_main_v83
  exact concatenate_pair_apply_left 1 _ _ Gen.concatenates_S3200000x2_S3200000x2_S3200000x4_d1 _ rfl (ix2 e k)
    (fun b => by
      match b with
      | ⟨0, _⟩ => rfl
      | ⟨1, _⟩ => rfl)

/-- The joined row at a column from 2 on is the source's gathered row minus the target's, two columns back. -/
private theorem joined1_right (e : Fin 3200000) (k : Fin 2) :
    val_main_v83 (F := Ideal) x0 x1 x2 x3 x4 x5 x6 x7 x8 x9 x10 (ix2 e (⟨k.val + 2, by omega⟩ : Fin 4))
      = (val_main_v81 (F := Ideal) x0 x1 x2 x3 x4 x5 x6 x7 x8 x9 x10 (ix2 e k) : EReal) - val_main_v74 (F := Ideal) x0 x1 x2 x3 x4 x5 x6 x7 x8 x9 x10 (ix2 e k) := by
  unfold val_main_v83
  refine (concatenate_pair_apply_right 1 _ _ Gen.concatenates_S3200000x2_S3200000x2_S3200000x4_d1 _ rfl rfl (ix2 e k)
    (fun b hb => by
      match b with
      | ⟨0, _⟩ => rfl
      | ⟨1, _⟩ => exact absurd rfl hb) rfl).trans ?_
  rw [val_main_v82_apply, Ideal.subf_def]

/-- The first hidden row: the rectified split first layer at the two gathered rows. -/
private theorem hidden1_first (e : Fin 3200000) (j : Fin 32) :
    val_main_v88 (F := Ideal) x0 x1 x2 x3 x4 x5 x6 x7 x8 x9 x10 x11 x12 (ix2 e j)
      = relu (affine2 (fun k : Fin 2 => val_main_v74 (F := Ideal) x0 x1 x2 x3 x4 x5 x6 x7 x8 x9 x10 (ix2 e k))
          (fun k : Fin 2 => (val_main_v81 (F := Ideal) x0 x1 x2 x3 x4 x5 x6 x7 x8 x9 x10 (ix2 e k) : EReal)
            - val_main_v74 (F := Ideal) x0 x1 x2 x3 x4 x5 x6 x7 x8 x9 x10 (ix2 e k))
          (fun k j => x11 (ix2 (⟨k.val, by omega⟩ : Fin 4) j)) (fun k j => x11 (ix2 (⟨k.val + 2, by omega⟩ : Fin 4) j))
          (fun j => x12 (ix1 j)) j) := by
  rw [val_main_v88_apply, val_main_v87_apply, val_main_v84_apply, val_main_v86_apply, val_main_v85_apply,
    val_main_call3_v0_apply, val_main_call3_cst_apply]
  have el : ∀ k : Fin 4, lidx_main_v84 (ix2 e j) k = ix2 e k := fun k =>
    funext fun a => Fin.ext (by match a with | ⟨0, _⟩ => rfl | ⟨1, _⟩ => rfl)
  have er : ∀ k : Fin 4, ridx_main_v84 (ix2 e j) k = ix2 k j := fun k =>
    funext fun a => Fin.ext (by match a with | ⟨0, _⟩ => rfl | ⟨1, _⟩ => rfl)
  have eb : idx_main_v85 (idx_main_v86 (ix2 e j)) = ix1 j :=
    funext fun a => Fin.ext (by match a with | ⟨0, _⟩ => rfl)
  simp only [el, er, eb]
  rw [sum_four_split]
  simp only [joined1_left, joined1_right, Ideal.maximumf_def, Ideal.addf_def, Ideal.ofBits_def, Ideal.ofBits_zero_f32]
  unfold relu affine2
  with_reducible rfl

/-- The second hidden row: the rectified second layer of the first hidden row. -/
private theorem hidden1_second (e : Fin 3200000) (j : Fin 32) :
    val_main_v93 (F := Ideal) x0 x1 x2 x3 x4 x5 x6 x7 x8 x9 x10 x11 x12 x13 x14 (ix2 e j)
      = relu (affine (fun k : Fin 32 => val_main_v88 (F := Ideal) x0 x1 x2 x3 x4 x5 x6 x7 x8 x9 x10 x11 x12 (ix2 e k))
          (fun k j => x13 (ix2 k j)) (fun j => x14 (ix1 j)) j) := by
  rw [val_main_v93_apply, val_main_v92_apply, val_main_v89_apply, val_main_v91_apply, val_main_v90_apply,
    val_main_call4_v0_apply, val_main_call4_cst_apply]
  have el : ∀ k : Fin 32, lidx_main_v89 (ix2 e j) k = ix2 e k := fun k =>
    funext fun a => Fin.ext (by match a with | ⟨0, _⟩ => rfl | ⟨1, _⟩ => rfl)
  have er : ∀ k : Fin 32, ridx_main_v89 (ix2 e j) k = ix2 k j := fun k =>
    funext fun a => Fin.ext (by match a with | ⟨0, _⟩ => rfl | ⟨1, _⟩ => rfl)
  have eb : idx_main_v90 (idx_main_v91 (ix2 e j)) = ix1 j :=
    funext fun a => Fin.ext (by match a with | ⟨0, _⟩ => rfl)
  simp only [el, er, eb, Ideal.maximumf_def, Ideal.addf_def, Ideal.ofBits_def, Ideal.ofBits_zero_f32]
  unfold relu affine
  with_reducible rfl

/-- The result row: the third layer of the second hidden row, with no rectifier after it. -/
private theorem out1 (e : Fin 3200000) (q : Fin 4) :
    val_main_v97 (F := Ideal) x0 x1 x2 x3 x4 x5 x6 x7 x8 x9 x10 x11 x12 x13 x14 x15 x16 (ix2 e q)
      = affine (fun k : Fin 32 => val_main_v93 (F := Ideal) x0 x1 x2 x3 x4 x5 x6 x7 x8 x9 x10 x11 x12 x13 x14 (ix2 e k))
          (fun k j => x15 (ix2 k j)) (fun j => x16 (ix1 j)) q := by
  rw [val_main_v97_apply, val_main_v94_apply, val_main_v96_apply, val_main_v95_apply]
  have el : ∀ k : Fin 32, lidx_main_v94 (ix2 e q) k = ix2 e k := fun k =>
    funext fun a => Fin.ext (by match a with | ⟨0, _⟩ => rfl | ⟨1, _⟩ => rfl)
  have er : ∀ k : Fin 32, ridx_main_v94 (ix2 e q) k = ix2 k q := fun k =>
    funext fun a => Fin.ext (by match a with | ⟨0, _⟩ => rfl | ⟨1, _⟩ => rfl)
  have eb : idx_main_v95 (idx_main_v96 (ix2 e q)) = ix1 q :=
    funext fun a => Fin.ext (by match a with | ⟨0, _⟩ => rfl)
  simp only [el, er, eb, Ideal.addf_def]
  unfold affine
  with_reducible rfl

end Second

/-- The second convolution's per-edge value at `(e, q)`: the message at rows `e` of its two gathers (no last rectifier). -/
theorem layer1_at (x0 : FVec Ideal S100000x4 .f32) (x1 x2 : IVec S3200000 32) (x3 x4 : FVec Ideal S4 .f32)
    (x5 : FVec Ideal S8x32 .f32) (x6 : FVec Ideal S32 .f32) (x7 : FVec Ideal S32x32 .f32) (x8 : FVec Ideal S32 .f32)
    (x9 : FVec Ideal S32x2 .f32) (x10 : FVec Ideal S2 .f32) (x11 : FVec Ideal S4x32 .f32) (x12 : FVec Ideal S32 .f32)
    (x13 : FVec Ideal S32x32 .f32) (x14 : FVec Ideal S32 .f32) (x15 : FVec Ideal S32x4 .f32) (x16 : FVec Ideal S4 .f32)
    (e : Fin 3200000) (q : Fin 4) :
    val_main_v97 (F := Ideal) x0 x1 x2 x3 x4 x5 x6 x7 x8 x9 x10 x11 x12 x13 x14 x15 x16 (ix2 e q)
      = message (fun k : Fin 2 => val_main_v74 (F := Ideal) x0 x1 x2 x3 x4 x5 x6 x7 x8 x9 x10 (ix2 e k))
          (fun k : Fin 2 => val_main_v81 (F := Ideal) x0 x1 x2 x3 x4 x5 x6 x7 x8 x9 x10 (ix2 e k))
          (fun k j => x11 (ix2 (⟨k.val, by omega⟩ : Fin 4) j)) (fun k j => x11 (ix2 (⟨k.val + 2, by omega⟩ : Fin 4) j))
          (fun j => x12 (ix1 j)) (fun k j => x13 (ix2 k j)) (fun j => x14 (ix1 j))
          (fun k j => x15 (ix2 k j)) (fun j => x16 (ix1 j)) q := by
  rw [out1]
  simp only [hidden1_second, hidden1_first]
  unfold message
  with_reducible rfl

end Cert.ReferenceIdeal.Rows

end
-- ==== Proof.Bridge.lean ====
/-
  The kernel program's result is the reference's last stage of the arguments.

  Both programs normalise the node features by the same operations, and in each of the two layers

  * gather a target row and a source row per edge (the kernel with a fill outside the rows, the reference clamped),
  * compute the edge's message (Proof/EdgeSpec.lean; the kernel in the split arrangement of the first product inside
    its region, the reference in the joined one),
  * and average the messages arriving at each node.

  Where every source number lies in `[-100000, 100000)` the two results are equal: the aggregation only looks at edges
  whose target number is a node (Proof/KEdge.lean `meanAt2_congr`, `meanAt4_congr`), for such an edge both numbers are
  in that range, there the kernel's filled takes are the reference's gathers (Proof/Take.lean), and the two messages
  are then one function of the same rows and weights.
-/
import proofs.«418037_j8177617731795_1_alg».proof.Proof.KEdge
import proofs.«418037_j8177617731795_1_alg».proof.Proof.RefRows

set_option maxRecDepth 16384

noncomputable section

namespace Cert.Bridge

open Cert.KernelIdeal Cert.KernelIdeal.Gen Idealize.ShloMosaic Idealize.ShloMosaic.TcCoe Idealize.ShloMosaic.ValueIdx
open Idealize.SL.Sem Idealize.ShloMosaic.StableHlo Cert.EdgeConv Cert.KernelIdeal.Take Cert.KernelIdeal.Fold Cert.KernelIdeal.Edge

/-! ## The two programs' common host operations, at any float values -/

section Generic

variable {F : FTy → Type} [FloatOps F]

/-- The normalisation of the node features is the same line of operations in both programs. -/
theorem features_generic (U : Valuation τ sig (Elt F)) :
    StableHlo.after (hostOps0 (F := F)) U (Proc.devRef .tc main_v24)
      = Cert.ReferenceIdeal.ReadCopy.val_main_v24 (F := F) (U (Proc.devRef .tc main_arg0)) (U (Proc.devRef .tc main_arg3)) (U (Proc.devRef .tc main_arg4)) := by
  after_results_simp
  rfl

variable (x0 : FVec F S100000x4 .f32) (x1 x2 : IVec S3200000 32) (x3 x4 : FVec F S4 .f32) (x5 : FVec F S8x32 .f32)
  (x6 : FVec F S32 .f32) (x7 : FVec F S32x32 .f32) (x8 : FVec F S32 .f32) (x9 : FVec F S32x2 .f32) (x10 : FVec F S2 .f32)
  (x11 : FVec F S4x32 .f32) (x12 : FVec F S32 .f32) (x13 : FVec F S32x32 .f32) (x14 : FVec F S32 .f32)
  (x15 : FVec F S32x4 .f32) (x16 : FVec F S4 .f32)

/-- The reference's target rows of layer 0: the gather of the features at the wrapped `dst`. -/
theorem gather0_dst : Cert.ReferenceIdeal.ReadCopy.val_main_v31 (F := F) x0 x2 x3 x4
    = Host.gather gather_S100000x4_S3200000x1_S3200000x4_1_0_n_n_0_1_14 (Cert.ReferenceIdeal.ReadCopy.val_main_v24 (F := F) x0 x3 x4) (wrapCol x2) := rfl

/-- The reference's source rows of layer 0: the gather of the features at the wrapped `src`. -/
theorem gather0_src : Cert.ReferenceIdeal.ReadCopy.val_main_v38 (F := F) x0 x1 x3 x4
    = Host.gather gather_S100000x4_S3200000x1_S3200000x4_1_0_n_n_0_1_14 (Cert.ReferenceIdeal.ReadCopy.val_main_v24 (F := F) x0 x3 x4) (wrapCol x1) := rfl

/-- The reference's hidden features: the mean aggregation of layer 0's per-edge values. -/
theorem mean2_generic : Cert.ReferenceIdeal.ReadCopy.val_main_v67 (F := F) x0 x1 x2 x3 x4 x5 x6 x7 x8 x9 x10
    = meanAt2 (Cert.ReferenceIdeal.ReadCopy.val_main_v55 (F := F) x0 x1 x2 x3 x4 x5 x6 x7 x8 x9 x10) x2 := rfl

/-- The reference's target rows of layer 1. -/
theorem gather1_dst : Cert.ReferenceIdeal.ReadCopy.val_main_v74 (F := F) x0 x1 x2 x3 x4 x5 x6 x7 x8 x9 x10
    = Host.gather gather_S100000x2_S3200000x1_S3200000x2_1_0_n_n_0_1_12 (Cert.ReferenceIdeal.ReadCopy.val_main_v67 (F := F) x0 x1 x2 x3 x4 x5 x6 x7 x8 x9 x10) (wrapCol x2) := rfl

/-- The reference's source rows of layer 1. -/
theorem gather1_src : Cert.ReferenceIdeal.ReadCopy.val_main_v81 (F := F) x0 x1 x2 x3 x4 x5 x6 x7 x8 x9 x10
    = Host.gather gather_S100000x2_S3200000x1_S3200000x2_1_0_n_n_0_1_12 (Cert.ReferenceIdeal.ReadCopy.val_main_v67 (F := F) x0 x1 x2 x3 x4 x5 x6 x7 x8 x9 x10) (wrapCol x1) := rfl

/-- The reference's result: the mean aggregation of layer 1's per-edge values. -/
theorem mean4_generic : Cert.ReferenceIdeal.ReadCopy.val_main_v109 (F := F) x0 x1 x2 x3 x4 x5 x6 x7 x8 x9 x10 x11 x12 x13 x14 x15 x16
    = meanAt4 (Cert.ReferenceIdeal.ReadCopy.val_main_v97 (F := F) x0 x1 x2 x3 x4 x5 x6 x7 x8 x9 x10 x11 x12 x13 x14 x15 x16) x2 := rfl

end Generic

/-! ## The kernel program's stages are the reference's -/

section Main

variable (m : (ℓ : Loc nD τ sig) → Buf (Elt Ideal) ℓ) (ρ : Dev nD → PrngReg) (c : Dev nD)

/-- The normalised node features. -/
theorem features_eq : W1 m ρ c (Proc.devRef .tc main_v24)
    = Cert.ReferenceIdeal.ReadCopy.val_main_v24 (F := Ideal) (m ((c : Thread nD τ).loc main_arg0)) (m ((c : Thread nD τ).loc main_arg3)) (m ((c : Thread nD τ).loc main_arg4)) :=
  features_generic (W0 m ρ c)

/-- The hidden features after layer 0, where every source number is in `[-100000, 100000)`. -/
theorem hidden_eq
    (hsrc : ∀ e : Fin 3200000, (-100000 : ℤ) ≤ ((m ((c : Thread nD τ).loc main_arg1)) (ix1 e)).toInt ∧ ((m ((c : Thread nD τ).loc main_arg1)) (ix1 e)).toInt < 100000) :
    W6 m ρ c (Proc.devRef .tc main_v44)
      = Cert.ReferenceIdeal.ReadCopy.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [feat1, out0, mean2_generic]
  refine meanAt2_congr _ _ _ fun e q h0 h1 => ?_
  rw [edge0 m ρ c e q ⟨by omega, h1⟩ (hsrc e), Cert.ReferenceIdeal.Rows.layer0_at, features_eq, gather0_dst, gather0_src]

/-- The result, where every source number is in `[-100000, 100000)`. -/
theorem result_eq
    (hsrc : ∀ e : Fin 3200000, (-100000 : ℤ) ≤ ((m ((c : Thread nD τ).loc main_arg1)) (ix1 e)).toInt ∧ ((m ((c : Thread nD τ).loc main_arg1)) (ix1 e)).toInt < 100000) :
    W11 m ρ c (Proc.devRef .tc main_v64)
      = Cert.ReferenceIdeal.ReadCopy.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [result, mean4_generic]
  refine meanAt4_congr _ _ _ fun e q h0 h1 => ?_
  rw [edge1 m ρ c e q ⟨by omega, h1⟩ (hsrc e), Cert.ReferenceIdeal.Rows.layer1_at, hidden_eq m ρ c hsrc, gather1_dst, gather1_src]

end Main

end Cert.Bridge

end
-- ==== Proof.PreDecode.lean ====
/-
  What the added conjunct of the precondition says, entry by entry.

  The precondition is a conjunction: every float input finite, and every entry of the source-index list `src` in
  `[-100000, 100000)` as a signed number. The last conjunct is the outermost one of the printed predicate, an
  all-reduction over the 3 200 000 entries of the conjunction of two signed compares against constants; where the
  whole predicate is one, each entry passes both compares.
-/
import proofs.«418037_j8177617731795_1_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Decode

open Cert.Pre_finite_inputs Idealize.ShloMosaic Idealize.ShloMosaic.ValueIdx

/-- A rank-0 shape has one index. -/
private instance : Subsingleton S_.Idx := ⟨fun a b => funext fun d => d.elim0⟩

/-- The last part of the predicate alone: where it is one, the all-reduction it ends in is one, so every entry of the
    list passes both signed compares, against `-100000` from below and against `100000` from above. -/
private theorem part4_range [Cert.Pre_finite_inputs.Facts] (a1 : IVec S3200000 32) (a16 : FVec Ideal S4 .f32)
    (v63 v67 : IVec S_ 1) (h : fn_part4 (F := Ideal) a1 a16 v63 v67 = (fun _ => 1#1)) (e : Fin 3200000) :
    (-100000 : ℤ) ≤ (a1 (ix1 e)).toInt ∧ (a1 (ix1 e)).toInt < 100000 := by
  have h0 := congrFun h ix0
  dsimp only [fn_part4] at h0
  rw [andi, IntOp.andi_eq_one] at h0
  have hall := Host.reduce_andi_all _ _ _ _ _ h0.2 (ix1 e)
  rw [andi, IntOp.andi_eq_one] at hall
  obtain ⟨hge, hlt⟩ := hall
  rw [cmpi, IntOp.cmpi_sge, StableHlo.Predicate.bcast_scalar _ Facts.h_S_, constantI] at hge
  rw [cmpi, IntOp.cmpi_slt, StableHlo.Predicate.bcast_scalar _ Facts.h_S_, constantI] at hlt
  have c1 : (4294867296#32 : BitVec 32).toInt = -100000 := by decide
  have c2 : (100000#32 : BitVec 32).toInt = 100000 := by decide
  rw [c1] at hge
  rw [c2] at hlt
  exact ⟨hge, hlt⟩

/-- Where the precondition holds, every source index is in `[-100000, 100000)` as a signed number. -/
theorem src_range [Cert.Pre_finite_inputs.Facts]
    (a0 : FVec Ideal S100000x4 .f32) (a1 a2 : IVec S3200000 32) (a3 a4 : FVec Ideal S4 .f32)
    (a5 : FVec Ideal S8x32 .f32) (a6 : FVec Ideal S32 .f32) (a7 : FVec Ideal S32x32 .f32) (a8 : FVec Ideal S32 .f32)
    (a9 : FVec Ideal S32x2 .f32) (a10 : FVec Ideal S2 .f32) (a11 : FVec Ideal S4x32 .f32) (a12 : FVec Ideal S32 .f32)
    (a13 : FVec Ideal S32x32 .f32) (a14 : FVec Ideal S32 .f32) (a15 : FVec Ideal S32x4 .f32) (a16 : FVec Ideal S4 .f32)
    (h : fn (F := Ideal) a0 a1 a2 a3 a4 a5 a6 a7 a8 a9 a10 a11 a12 a13 a14 a15 a16 = (fun _ => 1#1))
    (e : Fin 3200000) :
    (-100000 : ℤ) ≤ (a1 (ix1 e)).toInt ∧ (a1 (ix1 e)).toInt < 100000 :=
  part4_range a1 a16 _ _ h e

end Cert.Pre_finite_inputs.Decode

end
-- ==== Proof.lean ====
/-
  The certificate's five claims.

  The statement carries one added conjunct of the precondition: every entry of the source-index list lies in
  `[-100000, 100000)` (an integer index in range of the 100000-row array it indexes, a negative entry counting from
  the end). Under it the kernel program and the reference compute the same node features:

  * the three frames: the two kernel programs' by their generated frame certificates, the reference's by its run with
    the result dropped;
  * the kernel's idealization rewrote no operation, so nothing is owed for it;
  * the two idealized programs end with equal results: the kernel program's result buffer ends at the last boundary's
    contents (Proof/KernelRun.lean), the reference's at its operations' fold (Proof/RefRun.lean), which is the last
    stage of the arguments (Proof/RefFold.lean), and the two are equal where the source numbers are in range
    (Proof/Bridge.lean), which the precondition says (Proof/PreDecode.lean).
-/
import proofs.«418037_j8177617731795_1_alg».proof.Defs
import proofs.«418037_j8177617731795_1_alg».proof.Proof.Gen.Kernel
import proofs.«418037_j8177617731795_1_alg».proof.Proof.Gen.Kernel.Skeleton
import proofs.«418037_j8177617731795_1_alg».proof.Proof.Gen.Kernel.Launch
import proofs.«418037_j8177617731795_1_alg».proof.Proof.Gen.Kernel.Points
import proofs.«418037_j8177617731795_1_alg».proof.Proof.Gen.Kernel.Frame
import proofs.«418037_j8177617731795_1_alg».proof.Proof.Gen.KernelIdeal
import proofs.«418037_j8177617731795_1_alg».proof.Proof.Gen.KernelIdeal.Skeleton
import proofs.«418037_j8177617731795_1_alg».proof.Proof.Gen.KernelIdeal.Launch
import proofs.«418037_j8177617731795_1_alg».proof.Proof.Gen.KernelIdeal.Points
import proofs.«418037_j8177617731795_1_alg».proof.Proof.Gen.KernelIdeal.Frame
import proofs.«418037_j8177617731795_1_alg».proof.Proof.Gen.ReferenceIdeal
import proofs.«418037_j8177617731795_1_alg».proof.Proof.Gen.Pre_finite_inputs
import proofs.«418037_j8177617731795_1_alg».proof.Proof.KernelRun
import proofs.«418037_j8177617731795_1_alg».proof.Proof.RefRun
import proofs.«418037_j8177617731795_1_alg».proof.Proof.RefFold
import proofs.«418037_j8177617731795_1_alg».proof.Proof.Bridge
import proofs.«418037_j8177617731795_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.RunCopy.run (F := Ideal) m ρ)

/-- Both idealized programs end with the reference's last stage of the (agreeing) arguments. -/
theorem algebraic : Cert.algebraic_KernelIdeal_ReferenceIdeal := by
  intro m ρ m' ρ' hpre hagree
  refine ⟨fun c => Cert.KernelIdeal.Gen.W11 m ρ c (Proc.devRef .tc Cert.KernelIdeal.main_v64),
    Cert.KernelIdeal.RunValue.run_value m ρ, ?_⟩
  refine (θ_run Cert.ReferenceIdeal.defs _ _).mono (fun _ h c => ⟨(h c).1.trans ?_, (h c).2⟩)
    (Cert.ReferenceIdeal.RunCopy.run (F := Ideal) m' ρ')
  rw [Cert.ReferenceIdeal.Fold.ref_value m' c]
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  exact (Cert.Bridge.result_eq m ρ c
    (fun e => Cert.Pre_finite_inputs.Decode.src_range _ _ _ _ _ _ _ _ _ _ _ _ _ _ _ _ _ (hpre c) e)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
